-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S262144 : Shape := ⟨1, ![262144]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S262144 : S_.BroadcastsInDim S262144 (![] : Fin 0 → Fin S262144.rank)
  reducesTo_S262144_S_d0 : S262144.ReducesTo [0] S_

variable [Facts]

def fn {F : FTy → Type} [FloatOps F] (main_arg0 : FVec F S262144x128 .f32) (main_arg1 : IVec S262144 32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_c_0 : IVec S_ 32 := constantI S_ 32 0#32
  let main_v4 : IVec S262144 32 := broadcastInDim S262144 ![] bcast_S_S262144 main_c_0
  let main_v5 : IVec S262144 1 := cmpi .sge main_arg1 main_v4
  let main_c_1 : IVec S_ 32 := constantI S_ 32 1000#32
  let main_v6 : IVec S262144 32 := broadcastInDim S262144 ![] bcast_S_S262144 main_c_1
  let main_v7 : IVec S262144 1 := cmpi .slt main_arg1 main_v6
  let main_v8 : IVec S262144 1 := andi main_v5 main_v7
  let main_c_2 : IVec S_ 1 := constantI S_ 1 1#1
  let main_v9 : IVec S_ 1 := (fun x v => Host.reduce IntOp.andi x v reducesTo_S262144_S_d0 h_S_) main_v8 main_c_2
  let main_v10 : IVec S_ 1 := andi main_v3 main_v9
  main_v10
-- ==== Kernel.lean ====
abbrev S262144x128 : Shape := ⟨2, ![262144, 128]⟩
abbrev S262144 : Shape := ⟨1, ![262144]⟩
abbrev S262144x1 : Shape := ⟨2, ![262144, 1]⟩
abbrev S1024x128 : Shape := ⟨2, ![1024, 128]⟩
abbrev S1x1024 : Shape := ⟨2, ![1, 1024]⟩
abbrev S1024x1 : Shape := ⟨2, ![1024, 1]⟩
abbrev S1024x1024 : Shape := ⟨2, ![1024, 1024]⟩
abbrev S1024 : Shape := ⟨1, ![1024]⟩
abbrev S_ : Shape := ⟨0, ![]⟩
abbrev S1x1 : Shape := ⟨2, ![1, 1]⟩
abbrev S1 : Shape := ⟨1, ![1]⟩

abbrev nBuf : Space → Nat
  | .hbm => 69
  | .vmem => 16
  | .smem => 0
  | _ => 0

abbrev bufTy : (tb : Table) → Fin (tcTables nBuf tb) → BufTy
  | .hbm, ⟨0, _⟩ => ⟨S262144x128, .f32⟩
  | .hbm, ⟨1, _⟩ => ⟨S262144, .i32⟩
  | .hbm, ⟨2, _⟩ => ⟨S262144x1, .i32⟩
  | .hbm, ⟨3, _⟩ => ⟨S1024x128, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S1x1024, .i1⟩
  | .hbm, ⟨8, _⟩ => ⟨S1x1024, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x128, .f32⟩
  | .hbm, ⟨14, _⟩ => ⟨S1024x128, .f32⟩
  | .hbm, ⟨15, _⟩ => ⟨S1x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x1, .f32⟩
  | .hbm, ⟨20, _⟩ => ⟨S1x1, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x1, .i32⟩
  | .local _ .vmem, ⟨3, _⟩ => ⟨S1024x1, .i32⟩
  | .local _ .vmem, ⟨4, _⟩ => ⟨S1024x128, .f32⟩
  | .local _ .vmem, ⟨5, _⟩ => ⟨S1x1024, .f32⟩
  | .local _ .vmem, ⟨6, _⟩ => ⟨S1024x128, .f32⟩
  | .local _ .vmem, ⟨7, _⟩ => ⟨S1024x128, .f32⟩
  | .local _ .vmem, ⟨8, _⟩ => ⟨S1024x1, .i32⟩
  | .local _ .vmem, ⟨9, _⟩ => ⟨S1024x1, .i32⟩
  | .local _ .vmem, ⟨10, _⟩ => ⟨S1024x128, .f32⟩
  | .local _ .vmem, ⟨11, _⟩ => ⟨S1x1, .f32⟩
  | .local _ .vmem, ⟨12, _⟩ => ⟨S1024x128, .f32⟩
  | .local _ .vmem, ⟨13, _⟩ => ⟨S1x1024, .f32⟩
  | .local _ .vmem, ⟨14, _⟩ => ⟨S1x1, .f32⟩
  | .local _ .vmem, ⟨15, _⟩ => ⟨S1x1, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_cst_7 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_cst_9 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v26 : Ref sig .tc := ⟨.hbm, 47, rfl⟩
abbrev main_v27 : Ref sig .tc := ⟨.hbm, 48, rfl⟩
abbrev main_cst_10 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_11 : Ref sig .tc := ⟨.hbm, 53, rfl⟩
abbrev main_v31 : Ref sig .tc := ⟨.hbm, 54, rfl⟩
abbrev main_cst_12 : Ref sig .tc := ⟨.hbm, 55, rfl⟩
abbrev main_v32 : Ref sig .tc := ⟨.hbm, 56, rfl⟩
abbrev main_cst_13 : Ref sig .tc := ⟨.hbm, 57, rfl⟩
abbrev main_v33 : Ref sig .tc := ⟨.hbm, 58, rfl⟩
abbrev main_cst_14 : Ref sig .tc := ⟨.hbm, 59, rfl⟩
abbrev main_v34 : Ref sig .tc := ⟨.hbm, 60, rfl⟩
abbrev main_v35 : Ref sig .tc := ⟨.hbm, 61, rfl⟩
abbrev main_cst_15 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc2_sem0_0 : DmaSem sig := 12
abbrev cc2_sem1_0 : DmaSem sig := 13
abbrev cc2_sem2_0 : DmaSem sig := 14
abbrev cc2_sem3_0 : DmaSem sig := 15

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![256], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1024x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  shapeCasts_S262144_S262144x1 : S262144.ShapeCasts S262144x1
  inb_S1024x128_S1024x128_0_0 : ∀ a, (![0, 0] : Fin 2 → Nat) a + S1024x128.size a ≤ S1024x128.size a
  h_S1024x128 : 0 < S1024x128.numel
  inb_S1x1024_S1x1024_0_0 : ∀ a, (![0, 0] : Fin 2 → Nat) a + S1x1024.size a ≤ S1x1024.size a
  h_S1x1024 : 0 < S1x1024.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x1024_d1_w32 : S1024x1024.Iotas .tc 32 [1]
  broadcasts_S1024x1_S1024x1024 : S1024x1.Broadcasts S1024x1024
  natLt_1_32 : 1 < 32
  bitsLt_bf16_f32 : FTy.bits .bf16 < FTy.bits .f32
  shapeCasts_S1024x128_S1024x128 : S1024x128.ShapeCasts S1024x128
  shapeCasts_S1x1024_S1x1024 : S1x1024.ShapeCasts S1x1024
  reduces_S1024x1024_S1024 : S1024x1024.Reduces [0] S1024
  shapeCasts_S1024_S1x1024 : S1024.ShapeCasts S1x1024
  bcast_S_S1x1024 : S_.BroadcastsInDim S1x1024 (![] : Fin 0 → Fin S1x1024.rank)
  transposes_S1x1024_S1024x1_1_0 : S1x1024.Transposes [1, 0] S1024x1
  bcast_S_S1024x1 : S_.BroadcastsInDim S1024x1 (![] : Fin 0 → Fin S1024x1.rank)
  bcast_S1024x1_S1024x128_0_1 : S1024x1.BroadcastsInDim S1024x128 (![0, 1] : Fin 2 → Fin S1024x128.rank)
  inb_S1x1_S1x1_0_0 : ∀ a, (![0, 0] : Fin 2 → Nat) a + S1x1.size a ≤ S1x1.size a
  h_S1x1 : 0 < S1x1.numel
  reduces_S1024x128_S1024 : S1024x128.Reduces [1] S1024
  shapeCasts_S1024_S1024x1 : S1024.ShapeCasts S1024x1
  shapeCasts_S1x1_S1x1 : S1x1.ShapeCasts S1x1
  reduces_S1024x1_S1 : S1024x1.Reduces [0] S1
  shapeCasts_S1_S1x1 : S1.ShapeCasts S1x1
  shapeCasts_S1x1_S_ : S1x1.ShapeCasts S_
  transposes_S1024x1_p1_0_S1x1024 : S1024x1.Transposes [1, 0] S1x1024
  broadcasts_S1x1024_S1024x1024 : S1x1024.Broadcasts S1024x1024
  iota_S1024x1024_d0_w32 : S1024x1024.Iotas .tc 32 [0]
  transposes_S1x1024_p1_0_S1024x1 : S1x1024.Transposes [1, 0] S1024x1
  reduces_S1024x1024_S1024_2 : S1024x1024.Reduces [1] S1024
  reduces_S1x1024_S1 : S1x1024.Reduces [1] S1
  dot_S1024x1024_S1024x128_S1024x128_0_0_1_1_n_n_wf : DotDims.WF S1024x1024 S1024x128 S1024x128 [0] [0] [1] [1] [] []
  dot_S1024x1024_S1024x128_S1024x128_1_0_0_1_n_n_wf : DotDims.WF S1024x1024 S1024x128 S1024x128 [1] [0] [0] [1] [] []
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S262144x128.size a
  hwx0_0 : ∀ i : grid0.Coords, EltTy.bits .f32 = 32 ∨ (Rect.block (s := S262144x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S262144x1.size a
  hwx0_1 : ∀ i : grid0.Coords, EltTy.bits .i32 = 32 ∨ (Rect.block (s := S262144x1) S1024x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .f32 = 32 ∨ (Rect.block (s := S1024x128) S1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S262144x128.size a
  hwx1_0 : ∀ i : grid1.Coords, EltTy.bits .f32 = 32 ∨ (Rect.block (s := S262144x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S262144x1.size a
  hwx1_1 : ∀ i : grid1.Coords, EltTy.bits .i32 = 32 ∨ (Rect.block (s := S262144x1) S1024x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S1024x128.size a
  hwx1_2 : ∀ i : grid1.Coords, EltTy.bits .f32 = 32 ∨ (Rect.block (s := S1024x128) S1024x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S1024x128.size a
  hwx2_0 : ∀ i : grid2.Coords, EltTy.bits .f32 = 32 ∨ (Rect.block (s := S1024x128) S1024x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1024.size a ≤ S1x1024.size a
  hwx2_1 : ∀ i : grid2.Coords, EltTy.bits .f32 = 32 ∨ (Rect.block (s := S1x1024) S1x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)

variable [Facts₀]

def dot_S1024x1024_S1024x128_S1024x128_0_0_1_1_n_n : DotDims S1024x1024 S1024x128 S1024x128 where
  lhsContracting := [0]
  rhsContracting := [0]
  lhsNonContracting := [1]
  rhsNonContracting := [1]
  lhsBatch := []
  rhsBatch := []
  wf := dot_S1024x1024_S1024x128_S1024x128_0_0_1_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1024x128.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1024.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1024x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v9) S1024x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v4) S1x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13_0) S1x1.size cc2_transform_2 reads2_2 true true 1 stage2_2 sem2_2
    hrank2 hreads2_2 hinb2_2 nbuf2_2 (Memref.isWhole_whole _) hwx2_2 hstage2_2

abbrev win2_3 : Pipeline.Window sig grid2 :=
  Pipeline.Window.ofSpec (Memref.whole main_v13_1) S1x1.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S262144x128 : Shape := ⟨2, ![262144, 128]⟩
abbrev S262144 : Shape := ⟨1, ![262144]⟩
abbrev S_ : Shape := ⟨0, ![]⟩
abbrev S1000 : Shape := ⟨1, ![1000]⟩
abbrev S262144x1 : Shape := ⟨2, ![262144, 1]⟩
abbrev S1000x128 : Shape := ⟨2, ![1000, 128]⟩
abbrev S1000x1 : Shape := ⟨2, ![1000, 1]⟩
abbrev S1x1000 : Shape := ⟨2, ![1, 1000]⟩
abbrev S1000x1000 : Shape := ⟨2, ![1000, 1000]⟩
abbrev S128x1000 : Shape := ⟨2, ![128, 1000]⟩

abbrev nBuf : Space → Nat
  | .hbm => 133
  | .vmem => 0
  | .smem => 0
  | _ => 0

abbrev hbmTy0_0 (i : Nat) : BufTy := match i % 128 with
  | 0 => ⟨S262144x128, .f32⟩
  | 1 => ⟨S262144, .i32⟩
  | 2 => ⟨S_, .f32⟩
  | 3 => ⟨S262144, .f32⟩
  | 4 => ⟨S_, .f32⟩
  | 5 => ⟨S1000, .f32⟩
  | 6 => ⟨S262144x1, .i32⟩
  | 7 => ⟨S1000, .f32⟩
  | 8 => ⟨S_, .f32⟩
  | 9 => ⟨S1000x128, .f32⟩
  | 10 => ⟨S262144x1, .i32⟩
  | 11 => ⟨S1000x128, .f32⟩
  | 12 => ⟨S_, .f32⟩
  | 13 => ⟨S1000, .f32⟩
  | 14 => ⟨S1000, .i1⟩
  | 15 => ⟨S_, .f32⟩
  | 16 => ⟨S1000, .f32⟩
  | 17 => ⟨S1000, .f32⟩
  | 18 => ⟨S1000x1, .f32⟩
  | 19 => ⟨S1000x128, .f32⟩
  | 20 => ⟨S1000x128, .f32⟩
  | 21 => ⟨S_, .i32⟩
  | 22 => ⟨S262144, .i32⟩
  | 23 => ⟨S262144, .i1⟩
  | 24 => ⟨S_, .i32⟩
  | 25 => ⟨S262144, .i32⟩
  | 26 => ⟨S262144, .i32⟩
  | 27 => ⟨S262144, .i32⟩
  | 28 => ⟨S262144x1, .i32⟩
  | 29 => ⟨S262144x128, .f32⟩
  | 30 => ⟨S262144x128, .f32⟩
  | 31 => ⟨S262144x128, .f32⟩
  | 32 => ⟨S_, .f32⟩
  | 33 => ⟨S262144, .f32⟩
  | 34 => ⟨S_, .f32⟩
  | 35 => ⟨S_, .f32⟩
  | 36 => ⟨S_, .f32⟩
  | 37 => ⟨S_, .f32⟩
  | 38 => ⟨S1000x128, .f32⟩
  | 39 => ⟨S_, .f32⟩
  | 40 => ⟨S1000, .f32⟩
  | 41 => ⟨S1000x1, .f32⟩
  | 42 => ⟨S1x1000, .f32⟩
  | 43 => ⟨S1000x1000, .f32⟩
  | 44 => ⟨S1000x1000, .f32⟩
  | 45 => ⟨S1000x1000, .f32⟩
  | 46 => ⟨S_, .f32⟩
  | 47 => ⟨S1000x128, .f32⟩
  | 48 => ⟨S1000x128, .f32⟩
  | 49 => ⟨S128x1000, .f32⟩
  | 50 => ⟨S1000x1000, .f32⟩
  | 51 => ⟨S1000x1000, .f32⟩
  | 52 => ⟨S_, .f32⟩
  | 53 => ⟨S1000x1000, .f32⟩
  | 54 => ⟨S1000x1000, .f32⟩
  | 55 => ⟨S1000x1000, .f32⟩
  | 56 => ⟨S_, .f32⟩
  | 57 => ⟨S1000x1000, .f32⟩
  | 58 => ⟨S1000x1000, .f32⟩
  | 59 => ⟨S1000x1000, .f32⟩
  | 60 => ⟨S_, .i1⟩
  | 61 => ⟨S1000x1000, .i1⟩
  | 62 => ⟨S1000x1000, .i32⟩
  | 63 => ⟨S_, .i32⟩
  | 64 => ⟨S1000x1000, .i32⟩
  | 65 => ⟨S1000x1000, .i32⟩
  | 66 => ⟨S1000x1000, .i32⟩
  | 67 => ⟨S1000x1000, .i1⟩
  | 68 => ⟨S_, .i1⟩
  | 69 => ⟨S1000x1000, .i1⟩
  | 70 => ⟨S1000x1000, .i1⟩
  | 71 => ⟨S1000x1, .i1⟩
  | 72 => ⟨S1000x1000, .i1⟩
  | 73 => ⟨S1000x1000, .i1⟩
  | 74 => ⟨S1x1000, .i1⟩
  | 75 => ⟨S1000x1000, .i1⟩
  | 76 => ⟨S1000x1000, .i1⟩
  | 77 => ⟨S1000, .i32⟩
  | 78 => ⟨S_, .i32⟩
  | 79 => ⟨S_, .i32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S1000x1000, .f32⟩
  | 89 => ⟨S1000x1000, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S262144x128, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | _ => ⟨S262144x128, .f32⟩

abbrev hbmTy (i : Nat) : BufTy := match i / 128 with
  | 0 => hbmTy0_0 i
  | 1 => hbmTy0_1 i
  | _ => ⟨S262144x128, .f32⟩

abbrev bufTy : (tb : Table) → Fin (tcTables nBuf tb) → BufTy
  | .hbm, ⟨i, _⟩ => hbmTy i
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_c_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_cst_8 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_9 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_10 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_11 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_12 : Ref sig .tc := ⟨.hbm, 60, rfl⟩
abbrev main_v44 : Ref sig .tc := ⟨.hbm, 61, rfl⟩
abbrev main_call0_v0 : Ref sig .tc := ⟨.hbm, 62, rfl⟩
abbrev main_call0_c : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_c_0 : Ref sig .tc := ⟨.hbm, 68, rfl⟩
abbrev main_call0_v5 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_13 : Ref sig .tc := ⟨.hbm, 78, rfl⟩
abbrev main_v53 : Ref sig .tc := ⟨.hbm, 79, rfl⟩
abbrev main_v54 : Ref sig .tc := ⟨.hbm, 80, rfl⟩
abbrev main_cst_14 : Ref sig .tc := ⟨.hbm, 81, rfl⟩
abbrev main_v55 : Ref sig .tc := ⟨.hbm, 82, rfl⟩
abbrev main_v56 : Ref sig .tc := ⟨.hbm, 83, rfl⟩
abbrev main_cst_15 : Ref sig .tc := ⟨.hbm, 84, rfl⟩
abbrev main_v57 : Ref sig .tc := ⟨.hbm, 85, rfl⟩
abbrev main_cst_16 : Ref sig .tc := ⟨.hbm, 86, rfl⟩
abbrev main_call1_v0 : Ref sig .tc := ⟨.hbm, 87, rfl⟩
abbrev main_call1_v1 : Ref sig .tc := ⟨.hbm, 88, rfl⟩
abbrev main_v58 : Ref sig .tc := ⟨.hbm, 89, rfl⟩
abbrev main_cst_17 : Ref sig .tc := ⟨.hbm, 90, rfl⟩
abbrev main_v59 : Ref sig .tc := ⟨.hbm, 91, rfl⟩
abbrev main_cst_18 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_19 : Ref sig .tc := ⟨.hbm, 96, rfl⟩
abbrev main_v63 : Ref sig .tc := ⟨.hbm, 97, rfl⟩
abbrev main_v64 : Ref sig .tc := ⟨.hbm, 98, rfl⟩
abbrev main_cst_20 : Ref sig .tc := ⟨.hbm, 99, rfl⟩
abbrev main_cst_21 : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_v65 : Ref sig .tc := ⟨.hbm, 104, rfl⟩
abbrev main_v66 : Ref sig .tc := ⟨.hbm, 105, rfl⟩
abbrev main_cst_22 : Ref sig .tc := ⟨.hbm, 106, rfl⟩
abbrev main_cst_23 : Ref sig .tc := ⟨.hbm, 107, rfl⟩
abbrev main_call3_v0 : Ref sig .tc := ⟨.hbm, 108, rfl⟩
abbrev main_call3_v1 : Ref sig .tc := ⟨.hbm, 109, rfl⟩
abbrev main_call3_v2 : Ref sig .tc := ⟨.hbm, 110, rfl⟩
abbrev main_v67 : Ref sig .tc := ⟨.hbm, 111, rfl⟩
abbrev main_v68 : Ref sig .tc := ⟨.hbm, 112, rfl⟩
abbrev main_cst_24 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_cst_25 : Ref sig .tc := ⟨.hbm, 117, rfl⟩
abbrev main_v72 : Ref sig .tc := ⟨.hbm, 118, rfl⟩
abbrev main_cst_26 : Ref sig .tc := ⟨.hbm, 119, rfl⟩
abbrev main_v73 : Ref sig .tc := ⟨.hbm, 120, rfl⟩
abbrev main_cst_27 : Ref sig .tc := ⟨.hbm, 121, rfl⟩
abbrev main_v74 : Ref sig .tc := ⟨.hbm, 122, rfl⟩
abbrev main_cst_28 : Ref sig .tc := ⟨.hbm, 123, rfl⟩
abbrev main_v75 : Ref sig .tc := ⟨.hbm, 124, rfl⟩
abbrev main_v76 : Ref sig .tc := ⟨.hbm, 125, rfl⟩
abbrev main_cst_29 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S_S1000 : S_.BroadcastsInDim S1000 (![] : Fin 0 → Fin S1000.rank)
  bcast_S262144_S262144x1_0 : S262144.BroadcastsInDim S262144x1 (![0] : Fin 1 → Fin S262144x1.rank)
  bcast_S_S1000x128 : S_.BroadcastsInDim S1000x128 (![] : Fin 0 → Fin S1000x128.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  reducesTo_S262144x128_S262144_d1 : S262144x128.ReducesTo [1] S262144
  h_S_ : 0 < S_.numel
  reducesTo_S262144_S_d0 : S262144.ReducesTo [0] S_
  reducesTo_S1000x128_S1000_d1 : S1000x128.ReducesTo [1] S1000
  bcast_S1000_S1x1000_1 : S1000.BroadcastsInDim S1x1000 (![1] : Fin 1 → Fin S1x1000.rank)
  bcast_S1000x1_S1000x1000_0_1 : S1000x1.BroadcastsInDim S1000x1000 (![0, 1] : Fin 2 → Fin S1000x1000.rank)
  bcast_S1x1000_S1000x1000_0_1 : S1x1000.BroadcastsInDim S1000x1000 (![0, 1] : Fin 2 → Fin S1000x1000.rank)
  transposes_S1000x128_S128x1000_1_0 : S1000x128.Transposes [1, 0] S128x1000
  bcast_S_S1000x1000 : S_.BroadcastsInDim S1000x1000 (![] : Fin 0 → Fin S1000x1000.rank)
  natLt_1_32 : 1 < 32
  reducesTo_S1000_S_d0 : S1000.ReducesTo [0] S_
  reducesTo_S1000x1000_S_d0_1 : S1000x1000.ReducesTo [0, 1] S_
  scatter_S1000_S262144x1_S262144_n_0_0_1_wf : ScatterDims.WF S1000 S262144x1 S262144 [] [0] [0] 1
  scatter_S1000x128_S262144x1_S262144x128_1_0_0_1_wf : ScatterDims.WF S1000x128 S262144x1 S262144x128 [1] [0] [0] 1
  gather_S1000x128_S262144x1_S262144x128_1_0_n_n_0_1_1128_wf : GatherDims.WF S1000x128 S262144x1 S262144x128 [1] [0] [] [0] [] 1 ![1, 128]
  dot_S1000x128_S128x1000_S1000x1000_1_0_0_1_n_n_wf : DotDims.WF S1000x128 S128x1000 S1000x1000 [1] [0] [0] [1] [] []

variable [Facts₀]

def scatter_S1000_S262144x1_S262144_n_0_0_1 : ScatterDims S1000 S262144x1 S262144 where
  updateWindowDims := []
  insertedWindowDims := [0]
  scatterDimsToOperandDims := [0]
  indexVectorDim := 1
  wf := scatter_S1000_S262144x1_S262144_n_0_0_1_wf
def scatter_S1000x128_S262144x1_S262144x128_1_0_0_1 : ScatterDims S1000x128 S262144x1 S262144x128 where
  updateWindowDims := [1]
  insertedWindowDims := [0]
  scatterDimsToOperandDims := [0]
  indexVectorDim := 1
  wf := scatter_S1000x128_S262144x1_S262144x128_1_0_0_1_wf
def gather_S1000x128_S262144x1_S262144x128_1_0_n_n_0_1_1128 : GatherDims S1000x128 S262144x1 S262144x128 where
  offsetDims := [1]
  collapsedSliceDims := [0]
  operandBatchingDims := []
  startIndicesBatchingDims := []
  startIndexMap := [0]
  indexVectorDim := 1
  sliceSizes := ![1, 128]
  wf := gather_S1000x128_S262144x1_S262144x128_1_0_n_n_0_1_1128_wf
def dot_S1000x128_S128x1000_S1000x1000_1_0_0_1_n_n : DotDims S1000x128 S128x1000 S1000x1000 where
  lhsContracting := [1]
  rhsContracting := [0]
  lhsNonContracting := [0]
  rhsNonContracting := [1]
  lhsBatch := []
  rhsBatch := []
  wf := dot_S1000x128_S128x1000_S1000x1000_1_0_0_1_n_n_wf

class Facts : Prop extends Facts₀ where

variable [Facts]
-- ==== Proof.Tail.lean ====
/-
  The scalar post-processing the two programs share, as one function of three scalars: the summed squared
  distance `t`, the summed pair similarity `ss` and the number of present classes `kf`.

  `lintra t = t / 262144` is the mean squared distance. With `npairs = kf (kf - 1) / 2` raised to at least one,
  `linter = ss / npairs`. The mixing weights are `a = clip (lintra / (lintra + linter + eps))`,
  `b = clip (linter / (lintra + linter + eps))`, renormalised by `a + b + eps`, moved one smoothing step
  `0.45 + 0.1 ·` from the even split, renormalised again; the result is `alpha · lintra + beta · linter`.
  Every literal is kept as its bit pattern: both programs spell the same patterns, so none is evaluated.
-/
import Idealize.ShloMosaic.PureOps

noncomputable section

namespace Cert.Tail

open Idealize.ShloMosaic

/-- The shape of a scalar. -/
abbrev S0 : Shape := ⟨0, ![]⟩

variable {F : FTy → Type} [FloatOps F]

/-- The mean squared distance: the sum over the 262144 samples. -/
def lintra (t : FVec F S0 .f32) : FVec F S0 .f32 :=
  Host.divf t (constant S0 .f32 0x48800000#32)

/-- The clamp of a scalar to the interval the two literal bounds spell (0.05 and 0.95). -/
def clip (x : FVec F S0 .f32) : FVec F S0 .f32 :=
  minimumf (id (constant S0 .f32 0x3F733333#32)) (maximumf (id (constant S0 .f32 0x3D4CCCCD#32)) x)

/-- The weighted loss from the mean squared distance `li`, the summed pair similarity `ss` and the class count `kf`. -/
def tail (li ss kf : FVec F S0 .f32) : FVec F S0 .f32 :=
  let lr : FVec F S0 .f32 :=
    Host.divf ss (maximumf (mulf (mulf kf (subf kf (constant S0 .f32 0x3F800000#32))) (constant S0 .f32 0x3F000000#32))
      (constant S0 .f32 0x3F800000#32))
  let den : FVec F S0 .f32 := addf (addf li lr) (constant S0 .f32 0x2B8CBCCC#32)
  let a : FVec F S0 .f32 := clip (Host.divf li den)
  let b : FVec F S0 .f32 := clip (Host.divf lr den)
  let s : FVec F S0 .f32 := addf (addf a b) (constant S0 .f32 0x2B8CBCCC#32)
  let ae : FVec F S0 .f32 := addf (constant S0 .f32 0x3EE66666#32) (mulf (constant S0 .f32 0x3DCCCCCD#32) (Host.divf a s))
  let be : FVec F S0 .f32 := addf (constant S0 .f32 0x3EE66666#32) (mulf (constant S0 .f32 0x3DCCCCCD#32) (Host.divf b s))
  let s2 : FVec F S0 .f32 := addf (addf ae be) (constant S0 .f32 0x2B8CBCCC#32)
  addf (mulf (Host.divf ae s2) li) (mulf (Host.divf be s2) lr)

end Cert.Tail

end
-- ==== Proof.KArr.lean ====
/-
  Names, at their literal array types, for the kernel program's arrays read at the ideal instance: the arrays a
  region finds at its entry, the arrays a region leaves, and the arrays at the boundaries of the run.
-/
import proofs.«408921_j38946763440455_1_alg».proof.Proof.Gen.KernelIdeal.Frame
import proofs.«408921_j38946763440455_1_alg».proof.Proof.Tail
import Idealize.ShloMosaic.PureOps.Ideal
import Idealize.ShloMosaic.Lib.ValueIdx

noncomputable section

namespace Cert.KernelIdeal.Arr

open Cert.KernelIdeal Cert.KernelIdeal.Gen Idealize.ShloMosaic Idealize.ShloMosaic.TcCoe Idealize.SL.Sem

section Entry

variable (V : (c : Dev nD) → (b : Ref sig .tc) → Buf (Elt Ideal) ((c : Thread nD τ).loc b)) (c : Dev nD)

/-- The samples a region finds. -/
abbrev zV : S262144x128.Idx → EReal := V c main_arg0
/-- The label column a region finds. -/
abbrev yV : S262144x1.Idx → BitVec 32 := V c main_v0
/-- The centroid table a region finds. -/
abbrev ceV : S1024x128.Idx → EReal := V c main_v9
/-- The presence flags a region finds. -/
abbrev prV : S1x1024.Idx → EReal := V c main_v4

/-- The class sums region 0 leaves. -/
abbrev sums0 : S1024x128.Idx → EReal := (dat0 (F := Ideal) V c).arrAt 2 cfg0.N
/-- The class counts region 0 leaves. -/
abbrev counts0 : S1x1024.Idx → EReal := (dat0 (F := Ideal) V c).arrAt 3 cfg0.N
/-- The total region 1 leaves. -/
abbrev total1 : S1x1.Idx → EReal := (dat1 (F := Ideal) V c).arrAt 3 cfg1.N
/-- The similarity sum region 2 leaves. -/
abbrev sumsim2 : S1x1.Idx → EReal := (dat2 (F := Ideal) V c).arrAt 2 cfg2.N
/-- The class count region 2 leaves. -/
abbrev kf2 : S1x1.Idx → EReal := (dat2 (F := Ideal) V c).arrAt 3 cfg2.N

end Entry

section Run

variable (m : (ℓ : Loc nD τ sig) → Buf (Elt Ideal) ℓ) (ρ : Dev nD → PrngReg) (c : Dev nD)

/-- The sample array as launched. -/
abbrev zA : S262144x128.Idx → EReal := m ((c : Thread nD τ).loc main_arg0)
/-- The label vector as launched. -/
abbrev yA : S262144.Idx → BitVec 32 := m ((c : Thread nD τ).loc main_arg1)

/-- The class sums after region 0. -/
abbrev wSums : S1024x128.Idx → EReal := W2 m ρ c (Proc.devRef .tc main_v1_0)
/-- The class counts after region 0. -/
abbrev wCounts : S1x1024.Idx → EReal := W2 m ρ c (Proc.devRef .tc main_v1_1)
/-- The total after region 1. -/
abbrev wTotal : S1x1.Idx → EReal := W4 m ρ c (Proc.devRef .tc main_v10)
/-- The similarity sum after region 2. -/
abbrev wSumsim : S1x1.Idx → EReal := W6 m ρ c (Proc.devRef .tc main_v13_0)
/-- The class count after region 2. -/
abbrev wKf : S1x1.Idx → EReal := W6 m ρ c (Proc.devRef .tc main_v13_1)
/-- The program's result at the end of the run. -/
abbrev wOut : Cert.Tail.S0.Idx → EReal := W11 m ρ c (Proc.devRef .tc main_v41)

/-- A one-by-one array read as a scalar. -/
abbrev scal (x : S1x1.Idx → EReal) : Cert.Tail.S0.Idx → EReal := fun _ => x (Idealize.ShloMosaic.ValueIdx.ix2 0 0)

end Run

end Cert.KernelIdeal.Arr

end
-- ==== Proof.Consts.lean ====
/-
  The float constants the two programs spell, as the extended reals their bit patterns denote.
-/
import Idealize.ShloMosaic.PureOps.Ideal

noncomputable section

namespace Cert.Consts

open Idealize.ShloMosaic

/-- The pattern of `+0.0` denotes `0`. -/
theorem ofBits_zero : Ideal.ofBits .f32 0x00000000#32 = 0 := by
  simp [Ideal.ofBits, Ideal.ieee]

/-- The pattern of `1.0` denotes `1`. -/
theorem ofBits_one : Ideal.ofBits .f32 0x3F800000#32 = 1 := by
  simp [Ideal.ofBits, Ideal.ieee, -EReal.coe_mul]; norm_num

/-- The pattern of `2.0` denotes the real `2`. -/
theorem ofBits_two : Ideal.ofBits .f32 0x40000000#32 = ((2 : ℝ) : EReal) := by
  simp [Ideal.ofBits, Ideal.ieee, -EReal.coe_mul]; norm_num

/-- The pattern of `-0.5` denotes the real `-(1/2)`. -/
theorem ofBits_neg_half : Ideal.ofBits .f32 0xBF000000#32 = (((-(1 / 2) : ℝ)) : EReal) := by
  simp [Ideal.ofBits, Ideal.ieee, -EReal.coe_mul]; norm_num

end Cert.Consts

end
-- ==== Proof.KFold.lean ====
/-
  The kernel program's buffer contents at the boundaries between its host stretches and its three regions, read
  at the ideal instance: which array each region's result lands in, what the host operations between the regions
  make of those results, and the result of the whole program as the shared scalar post-processing of three scalars.

  Between the regions the host computes, from the class sums and counts, the centroid table
  `cent[k, d] = sums[k, d] / max (counts[k]) 1` and the presence flags `[counts[k] > 0]`; the label column is the
  label vector reshaped; no host operation and no region writes an argument.
-/
import proofs.«408921_j38946763440455_1_alg».proof.Proof.Gen.KernelIdeal.Frame
import proofs.«408921_j38946763440455_1_alg».proof.Proof.KArr
import proofs.«408921_j38946763440455_1_alg».proof.Proof.Tail
import proofs.«408921_j38946763440455_1_alg».proof.Proof.Consts
import Idealize.ShloMosaic.Lib.StableHlo.Run
import Idealize.ShloMosaic.Lib.Pipeline.Value
import Idealize.ShloMosaic.Lib.ValueIdx
import Idealize.ShloMosaic.Lib.ValueLayout
import Idealize.ShloMosaic.Lib.Tactic

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx
open Cert.KernelIdeal.Arr

variable (m : (ℓ : Loc nD τ sig) → Buf (Elt Ideal) ℓ) (ρ : Dev nD → PrngReg) (c : Dev nD)

/-! ## Region 0: entry and exit -/

/-- Region 0 finds the samples as launched. -/
theorem V1_arg0 : zV (V1 m ρ) c = zA m c := by
  show StableHlo.after hostOps0 (W0 m ρ c) (Proc.devRef .tc main_arg0) = _
  after_results

/-- The label column before region 0 is the label vector recast from one axis to a column. -/
theorem V1_v0_eq : yV (V1 m ρ) c = shapeCast S262144x1 (yA m c) shapeCasts_S262144_S262144x1 := by
  show StableHlo.after hostOps0 (W0 m ρ c) (Proc.devRef .tc main_v0) = _
  after_results
  rfl

/-- Region 0 finds the label column: the label vector reshaped. -/
theorem V1_v0_apply (b : Fin 262144) : yV (V1 m ρ) c (ix2 b 0) = yA m c (ix1 b) := by
  rw [V1_v0_eq]
  refine shapeCast_apply _ _ _ _ ?_
  rw [Shape.rowMajor_val_one, Shape.rowMajor_val_two]
  show b.val = b.val * 1 + 0
  omega

/-- The class sums after region 0 are what its pipeline leaves. -/
theorem W2_sums : wSums m ρ c = sums0 (V1 m ρ) c := W2_arr m ρ c 2

/-- The class counts after region 0 are what its pipeline leaves. -/
theorem W2_counts : wCounts m ρ c = counts0 (V1 m ρ) c := W2_arr m ρ c 3

/-! ## Region 1: entry and exit -/

/-- Region 0 reads the samples and does not write them. -/
theorem W2_arg0 : W2 m ρ c (Proc.devRef .tc main_arg0) = V1 m ρ c main_arg0 :=
  (W2_arr m ρ c 0).trans (((dat0 (V1 m ρ) c).arrAt_in 0 rfl _).trans (A_eq0 (V1 m ρ) c 0))

/-- Region 0 reads the label column and does not write it. -/
theorem W2_v0 : W2 m ρ c (Proc.devRef .tc main_v0) = V1 m ρ c main_v0 :=
  (W2_arr m ρ c 1).trans (((dat0 (V1 m ρ) c).arrAt_in 1 rfl _).trans (A_eq0 (V1 m ρ) c 1))

/-- Region 1 finds the samples as launched. -/
theorem V3_arg0 : zV (V3 m ρ) c = zA m c := by
  have e : zV (V3 m ρ) c = W2 m ρ c (Proc.devRef .tc main_arg0) := by
    show StableHlo.after hostOps1 (W2 m ρ c) (Proc.devRef .tc main_arg0) = _
    after_results
  exact e.trans ((W2_arg0 m ρ c).trans (V1_arg0 m ρ c))

/-- The host operations between regions 0 and 1 leave the label column alone. -/
theorem V3_v0_eq : yV (V3 m ρ) c = yV (V1 m ρ) c := by
  have e : yV (V3 m ρ) c = W2 m ρ c (Proc.devRef .tc main_v0) := by
    show StableHlo.after hostOps1 (W2 m ρ c) (Proc.devRef .tc main_v0) = _
    after_results
  exact e.trans (W2_v0 m ρ c)

/-- Region 1 finds the label column: the label vector reshaped. -/
theorem V3_v0_apply (b : Fin 262144) : yV (V3 m ρ) c (ix2 b 0) = yA m c (ix1 b) := by
  rw [V3_v0_eq]; exact V1_v0_apply m ρ c b

/-- The centroid table as the host operations' term over region 0's results. -/
theorem V3_v9_eq : ceV (V3 m ρ) c
    = Host.divf (wSums m ρ c) (broadcastInDim S1024x128 ![0, 1] bcast_S1024x1_S1024x128_0_1
        (maximumf (transpose S1024x1 [1, 0] (wCounts m ρ c) transposes_S1x1024_S1024x1_1_0)
          (broadcastInDim S1024x1 ![] bcast_S_S1024x1 (constant (F := Ideal) S_ .f32 0x3F800000#32)))) := by
  show StableHlo.after hostOps1 (W2 m ρ c) (Proc.devRef .tc main_v9) = _
  after_results

/-- The presence flags as the host operations' term over region 0's counts. -/
theorem V3_v4_eq : prV (V3 m ρ) c
    = uitofp (F := Ideal) .f32 (cmpf (F := Ideal) .ogt (wCounts m ρ c)
        (broadcastInDim S1x1024 ![] bcast_S_S1x1024 (constant (F := Ideal) S_ .f32 0x00000000#32))) := by
  show StableHlo.after hostOps1 (W2 m ρ c) (Proc.devRef .tc main_v4) = _
  after_results

/-- Sums over counts raised to at least one, entry by entry: the count of class k is broadcast along row k. -/
theorem cent_apply (s : S1024x128.Idx → EReal) (n : S1x1024.Idx → EReal) (k : Fin 1024) (d : Fin 128) :
    (Host.divf (F := Ideal) (φ := .f32) s (broadcastInDim S1024x128 ![0, 1] bcast_S1024x1_S1024x128_0_1
        (maximumf (transpose S1024x1 [1, 0] n transposes_S1x1024_S1024x1_1_0)
          (broadcastInDim S1024x1 ![] bcast_S_S1024x1 (constant (F := Ideal) S_ .f32 0x3F800000#32)))) : S1024x128.Idx → EReal) (ix2 k d)
      = Ideal.div (s (ix2 k d)) (max (n (ix2 0 k)) 1) := by
  show Ideal.div (s (ix2 k d)) _ = _
  congr 1
  refine (broadcastInDim_apply _ _ _ (ix2 k d) (ix2 k 0) ?_).trans ?_
  · intro a; match a with | ⟨0,_⟩ => rfl | ⟨1,_⟩ => rfl
  · refine (maximumf_apply _ _ _).trans ?_
    rw [transpose_ix2_apply]
    congr 1
    exact Cert.Consts.ofBits_one

/-- The centroid table the host computes from region 0's results, at an entry. -/
theorem V3_v9_apply (k : Fin 1024) (d : Fin 128) :
    ceV (V3 m ρ) c (ix2 k d) = Ideal.div (wSums m ρ c (ix2 k d)) (max (wCounts m ρ c (ix2 0 k)) 1) := by
  rw [V3_v9_eq]; exact cent_apply _ _ k d

/-- A count compared with zero and read back as a float: one where the count is positive, zero elsewhere. -/
theorem pres_apply (n : S1x1024.Idx → EReal) (k : Fin 1024) :
    (uitofp (F := Ideal) .f32 (cmpf (F := Ideal) .ogt n
        (broadcastInDim S1x1024 ![] bcast_S_S1x1024 (constant (F := Ideal) S_ .f32 0x00000000#32))) : S1x1024.Idx → EReal) (ix2 0 k)
      = if 0 < n (ix2 0 k) then 1 else 0 := by
  show (((Ideal.cmp .ogt (n (ix2 0 k)) (Ideal.ofBits .f32 0x00000000#32)).toNat : ℝ) : EReal) = _
  rw [Cert.Consts.ofBits_zero]
  unfold Ideal.cmp
  by_cases h : 0 < n (ix2 0 k)
  · simp [h]
  · simp [h]

/-- The presence flags the host computes from region 0's counts, at an entry. -/
theorem V3_v4_apply (k : Fin 1024) :
    prV (V3 m ρ) c (ix2 0 k) = if 0 < wCounts m ρ c (ix2 0 k) then 1 else 0 := by
  rw [V3_v4_eq]; exact pres_apply _ k

/-- The total after region 1 is what its pipeline leaves. -/
theorem W4_total : wTotal m ρ c = total1 (V3 m ρ) c := W4_arr m ρ c 3

/-! ## Region 2: entry and exit -/

/-- Region 1 reads the centroid table and does not write it. -/
theorem W4_v9 : W4 m ρ c (Proc.devRef .tc main_v9) = V3 m ρ c main_v9 :=
  (W4_arr m ρ c 2).trans (((dat1 (V3 m ρ) c).arrAt_in 2 rfl _).trans (A_eq1 (V3 m ρ) c 2))

/-- Region 2 finds the centroid table region 1 found. -/
theorem V5_v9 : ceV (V5 m ρ) c = ceV (V3 m ρ) c := by
  have e : ceV (V5 m ρ) c = W4 m ρ c (Proc.devRef .tc main_v9) := by
    show StableHlo.after hostOps2 (W4 m ρ c) (Proc.devRef .tc main_v9) = _
    after_results
  exact e.trans (W4_v9 m ρ c)

/-- Region 2 finds the presence flags the host computed before region 1. -/
theorem V5_v4 : prV (V5 m ρ) c = prV (V3 m ρ) c := by
  have e : prV (V5 m ρ) c = W4 m ρ c (Proc.devRef .tc main_v4) := by
    show StableHlo.after hostOps2 (W4 m ρ c) (Proc.devRef .tc main_v4) = _
    after_results
  exact e.trans (W4_of_ne m ρ c main_v4 (by decide))

/-- The similarity sum after region 2 is what its pipeline leaves. -/
theorem W6_sumsim : wSumsim m ρ c = sumsim2 (V5 m ρ) c := W6_arr m ρ c 2

/-- The class count after region 2 is what its pipeline leaves. -/
theorem W6_kf : wKf m ρ c = kf2 (V5 m ρ) c := W6_arr m ρ c 3

/-! ## The program's result -/

/-- A one-by-one array recast to no axes is its one entry. -/
theorem shapeCast_scal {α : Type} (x : S1x1.Idx → α) (h : S1x1.ShapeCasts S_) :
    shapeCast S_ x h = fun _ => x (ix2 0 0) := by
  funext j
  refine shapeCast_apply x h j (ix2 0 0) ?_
  have h0 : (S_.rowMajor j).val = 0 := by
    have := (S_.rowMajor j).isLt
    have e : S_.numel = 1 := rfl
    omega
  rw [Shape.rowMajor_val_two, h0]
  show 0 * 1 + 0 = 0
  rfl

section Fold
variable {F : FTy → Type} [FloatOps F]

set_option maxHeartbeats 1000000 in
/-- The host operations after region 2, from any contents: the result array is the shared post-processing of the
    mean squared distance the host computed before region 2 and of region 2's two results recast to scalars. -/
theorem tail_fold (W : Valuation τ sig (Elt F)) :
    StableHlo.after hostOps3_4 (StableHlo.after hostOps3_3 (StableHlo.after hostOps3_2 (StableHlo.after hostOps3_1
        (StableHlo.after hostOps3 W)))) (Proc.devRef .tc main_v41)
      = Cert.Tail.tail (F := F) (W (Proc.devRef .tc main_v12))
          (shapeCast S_ (W (Proc.devRef .tc main_v13_0)) shapeCasts_S1x1_S_)
          (shapeCast S_ (W (Proc.devRef .tc main_v13_1)) shapeCasts_S1x1_S_) := by
  after_results_simp
  rfl

end Fold

/-- The mean squared distance the host computes from region 1's total; region 2 does not write it. -/
theorem W6_v12 : W6 m ρ c (Proc.devRef .tc main_v12) = Cert.Tail.lintra (F := Ideal) (scal (wTotal m ρ c)) := by
  rw [W6_of_ne m ρ c main_v12 (by decide)]
  show StableHlo.after hostOps2 (W4 m ρ c) (Proc.devRef .tc main_v12) = _
  after_results
  unfold Cert.Tail.lintra
  refine congrArg (fun t => Host.divf (F := Ideal) t _) ?_
  exact shapeCast_scal _ _

/-- The result array at the end of the run is the shared post-processing of the three regions' scalars. -/
theorem W11_v41 :
    wOut m ρ c
      = Cert.Tail.tail (F := Ideal) (Cert.Tail.lintra (F := Ideal) (scal (wTotal m ρ c)))
          (scal (wSumsim m ρ c)) (scal (wKf m ρ c)) := by
  show StableHlo.after hostOps3_4 (StableHlo.after hostOps3_3 (StableHlo.after hostOps3_2 (StableHlo.after hostOps3_1
        (StableHlo.after hostOps3 (W6 m ρ c))))) (Proc.devRef .tc main_v41) = _
  rw [tail_fold, W6_v12, shapeCast_scal, shapeCast_scal]

end Cert.KernelIdeal.Val

end
-- ==== Proof.Pieces.lean ====
/-
  What one run of a kernel body leaves in an output's staging buffer, as the body's arithmetic on what it loaded,
  for the two accumulating regions and both of their control cases, at any float instance.

  In the first grid point's case the body first stores the zero block, reads it back and adds the tile's
  contribution: the buffer ends at the update of the zero block. In every other case it reads the running
  contents and stores their update.
-/
import proofs.«408921_j38946763440455_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

/-- The zero offset of a whole-block store or load, as the constant function. -/
private theorem off00 : (![0, 0] : Fin 2 → Nat) = fun _ => 0 := funext fun a => by fin_cases a <;> rfl

/-! ## Region 0: class sums (output 2) and class counts (output 3) -/

theorem out0_A_2_eq (c : Dev nD) (i : grid0.Coords) (a1 : Memref sig .tc .vmem S1024x128 .f32) (h1 : a1.IsWhole) (a2 : Memref sig .tc .vmem S1024x1 .i32) (h2 : a2.IsWhole) (a3 : Memref sig .tc .vmem S1024x128 .f32) (h3 : a3.IsWhole) (a4 : Memref sig .tc .vmem S1x1024 .f32) (h4 : a4.IsWhole) (hc : cond0_0 i)
    (x0 : Vec F S1024x128 .f32) (x1 : Vec F S1024x1 .i32) :
    out0_A_2 c i a1 h1 a2 h2 a3 h3 a4 h4 hc x0 x1 = k0_pay4 x1 x0 (k0_pay1 (F := F)) := by
  unfold out0_A_2
  rw [View.read_writes_eq_canon _ _ _ (cover0_A_2 c i a1 h1 a2 h2 a3 h3 a4 h4 hc x0 x1)]
  unfold kernelRun0_A
  dsimp only
  sl_unfold_words
  -- two whole-block stores, the later on top: the update, whose third operand reads the zero block back
  rw [View.canon_cons_unit_zero (S := S1024x128) off00, View.readCov_unit_zero (S := S1024x128) _ off00]
  simp only [View.readAt_eq_ld, h1.read_unread, h2.read_unread, View.ld_unit_zero (S := S1024x128) off00,
    View.ld_unit_zero (S := S1024x1) off00]

theorem out0_A_3_eq (c : Dev nD) (i : grid0.Coords) (a1 : Memref sig .tc .vmem S1024x128 .f32) (h1 : a1.IsWhole) (a2 : Memref sig .tc .vmem S1024x1 .i32) (h2 : a2.IsWhole) (a3 : Memref sig .tc .vmem S1024x128 .f32) (h3 : a3.IsWhole) (a4 : Memref sig .tc .vmem S1x1024 .f32) (h4 : a4.IsWhole) (hc : cond0_0 i)
    (x0 : Vec F S1024x128 .f32) (x1 : Vec F S1024x1 .i32) :
    out0_A_3 c i a1 h1 a2 h2 a3 h3 a4 h4 hc x0 x1 = k0_pay5 x1 (k0_pay2 (F := F)) := by
  unfold out0_A_3
  rw [View.read_writes_eq_canon _ _ _ (cover0_A_3 c i a1 h1 a2 h2 a3 h3 a4 h4 hc x0 x1)]
  unfold kernelRun0_A
  dsimp only
  sl_unfold_words
  -- two whole-block stores, the later on top: the update, whose second operand reads the zero block back
  rw [View.canon_cons_unit_zero (S := S1x1024) off00, View.readCov_unit_zero (S := S1x1024) _ off00]
  simp only [View.readAt_eq_ld, h2.read_unread, View.ld_unit_zero (S := S1024x1) off00]

theorem out0_B_2_eq (c : Dev nD) (i : grid0.Coords) (a1 : Memref sig .tc .vmem S1024x128 .f32) (h1 : a1.IsWhole) (a2 : Memref sig .tc .vmem S1024x1 .i32) (h2 : a2.IsWhole) (a3 : Memref sig .tc .vmem S1024x128 .f32) (h3 : a3.IsWhole) (a4 : Memref sig .tc .vmem S1x1024 .f32) (h4 : a4.IsWhole) (hc : ¬cond0_0 i)
    (x0 : Vec F S1024x128 .f32) (x1 : Vec F S1024x1 .i32) (xo2 : Vec F S1024x128 .f32) (xo3 : Vec F S1x1024 .f32) :
    out0_B_2 c i a1 h1 a2 h2 a3 h3 a4 h4 hc x0 x1 xo2 xo3 = k0_pay4 x1 x0 xo2 := by
  unfold out0_B_2
  rw [View.read_writes_eq_canon _ _ _ (cover0_B_2 c i a1 h1 a2 h2 a3 h3 a4 h4 hc x0 x1 xo2 xo3)]
  unfold kernelRun0_B
  dsimp only
  sl_unfold_words
  -- one whole-block store: the update of the running contents, every operand a whole-block load
  rw [View.canon_unit_zero off00]
  simp only [View.readAt_eq_ld, h1.read_unread, h2.read_unread, h3.read_unread,
    View.ld_unit_zero (S := S1024x128) off00, View.ld_unit_zero (S := S1024x1) off00]

theorem out0_B_3_eq (c : Dev nD) (i : grid0.Coords) (a1 : Memref sig .tc .vmem S1024x128 .f32) (h1 : a1.IsWhole) (a2 : Memref sig .tc .vmem S1024x1 .i32) (h2 : a2.IsWhole) (a3 : Memref sig .tc .vmem S1024x128 .f32) (h3 : a3.IsWhole) (a4 : Memref sig .tc .vmem S1x1024 .f32) (h4 : a4.IsWhole) (hc : ¬cond0_0 i)
    (x0 : Vec F S1024x128 .f32) (x1 : Vec F S1024x1 .i32) (xo2 : Vec F S1024x128 .f32) (xo3 : Vec F S1x1024 .f32) :
    out0_B_3 c i a1 h1 a2 h2 a3 h3 a4 h4 hc x0 x1 xo2 xo3 = k0_pay5 x1 xo3 := by
  unfold out0_B_3
  rw [View.read_writes_eq_canon _ _ _ (cover0_B_3 c i a1 h1 a2 h2 a3 h3 a4 h4 hc x0 x1 xo2 xo3)]
  unfold kernelRun0_B
  dsimp only
  sl_unfold_words
  -- one whole-block store: the update of the running contents, every operand a whole-block load
  rw [View.canon_unit_zero off00]
  simp only [View.readAt_eq_ld, h2.read_unread, h4.read_unread,
    View.ld_unit_zero (S := S1x1024) off00, View.ld_unit_zero (S := S1024x1) off00]

/-! ## Region 1: the running total (output 3) -/

theorem out1_A_3_eq (c : Dev nD) (i : grid1.Coords) (a1 : Memref sig .tc .vmem S1024x128 .f32) (h1 : a1.IsWhole) (a2 : Memref sig .tc .vmem S1024x1 .i32) (h2 : a2.IsWhole) (a3 : Memref sig .tc .vmem S1024x128 .f32) (h3 : a3.IsWhole) (a4 : Memref sig .tc .vmem S1x1 .f32) (h4 : a4.IsWhole) (hc : cond1_0 i)
    (x0 : Vec F S1024x128 .f32) (x1 : Vec F S1024x1 .i32) (x2 : Vec F S1024x128 .f32) :
    out1_A_3 c i a1 h1 a2 h2 a3 h3 a4 h4 hc x0 x1 x2 = k1_pay2 x1 x2 x0 (k1_pay1 (F := F)) := by
  unfold out1_A_3
  rw [View.read_writes_eq_canon _ _ _ (cover1_A_3 c i a1 h1 a2 h2 a3 h3 a4 h4 hc x0 x1 x2)]
  unfold kernelRun1_A
  dsimp only
  sl_unfold_words
  -- two whole-block stores, the later on top: the update, whose last operand reads the zero block back
  rw [View.canon_cons_unit_zero (S := S1x1) off00, View.readCov_unit_zero (S := S1x1) _ off00]
  simp only [View.readAt_eq_ld, h1.read_unread, h2.read_unread, h3.read_unread,
    View.ld_unit_zero (S := S1024x128) off00, View.ld_unit_zero (S := S1024x1) off00]

theorem out1_B_3_eq (c : Dev nD) (i : grid1.Coords) (a1 : Memref sig .tc .vmem S1024x128 .f32) (h1 : a1.IsWhole) (a2 : Memref sig .tc .vmem S1024x1 .i32) (h2 : a2.IsWhole) (a3 : Memref sig .tc .vmem S1024x128 .f32) (h3 : a3.IsWhole) (a4 : Memref sig .tc .vmem S1x1 .f32) (h4 : a4.IsWhole) (hc : ¬cond1_0 i)
    (x0 : Vec F S1024x128 .f32) (x1 : Vec F S1024x1 .i32) (x2 : Vec F S1024x128 .f32) (xo3 : Vec F S1x1 .f32) :
    out1_B_3 c i a1 h1 a2 h2 a3 h3 a4 h4 hc x0 x1 x2 xo3 = k1_pay2 x1 x2 x0 xo3 := by
  unfold out1_B_3
  rw [View.read_writes_eq_canon _ _ _ (cover1_B_3 c i a1 h1 a2 h2 a3 h3 a4 h4 hc x0 x1 x2 xo3)]
  unfold kernelRun1_B
  dsimp only
  sl_unfold_words
  -- one whole-block store: the update of the running total, every operand a whole-block load
  rw [View.canon_unit_zero off00]
  simp only [View.readAt_eq_ld, h1.read_unread, h2.read_unread, h3.read_unread, h4.read_unread,
    View.ld_unit_zero (S := S1024x128) off00, View.ld_unit_zero (S := S1024x1) off00,
    View.ld_unit_zero (S := S1x1) off00]

end Cert.KernelIdeal.Pieces

end
-- ==== Proof.PayMath0.lean ====
/-
  The first region's two updates, read entry by entry over the extended reals.

  For a tile of 1024 rows with labels `y r` and samples `x r`, the one-hot matrix is `oh[r, k] = 1` when
  `y r = k` and `0` otherwise (the label compared with the column number as 32-bit words; both below `2^32`, so
  equal words are equal numbers). The class-sum update adds `∑_r oh[r, k] · x[r, d]` to entry `(k, d)`, and since
  `0 · a = 0` and `1 · a = a` for every extended real that is the sum of `x[r, d]` over the rows labelled `k`;
  the class-count update adds the number of rows labelled `k` to entry `k`. The zero blocks are zero.
-/
import proofs.«408921_j38946763440455_1_alg».proof.Proof.Gen.KernelIdeal.Skeleton
import proofs.«408921_j38946763440455_1_alg».proof.Proof.Consts
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayMath

open Cert.KernelIdeal Cert.KernelIdeal.Gen Idealize.ShloMosaic Idealize.ShloMosaic.ValueIdx

namespace K0

/-- A widened bit read as a signed real. -/
theorem bit_toReal (b : BitVec 1) : (((b.setWidth 32).toInt : ℝ) : EReal) = if b = 1#1 then 1 else 0 := by
  rcases BitVec.eq_zero_or_eq_one b with rfl | rfl
  · simp
  · simp

theorem word_eq_iff (w : BitVec 32) (k : Fin 1024) : w = BitVec.ofNat 32 k.val ↔ w.toNat = k.val := by
  have hk : k.val < 1024 := k.isLt
  constructor
  · intro h; rw [h, BitVec.toNat_ofNat]; exact Nat.mod_eq_of_lt (by omega)
  · intro h; apply BitVec.eq_of_toNat_eq; rw [h, BitVec.toNat_ofNat]; exact (Nat.mod_eq_of_lt (by omega)).symm

theorem bcast_col_apply (v : S1024x1.Idx → BitVec 32) (r k : Fin 1024) :
    broadcastTo S1024x1024 v broadcasts_S1024x1_S1024x1024 (ix2 r k) = v (ix2 r 0) := by
  refine broadcastTo_apply v _ (ix2 r k) (ix2 r 0) fun ax => ?_
  match ax with
  | ⟨0, _⟩ => rfl
  | ⟨1, _⟩ => rfl

theorem cmpi_eq_bit {w : Nat} (a b : BitVec w) : IntOp.cmpi .eq a b = 1#1 ↔ a = b := by
  simp only [IntOp.cmpi]
  cases h : (a == b) <;> simp_all

/-- The one-hot matrix at entry (r, k). -/
theorem oh_apply (y : S1024x1.Idx → BitVec 32) (r k : Fin 1024) :
    (k0_pay3 (F := Ideal) y : S1024x1024.Idx → EReal) (ix2 r k) = if (y (ix2 r 0)).toNat = k.val then 1 else 0 := by
  unfold k0_pay3
  rw [shapeCast_self]
  show ((((IntOp.cmpi .eq (broadcastTo S1024x1024 y broadcasts_S1024x1_S1024x1024 (ix2 r k))
      (iota .tc S1024x1024 32 [1] iota_S1024x1024_d1_w32 (ix2 r k))).setWidth 32).toInt : ℝ) : EReal) = _
  rw [bit_toReal, bcast_col_apply, iota_single_apply]
  show (if IntOp.cmpi .eq (y (ix2 r 0)) (BitVec.ofNat 32 k.val) = 1#1 then (1 : EReal) else 0) = _
  by_cases h : (y (ix2 r 0)).toNat = k.val
  · rw [if_pos h, if_pos ((cmpi_eq_bit _ _).mpr ((word_eq_iff _ _).mpr h))]
  · rw [if_neg h, if_neg (fun h' => h ((word_eq_iff _ _).mp ((cmpi_eq_bit _ _).mp h')))]

/-! The operand indices of the product, axis by axis: the contraction runs over the rows of both operands. -/

theorem lhs_axis0 (j : S1024x128.Idx) (q : dot_S1024x1024_S1024x128_S1024x128_0_0_1_1_n_n.contr.Idx) :
    (dot_S1024x1024_S1024x128_S1024x128_0_0_1_1_n_n.lhsIdx j q 0).val = (q ⟨0, by decide⟩).val :=
  DotDims.lhsIdx_val_of_single dot_S1024x1024_S1024x128_S1024x128_0_0_1_1_n_n rfl j q

theorem lhs_axis1 (j : S1024x128.Idx) (q : dot_S1024x1024_S1024x128_S1024x128_0_0_1_1_n_n.contr.Idx) :
    (dot_S1024x1024_S1024x128_S1024x128_0_0_1_1_n_n.lhsIdx j q 1).val = (j 0).val := rfl

theorem rhs_axis0 (j : S1024x128.Idx) (q : dot_S1024x1024_S1024x128_S1024x128_0_0_1_1_n_n.contr.Idx) :
    (dot_S1024x1024_S1024x128_S1024x128_0_0_1_1_n_n.rhsIdx j q 0).val = (q ⟨0, by decide⟩).val :=
  DotDims.rhsIdx_val_of_single dot_S1024x1024_S1024x128_S1024x128_0_0_1_1_n_n rfl j q

theorem rhs_axis1 (j : S1024x128.Idx) (q : dot_S1024x1024_S1024x128_S1024x128_0_0_1_1_n_n.contr.Idx) :
    (dot_S1024x1024_S1024x128_S1024x128_0_0_1_1_n_n.rhsIdx j q 1).val = (j 1).val := rfl

theorem lhs_at (k : Fin 1024) (d : Fin 128) (r : Fin 1024) :
    dot_S1024x1024_S1024x128_S1024x128_0_0_1_1_n_n.lhsIdx (ix2 k d)
      ((contrEquiv1 dot_S1024x1024_S1024x128_S1024x128_0_0_1_1_n_n 1024 rfl rfl).symm r) = ix2 r k := by
  funext a
  apply Fin.ext
  match a with
  | ⟨0, _⟩ =>
    exact (lhs_axis0 _ _).trans (contrEquiv1_symm_val dot_S1024x1024_S1024x128_S1024x128_0_0_1_1_n_n 1024 rfl rfl r)
  | ⟨1, _⟩ => exact lhs_axis1 _ _

theorem rhs_at (k : Fin 1024) (d : Fin 128) (r : Fin 1024) :
    dot_S1024x1024_S1024x128_S1024x128_0_0_1_1_n_n.rhsIdx (ix2 k d)
      ((contrEquiv1 dot_S1024x1024_S1024x128_S1024x128_0_0_1_1_n_n 1024 rfl rfl).symm r) = ix2 r d := by
  funext a
  apply Fin.ext
  match a with
  | ⟨0, _⟩ =>
    exact (rhs_axis0 _ _).trans (contrEquiv1_symm_val dot_S1024x1024_S1024x128_S1024x128_0_0_1_1_n_n 1024 rfl rfl r)
  | ⟨1, _⟩ => exact rhs_axis1 _ _

/-- The product of two tiles contracted over their rows, into the zero block, at entry (k, d). -/
theorem matmul_rows_apply (A : FVec Ideal S1024x1024 .bf16) (B : FVec Ideal S1024x128 .bf16) (k : Fin 1024) (d : Fin 128) :
    FloatOps.matmul dot_S1024x1024_S1024x128_S1024x128_0_0_1_1_n_n none A B (constant (F := Ideal) S1024x128 .f32 0x00000000#32) (ix2 k d)
      = ∑ r : Fin 1024, A (ix2 r k) * B (ix2 r d) := by
  rw [Ideal.matmul_constant_zero_apply,
    ← Equiv.sum_comp (contrEquiv1 dot_S1024x1024_S1024x128_S1024x128_0_0_1_1_n_n 1024 rfl rfl).symm]
  exact Finset.sum_congr rfl fun r _ => by rw [lhs_at, rhs_at]

theorem lift_at (k r : Fin 1024) :
    reduces_S1024x1024_S1024.lift (ix1 k) r = ix2 r k := by
  funext a
  apply Fin.ext
  match a with
  | ⟨0, _⟩ => rfl
  | ⟨1, _⟩ => rfl

/-- The column sum of a tile at column k. -/
theorem colsum_apply (A : FVec Ideal S1024x1024 .f32) (k : Fin 1024) :
    multiReduction (F := Ideal) .add [0] S1024 A 0x00000000#32 reduces_S1024x1024_S1024 (.inl rfl) rfl (ix1 k)
      = ∑ r : Fin 1024, A (ix2 r k) := by
  refine (Ideal.multiReduction_add_single A _ _ _ _ _).trans ?_
  exact Finset.sum_congr rfl fun r _ => congrArg A (lift_at k r)

end K0

open K0

theorem k0_pay1_apply (j : S1024x128.Idx) : (k0_pay1 (F := Ideal) : S1024x128.Idx → EReal) j = 0 := by
  unfold k0_pay1
  exact Cert.Consts.ofBits_zero

theorem k0_pay2_apply (j : S1x1024.Idx) : (k0_pay2 (F := Ideal) : S1x1024.Idx → EReal) j = 0 := by
  unfold k0_pay2
  exact Cert.Consts.ofBits_zero

/-- The class-sum update at entry `(k, d)`. -/
theorem k0_pay4_apply (y : S1024x1.Idx → BitVec 32) (x acc : S1024x128.Idx → EReal) (k : Fin 1024) (d : Fin 128) :
    (k0_pay4 (F := Ideal) y x acc : S1024x128.Idx → EReal) (ix2 k d)
      = acc (ix2 k d) + ∑ r : Fin 1024, if (y (ix2 r 0)).toNat = k.val then x (ix2 r d) else 0 := by
  unfold k0_pay4
  rw [shapeCast_self]
  refine (addf_apply _ _ _).trans ?_
  refine congrArg (acc (ix2 k d) + ·) ?_
  refine (matmul_rows_apply _ _ k d).trans ?_
  refine Finset.sum_congr rfl fun r _ => ?_
  rw [truncf_apply, truncf_apply, oh_apply]
  by_cases h : (y (ix2 r 0)).toNat = k.val
  · rw [if_pos h, if_pos h, one_mul]
  · rw [if_neg h, if_neg h, zero_mul]

/-- The class-count update at entry `k`. -/
theorem k0_pay5_apply (y : S1024x1.Idx → BitVec 32) (acc : S1x1024.Idx → EReal) (k : Fin 1024) :
    (k0_pay5 (F := Ideal) y acc : S1x1024.Idx → EReal) (ix2 0 k)
      = acc (ix2 0 k) + ∑ r : Fin 1024, if (y (ix2 r 0)).toNat = k.val then (1 : EReal) else 0 := by
  unfold k0_pay5
  rw [shapeCast_self]
  refine (addf_apply _ _ _).trans ?_
  refine congrArg (acc (ix2 0 k) + ·) ?_
  refine (shapeCast_a_1a_apply _ _ 0 k).trans ?_
  refine (colsum_apply _ k).trans ?_
  exact Finset.sum_congr rfl fun r _ => oh_apply y r k

end Cert.KernelIdeal.PayMath

end
-- ==== Proof.KReg0.lean ====
/-
  The first kernel region (the segment sums), read as values at the ideal instance, for ANY contents `V`
  of the core's buffers at the region's entry.

  The region walks the 262144 samples in 256 tiles of 1024 rows. At a tile it forms the one-hot matrix
  `oh[r, k] = 1` when row `r`'s label is `k` (`k < 1024`), adds `ohᵀ · z_tile` to the running class sums and the
  column sums of `oh` to the running class counts; the first tile starts both from zero, and the two result
  blocks never move, so they are written back once, after the last tile. Over the extended reals the
  tile-by-tile accumulation is the sum over all samples: `sums[k, d] = ∑_b [label b = k] · z[b, d]` and
  `counts[k] = ∑_b [label b = k]` (`0 · x = 0` and `1 · x = x` hold for every extended real).
-/
import proofs.«408921_j38946763440455_1_alg».proof.Proof.Gen.KernelIdeal.Frame
import proofs.«408921_j38946763440455_1_alg».proof.Proof.KArr
import proofs.«408921_j38946763440455_1_alg».proof.Proof.Pieces
import proofs.«408921_j38946763440455_1_alg».proof.Proof.PayMath0
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import Mathlib.Algebra.BigOperators.Fin
import Mathlib.Logic.Equiv.Fin.Basic

noncomputable section

namespace Cert.KernelIdeal.Reg0

open Cert.KernelIdeal Cert.KernelIdeal.Gen Idealize.ShloMosaic Idealize.ShloMosaic.TcCoe Idealize.SL.Sem
open Idealize.ShloMosaic.Pipeline (Dat)
open Idealize.ShloMosaic.ValueIdx
open Cert.KernelIdeal.Arr

variable (V : (c : Dev nD) → (b : Ref sig .tc) → Buf (Elt Ideal) ((c : Thread nD τ).loc b)) (c : Dev nD)

/-! ## The tiles the region reads: rows `1024·t … 1024·t + 1023` of the samples and of the labels -/

/-- The sample tile the region reads at point `t`. -/
abbrev zB (t : Fin cfg0.N) : S1024x128.Idx → EReal := iblk0 (F := Ideal) V c 0 t
/-- The label tile the region reads at point `t`. -/
abbrev yB (t : Fin cfg0.N) : S1024x1.Idx → BitVec 32 := iblk0 (F := Ideal) V c 1 t

theorem hidx0 : ∀ t : Fin cfg0.N, win0_0.index t 0 = t.val ∧ win0_0.index t 1 = 0 :=
  (by decide +kernel : ∀ t : Fin grid0.N, win0_0.index t 0 = t.val ∧ win0_0.index t 1 = 0)
theorem hidx1 : ∀ t : Fin cfg0.N, win0_1.index t 0 = t.val ∧ win0_1.index t 1 = 0 :=
  (by decide +kernel : ∀ t : Fin grid0.N, win0_1.index t 0 = t.val ∧ win0_1.index t 1 = 0)

theorem tlt (t : Fin cfg0.N) : t.val < 256 := lt_of_lt_of_eq t.isLt (show cfg0.N = 256 from N_0)

theorem zB_apply (t : Fin cfg0.N) (r : Fin 1024) (d : Fin 128) :
    zB V c t (ix2 r d) = zV V c (ix2 (⟨1024 * t.val + r.val, by have := tlt t; omega⟩ : Fin 262144) d) := by
  unfold zB iblk0
  rw [View.read_apply]
  show V c main_arg0 _ = V c main_arg0 _
  congr 1
  funext a
  apply Fin.ext
  match a with
  | ⟨0, _⟩ => show win0_0.index t 0 * 1024 + 1 * r.val = 1024 * t.val + r.val; rw [(hidx0 t).1]; omega
  | ⟨1, _⟩ => show win0_0.index t 1 * 128 + 1 * d.val = d.val; rw [(hidx0 t).2]; omega

theorem yB_apply (t : Fin cfg0.N) (r : Fin 1024) :
    yB V c t (ix2 r 0) = yV V c (ix2 (⟨1024 * t.val + r.val, by have := tlt t; omega⟩ : Fin 262144) 0) := by
  unfold yB iblk0
  rw [View.read_apply]
  show V c main_v0 _ = V c main_v0 _
  congr 1
  funext a
  apply Fin.ext
  match a with
  | ⟨0, _⟩ => show win0_1.index t 0 * 1024 + 1 * r.val = 1024 * t.val + r.val; rw [(hidx1 t).1]; omega
  | ⟨1, _⟩ => show win0_1.index t 1 * 1 + 1 * 0 = 0; rw [(hidx1 t).2]

/-! ## The running sums and counts after each tile, by induction on the tile -/

/-- The running class sums after point `n`. -/
abbrev acc2 (n : ℕ) (hn : n < cfg0.N) : S1024x128.Idx → EReal := (outsAt0 (F := Ideal) V c n hn).1
/-- The running class counts after point `n`. -/
abbrev acc3 (n : ℕ) (hn : n < cfg0.N) : S1x1024.Idx → EReal := (outsAt0 (F := Ideal) V c n hn).2

/-- Tile `t`'s contribution to class sum `(k, d)`: the sum of coordinate `d` over the tile's rows labelled `k`. -/
def tileS (k : Fin 1024) (d : Fin 128) (t : ℕ) : EReal :=
  if h : t < 256 then
    ∑ r : Fin 1024, if (yV V c (ix2 (⟨1024 * t + r.val, by omega⟩ : Fin 262144) 0)).toNat = k.val
      then zV V c (ix2 (⟨1024 * t + r.val, by omega⟩ : Fin 262144) d) else 0
  else 0

/-- Tile `t`'s contribution to class count `k`: the number of the tile's rows labelled `k`. -/
def tileC (k : Fin 1024) (t : ℕ) : EReal :=
  if h : t < 256 then
    ∑ r : Fin 1024, if (yV V c (ix2 (⟨1024 * t + r.val, by omega⟩ : Fin 262144) 0)).toNat = k.val
      then (1 : EReal) else 0
  else 0

theorem step2 (t : Fin cfg0.N) (acc : S1024x128.Idx → EReal) (k : Fin 1024) (d : Fin 128) :
    (k0_pay4 (F := Ideal) (yB V c t) (zB V c t) acc : S1024x128.Idx → EReal) (ix2 k d)
      = acc (ix2 k d) + tileS V c k d t.val := by
  rw [PayMath.k0_pay4_apply, tileS, dif_pos (tlt t)]
  congr 1
  refine Finset.sum_congr rfl fun r _ => ?_
  rw [yB_apply, zB_apply]

theorem step3 (t : Fin cfg0.N) (acc : S1x1024.Idx → EReal) (k : Fin 1024) :
    (k0_pay5 (F := Ideal) (yB V c t) acc : S1x1024.Idx → EReal) (ix2 0 k)
      = acc (ix2 0 k) + tileC V c k t.val := by
  rw [PayMath.k0_pay5_apply, tileC, dif_pos (tlt t)]
  congr 1
  refine Finset.sum_congr rfl fun r _ => ?_
  rw [yB_apply]

theorem acc_eq (k : Fin 1024) (d : Fin 128) : ∀ (n : ℕ) (hn : n < cfg0.N),
    acc2 V c n hn (ix2 k d) = ∑ t ∈ Finset.range (n + 1), tileS V c k d t
      ∧ acc3 V c n hn (ix2 0 k) = ∑ t ∈ Finset.range (n + 1), tileC V c k t
  | 0, hn => by
    unfold acc2 acc3
    rw [outsAt0_A V c ⟨0, hn⟩ rfl]
    dsimp only
    rw [Pieces.out0_A_2_eq c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr rfl) (iblk0 V c 0 ⟨0, hn⟩) (iblk0 V c 1 ⟨0, hn⟩),
      Pieces.out0_A_3_eq c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr rfl) (iblk0 V c 0 ⟨0, hn⟩) (iblk0 V c 1 ⟨0, hn⟩)]
    rw [Finset.sum_range_one, Finset.sum_range_one]
    constructor
    · refine (step2 V c ⟨0, hn⟩ _ k d).trans ?_
      rw [PayMath.k0_pay1_apply, zero_add]
    · refine (step3 V c ⟨0, hn⟩ _ k).trans ?_
      rw [PayMath.k0_pay2_apply, zero_add]
  | n + 1, hn => by
    have hN : cfg0.N = 256 := N_0
    have hB : ¬(⟨n + 1, hn⟩ : Fin cfg0.N).val % 256 = 0 := by dsimp only; omega
    have ih := acc_eq k d n (Nat.lt_of_succ_lt hn)
    unfold acc2 acc3 at ih ⊢
    rw [outsAt0_B V c ⟨n + 1, hn⟩ hB]
    dsimp only
    rw [Pieces.out0_B_2_eq, Pieces.out0_B_3_eq]
    rw [Finset.sum_range_succ _ (n + 1), Finset.sum_range_succ _ (n + 1)]
    constructor
    · refine (step2 V c ⟨n + 1, hn⟩ _ k d).trans ?_
      show (outsAt0 V c n _).1 (ix2 k d) + _ = _
      rw [ih.1]
    · refine (step3 V c ⟨n + 1, hn⟩ _ k).trans ?_
      show (outsAt0 V c n _).2 (ix2 0 k) + _ = _
      rw [ih.2]

/-! ## The write-back after the last tile, and the sum over tiles as the sum over samples -/

/-- The last point. -/
abbrev tL : Fin cfg0.N := ⟨255, by rw [show cfg0.N = 256 from N_0]; decide⟩

/-- Both result windows sit on block `(0, 0)` at every point. -/
theorem hidx2 : ∀ t : Fin cfg0.N, win0_2.index t 0 = 0 ∧ win0_2.index t 1 = 0 :=
  (by decide +kernel : ∀ t : Fin grid0.N, win0_2.index t 0 = 0 ∧ win0_2.index t 1 = 0)
theorem hidx3 : ∀ t : Fin cfg0.N, win0_3.index t 0 = 0 ∧ win0_3.index t 1 = 0 :=
  (by decide +kernel : ∀ t : Fin grid0.N, win0_3.index t 0 = 0 ∧ win0_3.index t 1 = 0)

/-- The class sums over all samples, as an array. -/
def g2 : S1024x128.Idx → EReal := fun j =>
  ∑ b : Fin 262144, if (yV V c (ix2 b 0)).toNat = (j 0).val then zV V c (ix2 b (j 1)) else 0
/-- The class counts over all samples, as an array. -/
def g3 : S1x1024.Idx → EReal := fun j =>
  ∑ b : Fin 262144, if (yV V c (ix2 b 0)).toNat = (j 1).val then (1 : EReal) else 0

/-- The same, as contents of the result arrays. -/
abbrev G2 : Buf (Elt Ideal) ((c : Thread nD τ).loc main_v1_0) := g2 V c
abbrev G3 : Buf (Elt Ideal) ((c : Thread nD τ).loc main_v1_1) := g3 V c

/-- A sum over the 262144 samples is the sum over the 256 tiles of the sums over each tile's 1024 rows. -/
theorem sum_tiles {M : Type*} [AddCommMonoid M] (f : Fin 262144 → M) :
    ∑ b : Fin 262144, f b = ∑ t : Fin 256, ∑ r : Fin 1024, f ⟨1024 * t.val + r.val, by omega⟩ := by
  rw [← Fintype.sum_prod_type' (fun (t : Fin 256) (r : Fin 1024) => f ⟨1024 * t.val + r.val, by omega⟩)]
  refine (Equiv.sum_comp (finProdFinEquiv (m := 256) (n := 1024)) f).symm.trans ?_
  refine Finset.sum_congr rfl fun p _ => ?_
  congr 1
  apply Fin.ext
  show p.2.val + 1024 * p.1.val = 1024 * p.1.val + p.2.val
  omega

/-- At the last point the running class sums are the sums over all samples. -/
theorem closed2 (n : ℕ) (hn : n < cfg0.N) (h : n = 255) (k : Fin 1024) (d : Fin 128) :
    acc2 V c n hn (ix2 k d) = g2 V c (ix2 k d) := by
  rw [(acc_eq V c k d n hn).1, h]
  show ∑ t ∈ Finset.range 256, tileS V c k d t
    = ∑ b : Fin 262144, if (yV V c (ix2 b 0)).toNat = k.val then zV V c (ix2 b d) else 0
  rw [sum_tiles, ← Fin.sum_univ_eq_sum_range (fun t => tileS V c k d t) 256]
  refine Finset.sum_congr rfl fun t _ => ?_
  rw [tileS, dif_pos t.isLt]

/-- At the last point the running class counts are the counts over all samples. -/
theorem closed3 (n : ℕ) (hn : n < cfg0.N) (h : n = 255) (k : Fin 1024) :
    acc3 V c n hn (ix2 0 k) = g3 V c (ix2 0 k) := by
  rw [(acc_eq V c k 0 n hn).2, h]
  show ∑ t ∈ Finset.range 256, tileC V c k t
    = ∑ b : Fin 262144, if (yV V c (ix2 b 0)).toNat = k.val then (1 : EReal) else 0
  rw [sum_tiles, ← Fin.sum_univ_eq_sum_range (fun t => tileC V c k t) 256]
  refine Finset.sum_congr rfl fun t _ => ?_
  rw [tileC, dif_pos t.isLt]

/-- Read through the result window's block `(0, 0)`, which is the whole array, any contents are themselves. -/
theorem cut_eq_read2 (t : Fin cfg0.N) (X : Buf (Elt Ideal) ((c : Thread nD τ).loc main_v1_0)) :
    (cfg0.win 2).cut (grid0.coords t) X = ((cfg0.win 2).blk t).view.read (Elt Ideal) X := by
  have hz' : (fun a => win0_2.index t a * main_v1_0.ty.shape.size a) = fun _ => 0 :=
    funext fun a => by
      match a with
      | ⟨0, _⟩ => show win0_2.index t 0 * _ = 0; rw [(hidx2 t).1, Nat.zero_mul]
      | ⟨1, _⟩ => show win0_2.index t 1 * _ = 0; rw [(hidx2 t).2, Nat.zero_mul]
  exact (Memref.read_access_unit_zero (Elt Ideal) main_v1_0 hz' (fun a => by rw [congrFun hz' a, Nat.zero_add]) X).symm

theorem cut_eq_read3 (t : Fin cfg0.N) (X : Buf (Elt Ideal) ((c : Thread nD τ).loc main_v1_1)) :
    (cfg0.win 3).cut (grid0.coords t) X = ((cfg0.win 3).blk t).view.read (Elt Ideal) X := by
  have hz' : (fun a => win0_3.index t a * main_v1_1.ty.shape.size a) = fun _ => 0 :=
    funext fun a => by
      match a with
      | ⟨0, _⟩ => show win0_3.index t 0 * _ = 0; rw [(hidx3 t).1, Nat.zero_mul]
      | ⟨1, _⟩ => show win0_3.index t 1 * _ = 0; rw [(hidx3 t).2, Nat.zero_mul]
  exact (Memref.read_access_unit_zero (Elt Ideal) main_v1_1 hz' (fun a => by rw [congrFun hz' a, Nat.zero_add]) X).symm

theorem flushed2_eq (t : Fin cfg0.N) (hf : (cfg0.win 2).flush t = true) :
    (dat0 V c).flushed 2 t = ((cfg0.win 2).blk t).view.read (Elt Ideal) (G2 V c) := by
  have hN : cfg0.N = 256 := N_0
  have h3 : t.val = 255 := by have := (flush0_2 t).mp hf; have := t.isLt; omega
  have hX : acc2 V c t.val t.isLt = g2 V c := funext fun j => by
    obtain ⟨p, q, rfl⟩ : ∃ p q, j = ix2 p q := ⟨j 0, j 1, eq_ix2 j⟩
    exact closed2 V c t.val t.isLt h3 p q
  show (cfg0.win 2).cut (grid0.coords t) ((dat0 V c).after 2 t) = _
  rw [after0_2]
  show (cfg0.win 2).cut (grid0.coords t) (acc2 V c t.val t.isLt) = _
  rw [hX]
  exact cut_eq_read2 c t _

theorem flushed3_eq (t : Fin cfg0.N) (hf : (cfg0.win 3).flush t = true) :
    (dat0 V c).flushed 3 t = ((cfg0.win 3).blk t).view.read (Elt Ideal) (G3 V c) := by
  have hN : cfg0.N = 256 := N_0
  have h3 : t.val = 255 := by have := (flush0_3 t).mp hf; have := t.isLt; omega
  have hX : acc3 V c t.val t.isLt = g3 V c := funext fun j => by
    obtain ⟨p, q, rfl⟩ : ∃ p q, j = ix2 p q := ⟨j 0, j 1, eq_ix2 j⟩
    obtain rfl : p = 0 := Subsingleton.elim _ _
    exact closed3 V c t.val t.isLt h3 q
  show (cfg0.win 3).cut (grid0.coords t) ((dat0 V c).after 3 t) = _
  rw [after0_3]
  show (cfg0.win 3).cut (grid0.coords t) (acc3 V c t.val t.isLt) = _
  rw [hX]
  exact cut_eq_read3 c t _

/-- Every entry of the class-sum array lies in the result window's block, at any point. -/
theorem mem_blk2 (t : Fin cfg0.N) (i : ((cfg0.win 2).arr.view.loc ((c : Dev nD).tc : Thread nD τ)).2.ty.Idx) :
    i ∈ ((cfg0.win 2).blk t).view.set := by
  show i ∈ ((View.whole main_v1_0).slice (win0_2.rect t)).set
  rw [View.set_slice_whole, Rect.mem_set_unit]
  intro a
  have h0 : (i 0 : Nat) < 1024 := (i 0).isLt
  have h1 : (i 1 : Nat) < 128 := (i 1).isLt
  match a with
  | ⟨0, _⟩ => show win0_2.index t 0 * 1024 ≤ (i 0 : Nat) ∧ (i 0 : Nat) < win0_2.index t 0 * 1024 + 1024
              rw [(hidx2 t).1]; omega
  | ⟨1, _⟩ => show win0_2.index t 1 * 128 ≤ (i 1 : Nat) ∧ (i 1 : Nat) < win0_2.index t 1 * 128 + 128
              rw [(hidx2 t).2]; omega

/-- Every entry of the class-count array lies in the result window's block, at any point. -/
theorem mem_blk3 (t : Fin cfg0.N) (i : ((cfg0.win 3).arr.view.loc ((c : Dev nD).tc : Thread nD τ)).2.ty.Idx) :
    i ∈ ((cfg0.win 3).blk t).view.set := by
  show i ∈ ((View.whole main_v1_1).slice (win0_3.rect t)).set
  rw [View.set_slice_whole, Rect.mem_set_unit]
  intro a
  have h0 : (i 0 : Nat) < 1 := (i 0).isLt
  have h1 : (i 1 : Nat) < 1024 := (i 1).isLt
  match a with
  | ⟨0, _⟩ => show win0_3.index t 0 * 1 ≤ (i 0 : Nat) ∧ (i 0 : Nat) < win0_3.index t 0 * 1 + 1
              rw [(hidx3 t).1]; omega
  | ⟨1, _⟩ => show win0_3.index t 1 * 1024 ≤ (i 1 : Nat) ∧ (i 1 : Nat) < win0_3.index t 1 * 1024 + 1024
              rw [(hidx3 t).2]; omega

theorem final2 : (dat0 V c).arrAt 2 cfg0.N = G2 V c :=
  (dat0 V c).arrAt_eq_of_cover 2 (G2 V c) (flushed2_eq V c) fun i =>
    ⟨tL, (flush0_2 tL).mpr rfl, mem_blk2 c tL i⟩

theorem final3 : (dat0 V c).arrAt 3 cfg0.N = G3 V c :=
  (dat0 V c).arrAt_eq_of_cover 3 (G3 V c) (flushed3_eq V c) fun i =>
    ⟨tL, (flush0_3 tL).mpr rfl, mem_blk3 c tL i⟩

/-! ## The region's two results -/

/-- After the region, entry `(k, d)` of the class-sum array is the sum of coordinate `d` over the samples labelled `k`. -/
theorem arr_sums (k : Fin 1024) (d : Fin 128) :
    sums0 V c (ix2 k d)
      = ∑ b : Fin 262144, if (yV V c (ix2 b 0)).toNat = k.val then zV V c (ix2 b d) else 0 := by
  show ((dat0 (F := Ideal) V c).arrAt 2 cfg0.N : S1024x128.Idx → EReal) (ix2 k d) = _
  rw [final2]
  rfl

/-- After the region, entry `k` of the class-count array is the number of samples labelled `k`. -/
theorem arr_counts (k : Fin 1024) :
    counts0 V c (ix2 0 k)
      = ∑ b : Fin 262144, if (yV V c (ix2 b 0)).toNat = k.val then (1 : EReal) else 0 := by
  show ((dat0 (F := Ideal) V c).arrAt 3 cfg0.N : S1x1024.Idx → EReal) (ix2 0 k) = _
  rw [final3]
  rfl

end Cert.KernelIdeal.Reg0

end
-- ==== Proof.PayMath1.lean ====
/-
  The second region's update, read over the extended reals.

  For a tile of 1024 rows with labels `y r` below 1024, samples `x r` and the centroid table `ce`, the product of
  the one-hot label matrix with the table is the table's row at the label (`0 · a = 0`, `1 · a = a` for every
  extended real, one column of each row being one). The update adds to the running total the sum over the rows
  and the 128 coordinates of the squared difference between the sample and that row.
-/
import proofs.«408921_j38946763440455_1_alg».proof.Proof.Gen.KernelIdeal.Skeleton
import proofs.«408921_j38946763440455_1_alg».proof.Proof.Consts
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayMath

open Cert.KernelIdeal Cert.KernelIdeal.Gen Idealize.ShloMosaic Idealize.ShloMosaic.ValueIdx

theorem k1_pay1_apply (j : S1x1.Idx) : (k1_pay1 (F := Ideal) : S1x1.Idx → EReal) j = 0 := by
  unfold k1_pay1
  exact Cert.Consts.ofBits_zero

namespace Pay1

/-- The product's dimension numbers: the first factor's second axis is contracted with the second factor's first. -/
abbrev D1 : DotDims S1024x1024 S1024x128 S1024x128 := dot_S1024x1024_S1024x128_S1024x128_1_0_0_1_n_n

/-- The first factor is read at the output's row … -/
theorem lhs_D1_0 (j : S1024x128.Idx) (k : D1.contr.Idx) : ((D1.lhsIdx j k (0 : Fin 2)) : ℕ) = (j 0).val := by
  unfold DotDims.lhsIdx
  rw [dif_neg (show ¬(0 : Fin S1024x1024.rank) ∈ D1.lhsBatch by decide),
    dif_pos (show (0 : Fin S1024x1024.rank) ∈ D1.lhsNonContracting by decide)]
  rfl

/-- … and at the contracted coordinate. -/
theorem lhs_D1_1 (j : S1024x128.Idx) (k : D1.contr.Idx) : ((D1.lhsIdx j k (1 : Fin 2)) : ℕ) = (k ⟨0, by decide⟩).val :=
  D1.lhsIdx_val_of_single (cl := (1 : Fin 2)) rfl j k

/-- The second factor is read at the contracted coordinate … -/
theorem rhs_D1_0 (j : S1024x128.Idx) (k : D1.contr.Idx) : ((D1.rhsIdx j k (0 : Fin 2)) : ℕ) = (k ⟨0, by decide⟩).val :=
  D1.rhsIdx_val_of_single (cr := (0 : Fin 2)) rfl j k

/-- … and at the output's column. -/
theorem rhs_D1_1 (j : S1024x128.Idx) (k : D1.contr.Idx) : ((D1.rhsIdx j k (1 : Fin 2)) : ℕ) = (j 1).val := by
  unfold DotDims.rhsIdx
  rw [dif_neg (show ¬(1 : Fin S1024x128.rank) ∈ D1.rhsBatch by decide),
    dif_pos (show (1 : Fin S1024x128.rank) ∈ D1.rhsNonContracting by decide)]
  rfl

/-- The product with a zero accumulator, at a point: the sum over the contracted coordinate. -/
theorem matmul_D1_apply (oh : FVec Ideal S1024x1024 .bf16) (ce : FVec Ideal S1024x128 .bf16) (r : Fin 1024) (d : Fin 128) :
    (matmul D1 none oh ce (constant (F := Ideal) S1024x128 .f32 0x00000000#32) : FVec Ideal S1024x128 .f32) (ix2 r d)
      = ∑ k : Fin 1024, oh (ix2 r k) * ce (ix2 k d) := by
  refine (Ideal.matmul_constant_zero_apply D1 none oh ce (ix2 r d)).trans ?_
  rw [← Equiv.sum_comp (contrEquiv1 D1 1024 rfl rfl).symm]
  refine Finset.sum_congr rfl fun k _ => ?_
  have hl : D1.lhsIdx (ix2 r d) ((contrEquiv1 D1 1024 rfl rfl).symm k) = ix2 r k :=
    Shape.idx_ext₂ (lhs_D1_0 _ _) ((lhs_D1_1 _ _).trans (contrEquiv1_symm_val D1 1024 rfl rfl k))
  have hr : D1.rhsIdx (ix2 r d) ((contrEquiv1 D1 1024 rfl rfl).symm k) = ix2 k d :=
    Shape.idx_ext₂ ((rhs_D1_0 _ _).trans (contrEquiv1_symm_val D1 1024 rfl rfl k)) (rhs_D1_1 _ _)
  rw [hl, hr]

/-- The one-hot matrix of the labels, at a point: one where the column is the row's label, zero elsewhere. -/
theorem onehot_apply (y : S1024x1.Idx → BitVec 32) (h1 : S1024x1.ShapeCasts S1024x1) (h2 : S1024x1024.Iotas .tc 32 [1])
    (h3 : S1024x1.Broadcasts S1024x1024) (h4 : 1 < 32) (r k : Fin 1024) :
    (sitofp (F := Ideal) .f32 (extui 32 (cmpi .eq (broadcastTo S1024x1024 (shapeCast S1024x1 y h1) h3)
        (iota .tc S1024x1024 32 [1] h2)) h4) : FVec Ideal S1024x1024 .f32) (ix2 r k)
      = if (y (ix2 r 0)).toNat = k.val then (1 : EReal) else 0 := by
  rw [sitofp_apply, extui_apply]
  show FloatOps.sitofp (F := Ideal) .f32 ((IntOp.cmpi .eq (broadcastTo S1024x1024 (shapeCast S1024x1 y h1) h3 (ix2 r k))
        (iota .tc S1024x1024 32 [1] h2 (ix2 r k))).setWidth 32) = _
  rw [broadcastTo_apply (shapeCast S1024x1 y h1) h3 (ix2 r k) (ix2 r 0) (fun a => by
        match a with
        | ⟨0, _⟩ => rfl
        | ⟨1, _⟩ => rfl),
    shapeCast_self, iota_single_apply]
  show (((((IntOp.cmpi .eq (y (ix2 r 0)) (BitVec.ofNat 32 k.val)).setWidth 32).toInt : ℝ)) : EReal) = _
  by_cases h : (y (ix2 r 0)).toNat = k.val
  · have he : y (ix2 r 0) = BitVec.ofNat 32 k.val := by
      apply BitVec.eq_of_toNat_eq
      rw [BitVec.toNat_ofNat, h]
      have := k.isLt
      omega
    rw [if_pos h, IntOp.cmpi_eq.mpr he]
    simp
  · have hne : ¬ y (ix2 r 0) = BitVec.ofNat 32 k.val := by
      intro he
      apply h
      rw [he, BitVec.toNat_ofNat]
      have := k.isLt
      omega
    have h0 : IntOp.cmpi .eq (y (ix2 r 0)) (BitVec.ofNat 32 k.val) = 0#1 :=
      eq_zero_of_ne_one (fun hc => hne (IntOp.cmpi_eq.mp hc))
    rw [if_neg h, h0]
    simp

/-- The indicator's product picks one term of a sum over the rows of a table. -/
theorem sum_onehot_mul (L : ℕ) (hL : L < 1024) (c : Fin 1024 → EReal) :
    ∑ k : Fin 1024, (if L = k.val then (1 : EReal) else 0) * c k = c ⟨L, hL⟩ := by
  rw [Finset.sum_eq_single (⟨L, hL⟩ : Fin 1024)]
  · rw [if_pos rfl, one_mul]
  · intro k _ hk
    rw [if_neg (fun h => hk (Fin.ext h.symm)), zero_mul]
  · intro h
    exact absurd (Finset.mem_univ _) h

/-- The sum over the 128 coordinates, at a row. -/
theorem laneSum_apply (v : FVec Ideal S1024x128 .f32) (h : S1024x128.Reduces [1] S1024) (hφ : FKind.Formats .f32)
    (hacc : (0x00000000#32 : BitVec 32) = FKind.add.neutral .f32 hφ) (r : Fin 1024) :
    multiReduction .add [1] S1024 v 0x00000000#32 h hφ hacc (ix1 r) = ∑ d : Fin 128, v (ix2 r d) := by
  rw [Ideal.multiReduction_add_single]
  exact Finset.sum_congr rfl fun d _ => congrArg v (Shape.idx_ext₂ rfl rfl)

/-- The sum over the 1024 rows of a column. -/
theorem rowSum_apply (v : FVec Ideal S1024x1 .f32) (h : S1024x1.Reduces [0] S1) (hφ : FKind.Formats .f32)
    (hacc : (0x00000000#32 : BitVec 32) = FKind.add.neutral .f32 hφ) :
    multiReduction .add [0] S1 v 0x00000000#32 h hφ hacc (ix1 0) = ∑ r : Fin 1024, v (ix2 r 0) := by
  rw [Ideal.multiReduction_add_single]
  exact Finset.sum_congr rfl fun r _ => congrArg v (Shape.idx_ext₂ rfl rfl)

/-- A vector of 1024 entries viewed as a column reads the same entry. -/
theorem colCast_apply {α : Type} (v : S1024.Idx → α) (h : S1024.ShapeCasts S1024x1) (r : Fin 1024) :
    shapeCast S1024x1 v h (ix2 r 0) = v (ix1 r) :=
  shapeCast_apply v h _ _ (by
    rw [Shape.rowMajor_val_two, Shape.rowMajor_val_one]
    show r.val = r.val * 1 + 0
    omega)

/-- The product of the one-hot label matrix with the table is the table's row at the label. -/
theorem gathered_apply (y : S1024x1.Idx → BitVec 32) (ce : S1024x128.Idx → EReal)
    (h1 : S1024x1.ShapeCasts S1024x1) (h2 : S1024x1024.Iotas .tc 32 [1]) (h3 : S1024x1.Broadcasts S1024x1024) (h4 : 1 < 32)
    (h5 : FTy.bits .bf16 < FTy.bits .f32) (h6 : S1024x128.ShapeCasts S1024x128)
    (hy : ∀ r : Fin 1024, (y (ix2 r 0)).toNat < 1024) (r : Fin 1024) (d : Fin 128) :
    (matmul D1 none
        (truncf .bf16 (sitofp (F := Ideal) .f32 (extui 32 (cmpi .eq (broadcastTo S1024x1024 (shapeCast S1024x1 y h1) h3)
          (iota .tc S1024x1024 32 [1] h2)) h4)) h5)
        (truncf (F := Ideal) .bf16 (shapeCast S1024x128 (ce : FVec Ideal S1024x128 .f32) h6) h5)
        (constant (F := Ideal) S1024x128 .f32 0x00000000#32) : FVec Ideal S1024x128 .f32) (ix2 r d)
      = ce (ix2 (⟨_, hy r⟩ : Fin 1024) d) := by
  refine (matmul_D1_apply _ _ r d).trans ?_
  refine (Finset.sum_congr rfl fun k _ => ?_).trans (sum_onehot_mul _ (hy r) fun k => ce (ix2 k d))
  rw [truncf_apply, truncf_apply, onehot_apply, shapeCast_self]

end Pay1

/-- The running total's update. -/
theorem k1_pay2_apply (y : S1024x1.Idx → BitVec 32) (ce x : S1024x128.Idx → EReal) (acc : S1x1.Idx → EReal)
    (hy : ∀ r : Fin 1024, (y (ix2 r 0)).toNat < 1024) :
    (k1_pay2 (F := Ideal) y ce x acc : S1x1.Idx → EReal) (ix2 0 0)
      = acc (ix2 0 0) + ∑ r : Fin 1024, ∑ d : Fin 128,
          (x (ix2 r d) - ce (ix2 (⟨_, hy r⟩ : Fin 1024) d)) * (x (ix2 r d) - ce (ix2 (⟨_, hy r⟩ : Fin 1024) d)) := by
  unfold k1_pay2
  rw [addf_apply, shapeCast_self]
  refine congrArg (acc (ix2 0 0) + ·) ?_
  refine (shapeCast_a_1a_apply _ _ 0 0).trans ?_
  refine (Pay1.rowSum_apply _ _ _ _).trans ?_
  refine Finset.sum_congr rfl fun r _ => ?_
  refine (Pay1.colCast_apply _ _ r).trans ?_
  refine (Pay1.laneSum_apply _ _ _ _ r).trans ?_
  refine Finset.sum_congr rfl fun d _ => ?_
  rw [mulf_apply, subf_apply]
  rw [Pay1.gathered_apply y ce _ _ _ _ _ _ hy r d]

end Cert.KernelIdeal.PayMath

end
-- ==== Proof.KReg1.lean ====
/-
  The second kernel region (the summed squared distances), read as a value at the ideal instance, for ANY
  contents `V` of the core's buffers at the region's entry.

  The region walks the samples in 256 tiles of 1024 rows with the whole centroid table resident. At a tile it
  gathers each row's centroid as the product of the one-hot label matrix with the table — for a label below 1024
  that product is the table's row at the label, since `0 · x = 0` and `1 · x = x` for every extended real —,
  subtracts it from the row, squares, sums over the 128 coordinates and the 1024 rows, and adds the tile's sum to
  the running total; the first tile starts from zero and the one-element result is written back after the last.
  Over the extended reals the accumulation is the double sum over all samples and coordinates.
-/
import proofs.«408921_j38946763440455_1_alg».proof.Proof.Gen.KernelIdeal.Frame
import proofs.«408921_j38946763440455_1_alg».proof.Proof.KArr
import proofs.«408921_j38946763440455_1_alg».proof.Proof.Pieces
import proofs.«408921_j38946763440455_1_alg».proof.Proof.PayMath1
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import Mathlib.Algebra.BigOperators.Fin
import Mathlib.Logic.Equiv.Fin.Basic

noncomputable section

namespace Cert.KernelIdeal.Reg1

open Cert.KernelIdeal Cert.KernelIdeal.Gen Idealize.ShloMosaic Idealize.ShloMosaic.TcCoe Idealize.SL.Sem
open Idealize.ShloMosaic.Pipeline (Dat)
open Idealize.ShloMosaic.ValueIdx
open Cert.KernelIdeal.Arr

variable (V : (c : Dev nD) → (b : Ref sig .tc) → Buf (Elt Ideal) ((c : Thread nD τ).loc b)) (c : Dev nD)

/-! ## The tiles the region reads: rows `1024·t … 1024·t + 1023` of the samples and of the labels, and the whole centroid table -/

/-- The sample tile the region reads at point `t`. -/
abbrev zB (t : Fin cfg1.N) : S1024x128.Idx → EReal := iblk1 (F := Ideal) V c 0 t
/-- The label tile the region reads at point `t`. -/
abbrev yB (t : Fin cfg1.N) : S1024x1.Idx → BitVec 32 := iblk1 (F := Ideal) V c 1 t
/-- The centroid table as the region reads it at point `t`. -/
abbrev cB (t : Fin cfg1.N) : S1024x128.Idx → EReal := iblk1 (F := Ideal) V c 2 t

theorem hidx0 : ∀ t : Fin cfg1.N, win1_0.index t 0 = t.val ∧ win1_0.index t 1 = 0 :=
  (by decide +kernel : ∀ t : Fin grid1.N, win1_0.index t 0 = t.val ∧ win1_0.index t 1 = 0)
theorem hidx1 : ∀ t : Fin cfg1.N, win1_1.index t 0 = t.val ∧ win1_1.index t 1 = 0 :=
  (by decide +kernel : ∀ t : Fin grid1.N, win1_1.index t 0 = t.val ∧ win1_1.index t 1 = 0)
theorem hidx2 : ∀ t : Fin cfg1.N, win1_2.index t 0 = 0 ∧ win1_2.index t 1 = 0 :=
  (by decide +kernel : ∀ t : Fin grid1.N, win1_2.index t 0 = 0 ∧ win1_2.index t 1 = 0)
theorem hidx3 : ∀ t : Fin cfg1.N, win1_3.index t 0 = 0 ∧ win1_3.index t 1 = 0 :=
  (by decide +kernel : ∀ t : Fin grid1.N, win1_3.index t 0 = 0 ∧ win1_3.index t 1 = 0)

theorem tlt (t : Fin cfg1.N) : t.val < 256 := lt_of_lt_of_eq t.isLt (show cfg1.N = 256 from N_1)

theorem zB_apply (t : Fin cfg1.N) (r : Fin 1024) (d : Fin 128) :
    zB V c t (ix2 r d) = zV V c (ix2 (⟨1024 * t.val + r.val, by have := tlt t; omega⟩ : Fin 262144) d) := by
  unfold zB iblk1
  rw [View.read_apply]
  show V c main_arg0 _ = V c main_arg0 _
  congr 1
  funext a
  apply Fin.ext
  match a with
  | ⟨0, _⟩ => show win1_0.index t 0 * 1024 + 1 * r.val = 1024 * t.val + r.val; rw [(hidx0 t).1]; omega
  | ⟨1, _⟩ => show win1_0.index t 1 * 128 + 1 * d.val = d.val; rw [(hidx0 t).2]; omega

theorem yB_apply (t : Fin cfg1.N) (r : Fin 1024) :
    yB V c t (ix2 r 0) = yV V c (ix2 (⟨1024 * t.val + r.val, by have := tlt t; omega⟩ : Fin 262144) 0) := by
  unfold yB iblk1
  rw [View.read_apply]
  show V c main_v0 _ = V c main_v0 _
  congr 1
  funext a
  apply Fin.ext
  match a with
  | ⟨0, _⟩ => show win1_1.index t 0 * 1024 + 1 * r.val = 1024 * t.val + r.val; rw [(hidx1 t).1]; omega
  | ⟨1, _⟩ => show win1_1.index t 1 * 1 + 1 * 0 = 0; rw [(hidx1 t).2]

theorem cB_apply (t : Fin cfg1.N) (k : Fin 1024) (d : Fin 128) :
    cB V c t (ix2 k d) = ceV V c (ix2 k d) := by
  unfold cB iblk1
  rw [View.read_apply]
  show V c main_v9 _ = V c main_v9 _
  congr 1
  funext a
  apply Fin.ext
  match a with
  | ⟨0, _⟩ => show win1_2.index t 0 * 1024 + 1 * k.val = k.val; rw [(hidx2 t).1]; omega
  | ⟨1, _⟩ => show win1_2.index t 1 * 128 + 1 * d.val = d.val; rw [(hidx2 t).2]; omega

/-! ## The running total after each tile, by induction on the tile -/

/-- The running total after point `n`. -/
abbrev acc3 (n : ℕ) (hn : n < cfg1.N) : S1x1.Idx → EReal := outsAt1 (F := Ideal) V c n hn

/-- Tile `t`'s contribution to the total: its rows' squared distances to their labels' centroids. -/
def tileT (hy : ∀ b : Fin 262144, (yV V c (ix2 b 0)).toNat < 1024) (t : ℕ) : EReal :=
  if h : t < 256 then
    ∑ r : Fin 1024, ∑ d : Fin 128,
      (zV V c (ix2 (⟨1024 * t + r.val, by omega⟩ : Fin 262144) d)
          - ceV V c (ix2 (⟨_, hy (⟨1024 * t + r.val, by omega⟩ : Fin 262144)⟩ : Fin 1024) d))
        * (zV V c (ix2 (⟨1024 * t + r.val, by omega⟩ : Fin 262144) d)
          - ceV V c (ix2 (⟨_, hy (⟨1024 * t + r.val, by omega⟩ : Fin 262144)⟩ : Fin 1024) d))
  else 0

theorem step (hy : ∀ b : Fin 262144, (yV V c (ix2 b 0)).toNat < 1024) (t : Fin cfg1.N) (acc : S1x1.Idx → EReal) :
    (k1_pay2 (F := Ideal) (yB V c t) (cB V c t) (zB V c t) acc : S1x1.Idx → EReal) (ix2 0 0)
      = acc (ix2 0 0) + tileT V c hy t.val := by
  have hyt : ∀ r : Fin 1024, (yB V c t (ix2 r 0)).toNat < 1024 := fun r => by rw [yB_apply]; exact hy _
  rw [PayMath.k1_pay2_apply (yB V c t) (cB V c t) (zB V c t) acc hyt, tileT, dif_pos (tlt t)]
  refine congrArg (fun s => acc (ix2 0 0) + s) ?_
  refine Finset.sum_congr rfl fun r _ => Finset.sum_congr rfl fun d _ => ?_
  have e : (⟨(yB V c t (ix2 r 0)).toNat, hyt r⟩ : Fin 1024)
      = ⟨(yV V c (ix2 (⟨1024 * t.val + r.val, by have := tlt t; omega⟩ : Fin 262144) 0)).toNat, hy _⟩ :=
    Fin.ext (congrArg BitVec.toNat (yB_apply V c t r))
  rw [zB_apply, cB_apply, e]

theorem acc_eq (hy : ∀ b : Fin 262144, (yV V c (ix2 b 0)).toNat < 1024) : ∀ (n : ℕ) (hn : n < cfg1.N),
    acc3 V c n hn (ix2 0 0) = ∑ t ∈ Finset.range (n + 1), tileT V c hy t
  | 0, hn => by
    unfold acc3
    rw [outsAt1_A V c ⟨0, hn⟩ rfl]
    rw [Pieces.out1_A_3_eq c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1_0 ⟨0, hn⟩).mpr rfl) (iblk1 V c 0 ⟨0, hn⟩) (iblk1 V c 1 ⟨0, hn⟩) (iblk1 V c 2 ⟨0, hn⟩)]
    rw [Finset.sum_range_one]
    refine (step V c hy ⟨0, hn⟩ _).trans ?_
    rw [PayMath.k1_pay1_apply, zero_add]
  | n + 1, hn => by
    have hN : cfg1.N = 256 := N_1
    have hB : ¬(⟨n + 1, hn⟩ : Fin cfg1.N).val % 256 = 0 := by dsimp only; omega
    have ih := acc_eq hy n (Nat.lt_of_succ_lt hn)
    unfold acc3 at ih ⊢
    rw [outsAt1_B V c ⟨n + 1, hn⟩ hB]
    rw [Pieces.out1_B_3_eq]
    rw [Finset.sum_range_succ _ (n + 1)]
    refine (step V c hy ⟨n + 1, hn⟩ _).trans ?_
    show (outsAt1 V c n _) (ix2 0 0) + _ = _
    rw [ih]

/-! ## The write-back after the last tile, and the sum over tiles as the sum over samples -/

/-- The last point. -/
abbrev tL : Fin cfg1.N := ⟨255, by rw [show cfg1.N = 256 from N_1]; decide⟩

/-- The summed squared distances over all samples, as a one-element array. -/
def gT (hy : ∀ b : Fin 262144, (yV V c (ix2 b 0)).toNat < 1024) : S1x1.Idx → EReal := fun _ =>
  ∑ b : Fin 262144, ∑ d : Fin 128,
    (zV V c (ix2 b d) - ceV V c (ix2 (⟨_, hy b⟩ : Fin 1024) d))
      * (zV V c (ix2 b d) - ceV V c (ix2 (⟨_, hy b⟩ : Fin 1024) d))

/-- The same, as contents of the result array. -/
abbrev GT (hy : ∀ b : Fin 262144, (yV V c (ix2 b 0)).toNat < 1024) :
    Buf (Elt Ideal) ((c : Thread nD τ).loc main_v10) := gT V c hy

/-- A sum over the 262144 samples is the sum over the 256 tiles of the sums over each tile's 1024 rows. -/
theorem sum_tiles {M : Type*} [AddCommMonoid M] (f : Fin 262144 → M) :
    ∑ b : Fin 262144, f b = ∑ t : Fin 256, ∑ r : Fin 1024, f ⟨1024 * t.val + r.val, by omega⟩ := by
  rw [← Fintype.sum_prod_type' (fun (t : Fin 256) (r : Fin 1024) => f ⟨1024 * t.val + r.val, by omega⟩)]
  refine (Equiv.sum_comp (finProdFinEquiv (m := 256) (n := 1024)) f).symm.trans ?_
  refine Finset.sum_congr rfl fun p _ => ?_
  congr 1
  apply Fin.ext
  show p.2.val + 1024 * p.1.val = 1024 * p.1.val + p.2.val
  omega

/-- At the last point the running total is the sum over all samples. -/
theorem closed (hy : ∀ b : Fin 262144, (yV V c (ix2 b 0)).toNat < 1024) (n : ℕ) (hn : n < cfg1.N) (h : n = 255) :
    acc3 V c n hn (ix2 0 0) = gT V c hy (ix2 0 0) := by
  rw [acc_eq V c hy n hn, h]
  show ∑ t ∈ Finset.range 256, tileT V c hy t
    = ∑ b : Fin 262144, ∑ d : Fin 128,
        (zV V c (ix2 b d) - ceV V c (ix2 (⟨_, hy b⟩ : Fin 1024) d))
          * (zV V c (ix2 b d) - ceV V c (ix2 (⟨_, hy b⟩ : Fin 1024) d))
  rw [sum_tiles, ← Fin.sum_univ_eq_sum_range (fun t => tileT V c hy t) 256]
  refine Finset.sum_congr rfl fun t _ => ?_
  rw [tileT, dif_pos t.isLt]

/-- Read through the result window's block `(0, 0)`, which is the whole array, any contents are themselves. -/
theorem cut_eq_read (t : Fin cfg1.N) (X : Buf (Elt Ideal) ((c : Thread nD τ).loc main_v10)) :
    (cfg1.win 3).cut (grid1.coords t) X = ((cfg1.win 3).blk t).view.read (Elt Ideal) X := by
  have hz' : (fun a => win1_3.index t a * main_v10.ty.shape.size a) = fun _ => 0 :=
    funext fun a => by
      match a with
      | ⟨0, _⟩ => show win1_3.index t 0 * _ = 0; rw [(hidx3 t).1, Nat.zero_mul]
      | ⟨1, _⟩ => show win1_3.index t 1 * _ = 0; rw [(hidx3 t).2, Nat.zero_mul]
  exact (Memref.read_access_unit_zero (Elt Ideal) main_v10 hz' (fun a => by rw [congrFun hz' a, Nat.zero_add]) X).symm

theorem flushed_eq (hy : ∀ b : Fin 262144, (yV V c (ix2 b 0)).toNat < 1024) (t : Fin cfg1.N)
    (hf : (cfg1.win 3).flush t = true) :
    (dat1 V c).flushed 3 t = ((cfg1.win 3).blk t).view.read (Elt Ideal) (GT V c hy) := by
  have hN : cfg1.N = 256 := N_1
  have h3 : t.val = 255 := by have := (flush1_3 t).mp hf; have := t.isLt; omega
  have hX : acc3 V c t.val t.isLt = gT V c hy := funext fun j => by
    obtain ⟨p, q, rfl⟩ : ∃ p q, j = ix2 p q := ⟨j 0, j 1, eq_ix2 j⟩
    obtain rfl : p = 0 := Subsingleton.elim _ _
    obtain rfl : q = 0 := Subsingleton.elim _ _
    exact closed V c hy t.val t.isLt h3
  show (cfg1.win 3).cut (grid1.coords t) ((dat1 V c).after 3 t) = _
  rw [after1_3]
  show (cfg1.win 3).cut (grid1.coords t) (acc3 V c t.val t.isLt) = _
  rw [hX]
  exact cut_eq_read c t _

/-- The one entry of the result array lies in the result window's block, at any point. -/
theorem mem_blk (t : Fin cfg1.N) (i : ((cfg1.win 3).arr.view.loc ((c : Dev nD).tc : Thread nD τ)).2.ty.Idx) :
    i ∈ ((cfg1.win 3).blk t).view.set := by
  show i ∈ ((View.whole main_v10).slice (win1_3.rect t)).set
  rw [View.set_slice_whole, Rect.mem_set_unit]
  intro a
  have h0 : (i 0 : Nat) < 1 := (i 0).isLt
  have h1 : (i 1 : Nat) < 1 := (i 1).isLt
  match a with
  | ⟨0, _⟩ => show win1_3.index t 0 * 1 ≤ (i 0 : Nat) ∧ (i 0 : Nat) < win1_3.index t 0 * 1 + 1
              rw [(hidx3 t).1]; omega
  | ⟨1, _⟩ => show win1_3.index t 1 * 1 ≤ (i 1 : Nat) ∧ (i 1 : Nat) < win1_3.index t 1 * 1 + 1
              rw [(hidx3 t).2]; omega

theorem final (hy : ∀ b : Fin 262144, (yV V c (ix2 b 0)).toNat < 1024) :
    (dat1 V c).arrAt 3 cfg1.N = GT V c hy :=
  (dat1 V c).arrAt_eq_of_cover 3 (GT V c hy) (flushed_eq V c hy) fun i =>
    ⟨tL, (flush1_3 tL).mpr rfl, mem_blk c tL i⟩

/-! ## The region's result -/

/-- After the region, the one element of its result is the sum over samples `b` and coordinates `d` of the squared
    difference between `z[b, d]` and the centroid table's entry at row `label b`, for labels below 1024. -/
theorem arr_total (hy : ∀ b : Fin 262144, (yV V c (ix2 b 0)).toNat < 1024) :
    total1 V c (ix2 0 0)
      = ∑ b : Fin 262144, ∑ d : Fin 128,
          (zV V c (ix2 b d) - ceV V c (ix2 (⟨_, hy b⟩ : Fin 1024) d))
            * (zV V c (ix2 b d) - ceV V c (ix2 (⟨_, hy b⟩ : Fin 1024) d)) := by
  show ((dat1 (F := Ideal) V c).arrAt 3 cfg1.N : S1x1.Idx → EReal) (ix2 0 0) = _
  rw [final V c hy]
  rfl

end Cert.KernelIdeal.Reg1

end
-- ==== Proof.Spec.lean ====
/-
  The mathematics both programs compute, over the extended reals, free of any program text.

  A batch of 262144 samples `zv b` in dimension 128 carries labels `yv b`. For a class `k`:
  `cnt k` is the number of samples labelled `k`, `sm k d` the sum of their coordinates `d`,
  `cent k d = sm k d / max (cnt k) 1` the class centroid (the zero vector for an empty class).
  `total` is the summed squared distance of every sample to its own class centroid.
  A class is present (`pres k = 1`) when it has a sample. `sim i j` is the Gaussian similarity
  `exp (-max (|c_i|² + |c_j|² - 2 c_i·c_j) 0 / 2)` of two centroids; `sumsim n` sums it over the pairs
  `i < j < n` of present classes, and `kf n` counts the present classes below `n`.
  The same quantities are also stated over an arbitrary table of `n` centroids and presence flags
  (`sqnOf`, `gramOf`, `simOf`, `sumsimOf`, `kfOf`, `totalOf`): that is the form a program's arrays give.
-/
import Idealize.ShloMosaic.PureOps.Ideal
import Idealize.ShloMosaic.Lib.ValueIdx

noncomputable section

namespace Cert.Spec

open Idealize.ShloMosaic

/-! ## Over a table of centroids and presence flags -/

section Table

variable {n : ℕ} (ce : Fin n → Fin 128 → EReal) (pr : Fin n → EReal)

/-- The squared norm of row `k` of the table. -/
def sqnOf (k : Fin n) : EReal := ∑ d : Fin 128, ce k d * ce k d

/-- The inner product of rows `i` and `j` of the table. -/
def gramOf (i j : Fin n) : EReal := ∑ d : Fin 128, ce i d * ce j d

/-- The Gaussian similarity of rows `i` and `j`: their squared distance floored at zero, halved, negated, exponentiated. -/
def simOf (i j : Fin n) : EReal :=
  Ideal.exp (max (sqnOf ce i + sqnOf ce j - ((2 : ℝ) : EReal) * gramOf ce i j) 0 * (((-(1 / 2) : ℝ)) : EReal))

/-- The similarities summed over the pairs `i < j`, each weighted by the two presence flags. -/
def sumsimOf : EReal :=
  ∑ i : Fin n, ∑ j : Fin n, if i.val < j.val then simOf ce i j * (pr i * pr j) else 0

/-- The presence flags summed. -/
def kfOf : EReal := ∑ k : Fin n, pr k

/-- The summed squared distance of every sample `zv b` to row `lab b` of the table. -/
def totalOf (lab : Fin 262144 → Fin n) (zv : Fin 262144 → Fin 128 → EReal) : EReal :=
  ∑ b : Fin 262144, ∑ d : Fin 128, (zv b d - ce (lab b) d) * (zv b d - ce (lab b) d)

end Table

/-! ## Of the labelled batch -/

variable (yv : Fin 262144 → ℕ) (zv : Fin 262144 → Fin 128 → EReal)

/-- How many samples carry label `k`. -/
def cnt (k : ℕ) : EReal := ∑ b : Fin 262144, if yv b = k then (1 : EReal) else 0

/-- The sum over the samples labelled `k` of their coordinate `d`. -/
def sm (k : ℕ) (d : Fin 128) : EReal := ∑ b : Fin 262144, if yv b = k then zv b d else 0

/-- The centroid of class `k`: the class sum over the class count, the count raised to at least one. -/
def cent (k : ℕ) (d : Fin 128) : EReal := Ideal.div (sm yv zv k d) (max (cnt yv k) 1)

/-- One for a class that has a sample, zero for an empty class. -/
def pres (k : ℕ) : EReal := if 0 < cnt yv k then 1 else 0

/-- The summed squared distance of every sample to the centroid of its own class. -/
def total : EReal :=
  ∑ b : Fin 262144, ∑ d : Fin 128, (zv b d - cent yv zv (yv b) d) * (zv b d - cent yv zv (yv b) d)

/-- The similarities of the class centroids summed over the pairs `i < j < n` of present classes. -/
def sumsim (n : ℕ) : EReal :=
  sumsimOf (n := n) (fun k d => cent yv zv k.val d) (fun k => pres yv k.val)

/-- The number of present classes below `n`. -/
def kf (n : ℕ) : EReal := kfOf (n := n) (fun k => pres yv k.val)

end Cert.Spec

end
-- ==== Proof.PayMath2.lean ====
/-
  The third region's two results, read over the extended reals.

  From the centroid table `ce` (1024 rows) and the row of presence flags `pr`, the first result is the sum over
  the rows `i` of the sums over `j` of `exp (max (|ce_i|² + |ce_j|² - 2 · ce_i·ce_j) 0 · (-1/2)) · ([i < j] · pr_i · pr_j)`;
  where `i ≥ j` the mask is zero and the term is `a · 0 = 0`, where `i < j` it is `1 · pr_i · pr_j`. The second
  result is the sum of the presence flags. The literals `2.0` and `-0.5` denote the reals `2` and `-1/2`.

  The road: each named intermediate (the column of squared norms, the table times its transpose, the squared
  distances, the similarities, the strict upper triangle, the weights) is read at an index `(i, j)`; the two
  sums, first along each row and then down the column, are then the double sum of the specification.
-/
import proofs.«408921_j38946763440455_1_alg».proof.Proof.Gen.KernelIdeal.Skeleton
import proofs.«408921_j38946763440455_1_alg».proof.Proof.Consts
import proofs.«408921_j38946763440455_1_alg».proof.Proof.Spec
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

noncomputable section

namespace Cert.KernelIdeal.PayMath

open Cert.KernelIdeal Cert.KernelIdeal.Gen Idealize.ShloMosaic Idealize.ShloMosaic.ValueIdx

namespace Inter

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

section Sums
variable {φ : FTy}

/-- A matrix summed along axis 1 reads, at `i`, the sum over `d` of its entries `(i, d)`. -/
theorem sumAxis1_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ d : Fin b, src (ix2 i d) := by
  refine (Ideal.multiReduction_add_single src acc h hφ hacc (ix1 i)).trans ?_
  refine Finset.sum_congr rfl fun d _ => congrArg src ?_
  funext c; apply Fin.ext
  match c with
  | ⟨0, _⟩ => rfl
  | ⟨1, _⟩ => rfl

/-- A matrix summed along axis 0 reads, at `j`, the sum over `k` of its entries `(k, j)`. -/
theorem sumAxis0_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ k : Fin a, src (ix2 k j) := by
  refine (Ideal.multiReduction_add_single src acc h hφ hacc (ix1 j)).trans ?_
  refine Finset.sum_congr rfl fun k _ => congrArg src ?_
  funext c; apply Fin.ext
  match c with
  | ⟨0, _⟩ => rfl
  | ⟨1, _⟩ => rfl

end Sums

/-! ## The product of the table with its own transpose -/

theorem gram_lhs_0 (i : S1024x1024.Idx) (q : dot_S1024x128_S1024x128_S1024x1024_1_1_0_0_n_n.contr.Idx) :
    (dot_S1024x128_S1024x128_S1024x1024_1_1_0_0_n_n.lhsIdx i q 0).val = (i 0).val := by
  unfold DotDims.lhsIdx
  rw [dif_neg (show ¬(0 : Fin S1024x128.rank) ∈ dot_S1024x128_S1024x128_S1024x1024_1_1_0_0_n_n.lhsBatch by decide), dif_pos (show (0 : Fin S1024x128.rank) ∈ dot_S1024x128_S1024x128_S1024x1024_1_1_0_0_n_n.lhsNonContracting by decide)]
  rfl
theorem gram_lhs_1 (i : S1024x1024.Idx) (q : dot_S1024x128_S1024x128_S1024x1024_1_1_0_0_n_n.contr.Idx) :
    (dot_S1024x128_S1024x128_S1024x1024_1_1_0_0_n_n.lhsIdx i q 1).val = (q ⟨0, by decide⟩).val :=
  dot_S1024x128_S1024x128_S1024x1024_1_1_0_0_n_n.lhsIdx_val_of_single rfl i q
theorem gram_rhs_0 (i : S1024x1024.Idx) (q : dot_S1024x128_S1024x128_S1024x1024_1_1_0_0_n_n.contr.Idx) :
    (dot_S1024x128_S1024x128_S1024x1024_1_1_0_0_n_n.rhsIdx i q 0).val = (i 1).val := by
  unfold DotDims.rhsIdx
  rw [dif_neg (show ¬(0 : Fin S1024x128.rank) ∈ dot_S1024x128_S1024x128_S1024x1024_1_1_0_0_n_n.rhsBatch by decide), dif_pos (show (0 : Fin S1024x128.rank) ∈ dot_S1024x128_S1024x128_S1024x1024_1_1_0_0_n_n.rhsNonContracting by decide)]
  rfl
theorem gram_rhs_1 (i : S1024x1024.Idx) (q : dot_S1024x128_S1024x128_S1024x1024_1_1_0_0_n_n.contr.Idx) :
    (dot_S1024x128_S1024x128_S1024x1024_1_1_0_0_n_n.rhsIdx i q 1).val = (q ⟨0, by decide⟩).val :=
  dot_S1024x128_S1024x128_S1024x1024_1_1_0_0_n_n.rhsIdx_val_of_single rfl i q

/-- The product of two tables along their second axes, into the zero splat, reads at `(i, j)` the sum over `d` of
    the products of the entries `(i, d)` and `(j, d)`. -/
theorem gram_apply {φ₁ φ₂ : FTy} (x : FVec Ideal S1024x128 φ₁) (y : FVec Ideal S1024x128 φ₂) (i j : Fin 1024) :
    matmul dot_S1024x128_S1024x128_S1024x1024_1_1_0_0_n_n none x y (constant (F := Ideal) S1024x1024 .f32 0x00000000#32) (ix2 i j)
      = ∑ d : Fin 128, x (ix2 i d) * y (ix2 j d) := by
  simp only [matmul]
  rw [Ideal.matmul_constant_zero_apply, ← Equiv.sum_comp (ValueIdx.contrEquiv1 dot_S1024x128_S1024x128_S1024x1024_1_1_0_0_n_n 128 rfl rfl).symm]
  refine Finset.sum_congr rfl fun k _ => ?_
  have hk := ValueIdx.contrEquiv1_symm_val dot_S1024x128_S1024x128_S1024x1024_1_1_0_0_n_n 128 rfl rfl k
  have el : dot_S1024x128_S1024x128_S1024x1024_1_1_0_0_n_n.lhsIdx (ix2 i j) ((ValueIdx.contrEquiv1 dot_S1024x128_S1024x128_S1024x1024_1_1_0_0_n_n 128 rfl rfl).symm k) = ix2 i k := funext fun a => Fin.ext (by
    match a with
    | ⟨0, _⟩ => exact gram_lhs_0 _ _
    | ⟨1, _⟩ => exact (gram_lhs_1 _ _).trans hk)
  have er : dot_S1024x128_S1024x128_S1024x1024_1_1_0_0_n_n.rhsIdx (ix2 i j) ((ValueIdx.contrEquiv1 dot_S1024x128_S1024x128_S1024x1024_1_1_0_0_n_n 128 rfl rfl).symm k) = ix2 j k := funext fun a => Fin.ext (by
    match a with
    | ⟨0, _⟩ => exact gram_rhs_0 _ _
    | ⟨1, _⟩ => exact (gram_rhs_1 _ _).trans hk)
  rw [el, er]

/-! ## The named intermediates -/

/-- The rows' sums of squares, as a column. -/
def sqCol (c : FVec Ideal S1024x128 .f32) : FVec Ideal S1024x1 .f32 :=
  shapeCast S1024x1 (multiReduction .add [1] S1024 (mulf c c) 0x00000000#32 reduces_S1024x128_S1024 (.inl rfl) rfl) shapeCasts_S1024_S1024x1

/-- The table times its own transpose. -/
def gramM (c : FVec Ideal S1024x128 .f32) : FVec Ideal S1024x1024 .f32 :=
  matmul dot_S1024x128_S1024x128_S1024x1024_1_1_0_0_n_n none (truncf .bf16 c bitsLt_bf16_f32) (truncf .bf16 c bitsLt_bf16_f32)
    (constant (F := Ideal) S1024x1024 .f32 0x00000000#32)

/-- The squared distances of the rows, pair by pair. -/
def distM (c : FVec Ideal S1024x128 .f32) : FVec Ideal S1024x1024 .f32 :=
  subf (addf (broadcastTo S1024x1024 (sqCol c) broadcasts_S1024x1_S1024x1024)
      (broadcastTo S1024x1024 (transpose S1x1024 [1, 0] (sqCol c) transposes_S1024x1_p1_0_S1x1024) broadcasts_S1x1024_S1024x1024))
    (mulf (broadcast S1024x1024 (Scalar.ofBits (F := Ideal) .f32 0x40000000#32)) (gramM c))

/-- The similarities of the rows, pair by pair. -/
def simM (c : FVec Ideal S1024x128 .f32) : FVec Ideal S1024x1024 .f32 :=
  exp (mulf (maximumf (distM c) (broadcast S1024x1024 (Scalar.ofBits (F := Ideal) .f32 0x00000000#32)))
    (broadcast S1024x1024 (Scalar.ofBits (F := Ideal) .f32 0xBF000000#32)))

/-- The strict upper triangle: one above the diagonal, zero on and below it. -/
def upperM : FVec Ideal S1024x1024 .f32 :=
  sitofp .f32 (extui 32 (cmpi .slt (iota .tc S1024x1024 32 [0] iota_S1024x1024_d0_w32) (iota .tc S1024x1024 32 [1] iota_S1024x1024_d1_w32)) natLt_1_32)

/-- The weight of a pair: the triangle times the two flags. -/
def weightM (p : FVec Ideal S1x1024 .f32) : FVec Ideal S1024x1024 .f32 :=
  mulf (mulf upperM (broadcastTo S1024x1024 (transpose S1024x1 [1, 0] p transposes_S1x1024_p1_0_S1024x1) broadcasts_S1024x1_S1024x1024))
    (broadcastTo S1024x1024 p broadcasts_S1x1024_S1024x1024)

/-- Everything summed: first along the rows, then down the column. -/
def totalM (c : FVec Ideal S1024x128 .f32) (p : FVec Ideal S1x1024 .f32) : FVec Ideal S1x1 .f32 :=
  shapeCast S1x1 (multiReduction .add [0] S1
    (shapeCast S1024x1 (multiReduction .add [1] S1024 (mulf (simM c) (weightM p)) 0x00000000#32 reduces_S1024x1024_S1024_2 (.inl rfl) rfl) shapeCasts_S1024_S1024x1)
    0x00000000#32 reduces_S1024x1_S1 (.inl rfl) rfl) shapeCasts_S1_S1x1

theorem k2_pay2_eq_totalM (ce : S1024x128.Idx → EReal) (pr : S1x1024.Idx → EReal) :
    k2_pay2 (F := Ideal) ce pr = totalM (shapeCast S1024x128 ce shapeCasts_S1024x128_S1024x128) (k2_pay1 (F := Ideal) pr) := rfl

/-! ## The intermediates at an index -/

theorem sqCol_apply (c : FVec Ideal S1024x128 .f32) (i : Fin 1024) (u : Fin 1) :
    sqCol c (ix2 i u) = ∑ d : Fin 128, c (ix2 i d) * c (ix2 i d) := by
  unfold sqCol
  refine (shapeCast_a_a1_apply _ _ i u).trans ?_
  exact sumAxis1_apply (mulf c c) _ _ _ _ i

theorem gramM_apply (c : FVec Ideal S1024x128 .f32) (i j : Fin 1024) :
    gramM c (ix2 i j) = ∑ d : Fin 128, c (ix2 i d) * c (ix2 j d) := by
  unfold gramM
  exact gram_apply _ _ i j

theorem distM_apply (c : FVec Ideal S1024x128 .f32) (i j : Fin 1024) :
    distM c (ix2 i j) = (∑ d : Fin 128, c (ix2 i d) * c (ix2 i d)) + (∑ d : Fin 128, c (ix2 j d) * c (ix2 j d))
      - ((2 : ℝ) : EReal) * ∑ d : Fin 128, c (ix2 i d) * c (ix2 j d) := by
  unfold distM
  rw [subf_apply, addf_apply, mulf_apply, broadcast_apply, broadcastTo_a1_ab_apply, broadcastTo_1b_ab_apply,
    transpose_ix2_apply, sqCol_apply, sqCol_apply, gramM_apply]
  exact congrArg (fun t => _ - t * _) Cert.Consts.ofBits_two

theorem simM_apply (c : FVec Ideal S1024x128 .f32) (i j : Fin 1024) :
    simM c (ix2 i j) = Cert.Spec.simOf (n := 1024) (fun k d => c (ix2 k d)) i j := by
  unfold simM Cert.Spec.simOf Cert.Spec.sqnOf Cert.Spec.gramOf
  show Ideal.exp (max (distM c (ix2 i j)) (Ideal.ofBits .f32 0x00000000#32) * Ideal.ofBits .f32 0xBF000000#32) = _
  rw [distM_apply, Cert.Consts.ofBits_zero, Cert.Consts.ofBits_neg_half]

theorem upperM_apply (i j : Fin 1024) : upperM (ix2 i j) = if i.val < j.val then 1 else 0 := by
  unfold upperM
  rw [sitofp_apply, extui_apply]
  show FloatOps.sitofp (F := Ideal) .f32 ((IntOp.cmpi .slt (iota .tc S1024x1024 32 [0] iota_S1024x1024_d0_w32 (ix2 i j))
    (iota .tc S1024x1024 32 [1] iota_S1024x1024_d1_w32 (ix2 i j))).setWidth 32) = _
  rw [iota_single_apply, iota_single_apply]
  have hiff : IntOp.cmpi .slt (BitVec.ofNat 32 i.val) (BitVec.ofNat 32 j.val) = 1#1 ↔ i.val < j.val := by
    unfold IntOp.cmpi
    exact StableHlo.Predicate.slt_ofNat_iff _ _ (by omega) (by omega)
  show FloatOps.sitofp (F := Ideal) .f32 ((IntOp.cmpi .slt (BitVec.ofNat 32 i.val) (BitVec.ofNat 32 j.val)).setWidth 32) = _
  by_cases h : i.val < j.val
  · rw [hiff.mpr h, if_pos h]
    show (((((1#1 : BitVec 1).setWidth 32).toInt : ℤ) : ℝ) : EReal) = 1
    rw [show ((1#1 : BitVec 1).setWidth 32).toInt = 1 by decide]
    simp
  · rw [eq_zero_of_ne_one (fun h1 => h (hiff.mp h1)), if_neg h]
    show (((((0#1 : BitVec 1).setWidth 32).toInt : ℤ) : ℝ) : EReal) = 0
    rw [show ((0#1 : BitVec 1).setWidth 32).toInt = 0 by decide]
    simp

theorem weightM_apply (p : FVec Ideal S1x1024 .f32) (i j : Fin 1024) :
    weightM p (ix2 i j) = (if i.val < j.val then 1 else 0) * p (ix2 0 i) * p (ix2 0 j) := by
  unfold weightM
  rw [mulf_apply, mulf_apply, upperM_apply, broadcastTo_a1_ab_apply, broadcastTo_1b_ab_apply, transpose_ix2_apply]

/-- One term: the similarity weighted above the diagonal, nothing on and below it. -/
theorem term_apply (c : FVec Ideal S1024x128 .f32) (p : FVec Ideal S1x1024 .f32) (i j : Fin 1024) :
    mulf (simM c) (weightM p) (ix2 i j)
      = if i.val < j.val then Cert.Spec.simOf (n := 1024) (fun k d => c (ix2 k d)) i j * (p (ix2 0 i) * p (ix2 0 j)) else 0 := by
  rw [mulf_apply, simM_apply, weightM_apply]
  by_cases h : i.val < j.val
  · rw [if_pos h, if_pos h, one_mul]
  · rw [if_neg h, if_neg h, zero_mul, zero_mul, mul_zero]

theorem totalM_apply (c : FVec Ideal S1024x128 .f32) (p : FVec Ideal S1x1024 .f32) :
    totalM c p (ix2 0 0) = Cert.Spec.sumsimOf (n := 1024) (fun k d => c (ix2 k d)) (fun k => p (ix2 0 k)) := by
  unfold totalM Cert.Spec.sumsimOf
  refine (shapeCast_a_1a_apply _ _ 0 0).trans ?_
  refine (sumAxis0_apply _ _ _ _ _ 0).trans ?_
  refine Finset.sum_congr rfl fun i _ => ?_
  refine (shapeCast_a_a1_apply _ _ i 0).trans ?_
  refine (sumAxis1_apply _ _ _ _ _ i).trans ?_
  exact Finset.sum_congr rfl fun j _ => term_apply c p i j

end Inter

open Inter

/-- The masked sum of the pair similarities. -/
theorem k2_pay2_apply (ce : S1024x128.Idx → EReal) (pr : S1x1024.Idx → EReal) :
    (k2_pay2 (F := Ideal) ce pr : S1x1.Idx → EReal) (ix2 0 0)
      = Cert.Spec.sumsimOf (n := 1024) (fun k d => ce (ix2 k d)) (fun k => pr (ix2 0 k)) := by
  rw [k2_pay2_eq_totalM, totalM_apply]
  unfold k2_pay1
  rw [shapeCast_self, shapeCast_self]

/-- The sum of the presence flags. -/
theorem k2_pay3_apply (pr : S1x1024.Idx → EReal) :
    (k2_pay3 (F := Ideal) pr : S1x1.Idx → EReal) (ix2 0 0)
      = Cert.Spec.kfOf (n := 1024) (fun k => pr (ix2 0 k)) := by
  unfold k2_pay3 k2_pay1 Cert.Spec.kfOf
  refine (shapeCast_a_1a_apply _ _ 0 0).trans ?_
  refine (sumAxis1_apply _ _ _ _ _ 0).trans ?_
  rw [shapeCast_self]

end Cert.KernelIdeal.PayMath

end
-- ==== Proof.KReg2.lean ====
/-
  The third kernel region (the pair similarities and the class count), read as values at the ideal instance, for
  ANY contents `V` of the core's buffers at the region's entry.

  The region has one grid point and its two one-element results are each one store. With `ce` the centroid table
  (1024 rows) and `pr` the row of presence flags it reads, the first result is the sum over all `(i, j)` of
  `exp (max (|ce_i|² + |ce_j|² - 2 · ce_i·ce_j) 0 · (-1/2))` times the mask `[i < j] · pr_i · pr_j`, the row sums
  taken first and then summed; a pair with `i ≥ j` contributes `x · 0 = 0`. The second result is the sum of the
  presence flags.
-/
import proofs.«408921_j38946763440455_1_alg».proof.Proof.Gen.KernelIdeal.Frame
import proofs.«408921_j38946763440455_1_alg».proof.Proof.KArr
import proofs.«408921_j38946763440455_1_alg».proof.Proof.PayMath2
import proofs.«408921_j38946763440455_1_alg».proof.Proof.Spec
import proofs.«408921_j38946763440455_1_alg».proof.Proof.Consts
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Reg2

open Cert.KernelIdeal Cert.KernelIdeal.Gen Idealize.ShloMosaic Idealize.ShloMosaic.TcCoe Idealize.SL.Sem
open Idealize.ShloMosaic.Pipeline (Dat)
open Idealize.ShloMosaic.ValueIdx
open Cert.KernelIdeal.Arr

variable (V : (c : Dev nD) → (b : Ref sig .tc) → Buf (Elt Ideal) ((c : Thread nD τ).loc b)) (c : Dev nD)

/-- The zero offsets of a whole-array access, however they are spelt. -/
theorem hz : (![0, 0] : Fin 2 → Nat) = fun _ => 0 := funext fun a => by fin_cases a <;> rfl

/-- At the one grid point the first input's block is the whole centroid table. -/
theorem iblk_ce : iblk2 V c 0 t2_0 = ceV V c := by
  unfold iblk2
  have hz' : (fun a => win2_0.index t2_0 a * main_v9.ty.shape.size a) = fun _ => 0 := funext fun a => by fin_cases a <;> decide
  exact Memref.read_access_unit_zero (Elt Ideal) main_v9 hz' (fun a => by rw [congrFun hz' a]; simp) (V c main_v9)

/-- At the one grid point the second input's block is the whole row of presence flags. -/
theorem iblk_pr : iblk2 V c 1 t2_0 = prV V c := by
  unfold iblk2
  have hz' : (fun a => win2_1.index t2_0 a * main_v4.ty.shape.size a) = fun _ => 0 := funext fun a => by fin_cases a <;> decide
  exact Memref.read_access_unit_zero (Elt Ideal) main_v4 hz' (fun a => by rw [congrFun hz' a]; simp) (V c main_v4)

/-- The one store of the first result leaves its payload of the two inputs. -/
theorem out2_2_eq (x0 : S1024x128.Idx → EReal) (x1 : S1x1024.Idx → EReal) :
    out2_2 (F := Ideal) x0 x1 = k2_pay2 (F := Ideal) x0 x1 := by
  unfold out2_2
  rw [View.canon_unit_zero hz]
  simp only [View.ld_unit_zero (S := S1024x128) hz, View.ld_unit_zero (S := S1x1024) hz]

/-- The one store of the second result leaves its payload of the flags. -/
theorem out2_3_eq (x0 : S1024x128.Idx → EReal) (x1 : S1x1024.Idx → EReal) :
    out2_3 (F := Ideal) x0 x1 = k2_pay3 (F := Ideal) x1 := by
  unfold out2_3
  rw [View.canon_unit_zero hz]
  simp only [View.ld_unit_zero (S := S1x1024) hz]

/-- A one-by-one array has one index. -/
theorem idx11_eq (i j : S1x1.Idx) : i = j := by
  funext a; apply Fin.ext
  match a with
  | ⟨0, _⟩ => have hi := idx2_lt0 i; have hj := idx2_lt0 j; show (i 0).val = (j 0).val; omega
  | ⟨1, _⟩ => have hi := idx2_lt1 i; have hj := idx2_lt1 j; show (i 1).val = (j 1).val; omega

/-- The one write-back of the first result writes the payload of the whole inputs: its block is the whole array. -/
theorem flushed_sumsim (t : Fin cfg2.N) (hf : (cfg2.win 2).flush t = true) :
    (dat2 V c).flushed 2 t
      = ((cfg2.win 2).blk t).view.read (Elt Ideal) (k2_pay2 (F := Ideal) (ceV V c) (prV V c)) := by
  obtain rfl : t = t2_0 := fin_N2 t
  show (cfg2.win 2).cut (grid2.coords t2_0) ((dat2 V c).after 2 t2_0) = _
  rw [after2_2, iblk_ce, iblk_pr, out2_2_eq]
  have hz' : (fun a => win2_2.index t2_0 a * main_v13_0.ty.shape.size a) = fun _ => 0 := funext fun a => by fin_cases a <;> decide
  exact (Memref.read_access_unit_zero (Elt Ideal) main_v13_0 hz' (fun a => by rw [congrFun hz' a]; simp) _).symm

/-- The one write-back of the second result writes the payload of the whole flags row. -/
theorem flushed_kf (t : Fin cfg2.N) (hf : (cfg2.win 3).flush t = true) :
    (dat2 V c).flushed 3 t
      = ((cfg2.win 3).blk t).view.read (Elt Ideal) (k2_pay3 (F := Ideal) (prV V c)) := by
  obtain rfl : t = t2_0 := fin_N2 t
  show (cfg2.win 3).cut (grid2.coords t2_0) ((dat2 V c).after 3 t2_0) = _
  rw [after2_3, iblk_ce, iblk_pr, out2_3_eq]
  have hz' : (fun a => win2_3.index t2_0 a * main_v13_1.ty.shape.size a) = fun _ => 0 := funext fun a => by fin_cases a <;> decide
  exact (Memref.read_access_unit_zero (Elt Ideal) main_v13_1 hz' (fun a => by rw [congrFun hz' a]; simp) _).symm

/-- So the first result array ends at that payload: the one point's block holds the array's one index. -/
theorem sumsim2_eq : sumsim2 V c = k2_pay2 (F := Ideal) (ceV V c) (prV V c) :=
  (dat2 V c).arrAt_eq_of_cover 2 _ (flushed_sumsim V c) fun i =>
    ⟨t2_0, flush2_2 t2_0, by
      have e : ((cfg2.win 2).blk t2_0).view.emb (ix2 0 0) = i := idx11_eq _ _
      exact e ▸ View.emb_mem_set _ _⟩

/-- And the second result array at its payload. -/
theorem kf2_eq : kf2 V c = k2_pay3 (F := Ideal) (prV V c) :=
  (dat2 V c).arrAt_eq_of_cover 3 _ (flushed_kf V c) fun i =>
    ⟨t2_0, flush2_3 t2_0, by
      have e : ((cfg2.win 3).blk t2_0).view.emb (ix2 0 0) = i := idx11_eq _ _
      exact e ▸ View.emb_mem_set _ _⟩

/-- After the region, its first result's one element is the masked sum of the pair similarities of the table's rows. -/
theorem arr_sumsim :
    sumsim2 V c (ix2 0 0)
      = Cert.Spec.sumsimOf (n := 1024) (fun k d => ceV V c (ix2 k d)) (fun k => prV V c (ix2 0 k)) := by
  rw [sumsim2_eq]
  exact Cert.KernelIdeal.PayMath.k2_pay2_apply (ceV V c) (prV V c)

/-- After the region, its second result's one element is the sum of the presence flags. -/
theorem arr_kf :
    kf2 V c (ix2 0 0) = Cert.Spec.kfOf (n := 1024) (fun k => prV V c (ix2 0 k)) := by
  rw [kf2_eq]
  exact Cert.KernelIdeal.PayMath.k2_pay3_apply (prV V c)

end Cert.KernelIdeal.Reg2

end
-- ==== Proof.Bridge.lean ====
/-
  With every label below 1000, the classes from 1000 on are empty: their presence flag is zero, so the pair
  similarities and the class count over 1024 classes are those over 1000 classes.
-/
import proofs.«408921_j38946763440455_1_alg».proof.Proof.Spec

noncomputable section

namespace Cert.Spec

variable (yv : Fin 262144 → ℕ) (zv : Fin 262144 → Fin 128 → EReal)

/-- A class no sample is labelled with has no count. -/
theorem cnt_eq_zero_of_forall_ne (k : ℕ) (h : ∀ b, yv b ≠ k) : cnt yv k = 0 := by
  unfold cnt
  exact Finset.sum_eq_zero fun b _ => if_neg (h b)

/-- A class from 1000 on is not present. -/
theorem pres_eq_zero_of_le (hy : ∀ b, yv b < 1000) (k : ℕ) (hk : 1000 ≤ k) : pres yv k = 0 := by
  unfold pres
  rw [cnt_eq_zero_of_forall_ne yv k fun b e => absurd (hy b) (by rw [e]; exact Nat.not_lt.2 hk)]
  exact if_neg (lt_irrefl _)

/-- A sum over the naturals below `n` of a function vanishing from `m ≤ n` on is the sum over those below `m`. -/
theorem sum_fin_eq_of_zero_from {m n : ℕ} (hmn : m ≤ n) (f : ℕ → EReal) (hf : ∀ k, m ≤ k → f k = 0) :
    ∑ k : Fin n, f k.val = ∑ k : Fin m, f k.val := by
  rw [Fin.sum_univ_eq_sum_range f n, Fin.sum_univ_eq_sum_range f m]
  refine (Finset.sum_subset (Finset.range_mono hmn) ?_).symm
  intro k _ hk
  exact hf k (Nat.not_lt.1 fun hlt => hk (Finset.mem_range.2 hlt))

theorem kf_1024_eq_1000 (hy : ∀ b, yv b < 1000) : kf yv 1024 = kf yv 1000 := by
  unfold kf kfOf
  exact sum_fin_eq_of_zero_from (by decide) (fun k => pres yv k) fun k hk => pres_eq_zero_of_le yv hy k hk

/-- The weighted similarity of the classes `a < b`, as a function of the two class numbers. -/
def pairTerm (a b : ℕ) : EReal :=
  if a < b then
    Idealize.ShloMosaic.Ideal.exp (max ((∑ d : Fin 128, cent yv zv a d * cent yv zv a d) + (∑ d : Fin 128, cent yv zv b d * cent yv zv b d)
      - ((2 : ℝ) : EReal) * (∑ d : Fin 128, cent yv zv a d * cent yv zv b d)) 0 * (((-(1 / 2) : ℝ)) : EReal))
      * (pres yv a * pres yv b)
  else 0

theorem sumsim_eq_pairTerm (n : ℕ) : sumsim yv zv n = ∑ i : Fin n, ∑ j : Fin n, pairTerm yv zv i.val j.val := rfl

theorem pairTerm_left_zero (hy : ∀ b, yv b < 1000) (a b : ℕ) (ha : 1000 ≤ a) : pairTerm yv zv a b = 0 := by
  unfold pairTerm
  split
  · rw [pres_eq_zero_of_le yv hy a ha, zero_mul, mul_zero]
  · rfl

theorem pairTerm_right_zero (hy : ∀ b, yv b < 1000) (a b : ℕ) (hb : 1000 ≤ b) : pairTerm yv zv a b = 0 := by
  unfold pairTerm
  split
  · rw [pres_eq_zero_of_le yv hy b hb, mul_zero, mul_zero]
  · rfl

theorem sumsim_1024_eq_1000 (hy : ∀ b, yv b < 1000) : sumsim yv zv 1024 = sumsim yv zv 1000 := by
  rw [sumsim_eq_pairTerm, sumsim_eq_pairTerm]
  rw [sum_fin_eq_of_zero_from (m := 1000) (n := 1024) (by decide) (fun a => ∑ j : Fin 1024, pairTerm yv zv a j.val)
    fun a ha => Finset.sum_eq_zero fun j _ => pairTerm_left_zero yv zv hy a j.val ha]
  refine Finset.sum_congr rfl fun i _ => ?_
  exact sum_fin_eq_of_zero_from (by decide) (fun b => pairTerm yv zv i.val b) fun b hb => pairTerm_right_zero yv zv hy i.val b hb

end Cert.Spec

end
-- ==== Proof.KVal.lean ====
/-
  The kernel program's result at the ideal instance, against the mathematics of Spec.lean.

  Region 0 leaves the class sums and counts of the labelled batch; the host makes of them the centroid table and
  the presence flags (over 1024 classes); region 1 leaves the summed squared distance of every sample to the
  centroid of its class; region 2 the masked sum of pair similarities and the number of present classes among
  1024; with every label below 1000 the last two are those among 1000 classes.
-/
import proofs.«408921_j38946763440455_1_alg».proof.Proof.KFold
import proofs.«408921_j38946763440455_1_alg».proof.Proof.KReg0
import proofs.«408921_j38946763440455_1_alg».proof.Proof.KReg1
import proofs.«408921_j38946763440455_1_alg».proof.Proof.KReg2
import proofs.«408921_j38946763440455_1_alg».proof.Proof.Spec
import proofs.«408921_j38946763440455_1_alg».proof.Proof.Bridge

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx
open Cert.KernelIdeal.Arr

variable (m : (ℓ : Loc nD τ sig) → Buf (Elt Ideal) ℓ) (ρ : Dev nD → PrngReg) (c : Dev nD)

/-- The labels as natural numbers. -/
abbrev yv : Fin 262144 → ℕ := fun b => (yA m c (ix1 b)).toNat
/-- The samples by row and coordinate. -/
abbrev zv : Fin 262144 → Fin 128 → EReal := fun b d => zA m c (ix2 b d)

theorem sums_k (k : Fin 1024) (d : Fin 128) :
    wSums m ρ c (ix2 k d) = Cert.Spec.sm (yv m c) (zv m c) k.val d := by
  rw [W2_sums, Cert.KernelIdeal.Reg0.arr_sums]
  unfold Cert.Spec.sm
  refine Finset.sum_congr rfl fun b _ => ?_
  rw [V1_v0_apply, V1_arg0]

theorem counts_k (k : Fin 1024) : wCounts m ρ c (ix2 0 k) = Cert.Spec.cnt (yv m c) k.val := by
  rw [W2_counts, Cert.KernelIdeal.Reg0.arr_counts]
  unfold Cert.Spec.cnt
  refine Finset.sum_congr rfl fun b _ => ?_
  rw [V1_v0_apply]

theorem cent_k (k : Fin 1024) (d : Fin 128) :
    ceV (V3 m ρ) c (ix2 k d) = Cert.Spec.cent (yv m c) (zv m c) k.val d := by
  rw [V3_v9_apply, sums_k, counts_k]
  rfl

theorem pres_k (k : Fin 1024) : prV (V3 m ρ) c (ix2 0 k) = Cert.Spec.pres (yv m c) k.val := by
  rw [V3_v4_apply, counts_k]
  rfl

theorem total_k (hy : ∀ b, yv m c b < 1000) :
    scal (wTotal m ρ c) = fun _ => Cert.Spec.total (yv m c) (zv m c) := by
  funext _
  show wTotal m ρ c (ix2 0 0) = _
  have hy' : ∀ b : Fin 262144, (yV (V3 m ρ) c (ix2 b 0)).toNat < 1024 := fun b => by
    rw [V3_v0_apply]; exact lt_trans (hy b) (by norm_num)
  rw [W4_total, Cert.KernelIdeal.Reg1.arr_total (V3 m ρ) c hy']
  unfold Cert.Spec.total
  refine Finset.sum_congr rfl fun b _ => Finset.sum_congr rfl fun d _ => ?_
  rw [cent_k, V3_arg0]
  dsimp only
  rw [V3_v0_apply]

theorem sumsim_k : scal (wSumsim m ρ c) = fun _ => Cert.Spec.sumsim (yv m c) (zv m c) 1024 := by
  funext _
  show wSumsim m ρ c (ix2 0 0) = _
  rw [W6_sumsim, Cert.KernelIdeal.Reg2.arr_sumsim]
  have hce : (fun (k : Fin 1024) (d : Fin 128) => ceV (V5 m ρ) c (ix2 k d))
      = fun (k : Fin 1024) (d : Fin 128) => Cert.Spec.cent (yv m c) (zv m c) k.val d := by
    funext k d; rw [V5_v9, cent_k]
  have hpr : (fun (k : Fin 1024) => prV (V5 m ρ) c (ix2 0 k))
      = fun (k : Fin 1024) => Cert.Spec.pres (yv m c) k.val := by
    funext k; rw [V5_v4, pres_k]
  rw [hce, hpr]
  rfl

theorem kf_k : scal (wKf m ρ c) = fun _ => Cert.Spec.kf (yv m c) 1024 := by
  funext _
  show wKf m ρ c (ix2 0 0) = _
  rw [W6_kf, Cert.KernelIdeal.Reg2.arr_kf]
  have hpr : (fun (k : Fin 1024) => prV (V5 m ρ) c (ix2 0 k))
      = fun (k : Fin 1024) => Cert.Spec.pres (yv m c) k.val := by
    funext k; rw [V5_v4, pres_k]
  rw [hpr]
  rfl

/-- The kernel program's result: the shared post-processing of the three scalars of the labelled batch. -/
theorem result_k (hy : ∀ b, yv m c b < 1000) :
    wOut m ρ c
      = Cert.Tail.tail (F := Ideal) (Cert.Tail.lintra (F := Ideal) (fun _ => Cert.Spec.total (yv m c) (zv m c)))
          (fun _ => Cert.Spec.sumsim (yv m c) (zv m c) 1000) (fun _ => Cert.Spec.kf (yv m c) 1000) := by
  rw [W11_v41, total_k m ρ c hy, sumsim_k, kf_k, Cert.Spec.sumsim_1024_eq_1000 _ _ hy, Cert.Spec.kf_1024_eq_1000 _ hy]

end Cert.KernelIdeal.Val

end
-- ==== Proof.RefA.lean ====
/-
  The reference program's stages up to the mean squared distance, read at the ideal instance against the
  mathematics of Spec.lean, for labels in `[0, 1000)`.

  `segment_sum` prints as an accumulating scatter: each of the 1000 result rows is the sum of the update rows whose
  label, read signed, lands on it. The gather `cent[y]` reads the row at the label (non-negative, so unchanged by
  the wrap-around select, and inside the table, so unchanged by the clamp).
-/
import proofs.«408921_j38946763440455_1_alg».proof.Proof.RefRead
import proofs.«408921_j38946763440455_1_alg».proof.Proof.Spec
import proofs.«408921_j38946763440455_1_alg».proof.Proof.Consts
import Idealize.ShloMosaic.Lib.StableHlo.Predicate
import Idealize.ShloMosaic.Lib.ValueIdx
import Idealize.ShloMosaic.Lib.ValueLayout
import Idealize.ShloMosaic.PureOps.Ideal.Laws

noncomputable section

namespace Cert.ReferenceIdeal.RefVal

open Cert.ReferenceIdeal Cert.ReferenceIdeal.Gen Cert.ReferenceIdeal.Read Idealize.ShloMosaic Idealize.ShloMosaic.TcCoe Idealize.SL.Sem
open Idealize.ShloMosaic.ValueIdx

variable (x0 : S262144x128.Idx → EReal) (x1 : S262144.Idx → BitVec 32)

/-- The labels as natural numbers. -/
abbrev yv : Fin 262144 → ℕ := fun b => (x1 (ix1 b)).toNat
/-- The samples by row and coordinate. -/
abbrev zv : Fin 262144 → Fin 128 → EReal := fun b d => x0 (ix2 b d)

namespace Seg

/-! ## The count scatter: updates `[262144]`, result `[1000]`, one start index per update -/

/-- The count scatter's dimension numbers. -/
abbrev dC := scatter_S1000_S262144x1_S262144_n_0_0_1

/-- Update `j` reads its start index at row `j` of the index column. -/
theorem dC_siIdx (j : S262144.Idx) (c : Fin dC.scatterDimsToOperandDims.length) :
    dC.siIdx j c = ix2 (j 0) (0 : Fin 1) := by
  funext b; refine Fin.ext ?_
  match b with
  | ⟨0, _⟩ => rfl
  | ⟨1, _⟩ =>
    show c.val = 0
    have := c.isLt
    have h1 : dC.scatterDimsToOperandDims.length = 1 := rfl
    omega

/-- The window of update `j` starts at its label, read signed. -/
theorem dC_start {w : Nat} (j : S262144.Idx) (idx : IVec S262144x1 w) (a : Fin 1) :
    dC.start j idx a = (idx (ix2 (j 0) (0 : Fin 1))).toInt := by
  obtain rfl : a = 0 := Subsingleton.elim _ _
  unfold ScatterDims.start
  rw [dif_pos (show (0 : Fin 1) ∈ dC.scatterDimsToOperandDims from List.mem_singleton.mpr rfl)]
  rw [dC_siIdx]
  rfl

/-- The result's one axis is inserted: no window coordinate. -/
theorem dC_window (j : S262144.Idx) (a : Fin 1) : dC.window j a = 0 := by
  obtain rfl : a = 0 := Subsingleton.elim _ _
  unfold ScatterDims.window
  rw [dif_neg (by decide)]

/-- Update `j` lands on row `i` exactly when its label, read signed, is `i`. -/
theorem dC_result {w : Nat} (idx : IVec S262144x1 w) (j : S262144.Idx) (i : S1000.Idx) :
    dC.resultIdx? j idx = some i ↔ (idx (ix2 (j 0) (0 : Fin 1))).toInt = ((i 0).val : Int) := by
  unfold ScatterDims.resultIdx?
  simp only [dC_start, dC_window]
  have hi : (i 0).val < 1000 := (i 0).isLt
  split
  · rename_i h
    rw [Option.some.injEq]
    constructor
    · intro e
      have := congrArg (fun f => ((f 0 : Fin 1000).val : Int)) e
      have h0 := (h 0).1
      have h2 : ((idx (ix2 (j 0) (0 : Fin 1))).toInt + ((0:Nat):Int)).toNat = (i 0).val := by
        exact_mod_cast this
      omega
    · intro e
      funext a
      obtain rfl : a = 0 := Subsingleton.elim _ _
      refine Fin.ext ?_
      show ((idx (ix2 (j 0) (0 : Fin 1))).toInt + ((0:Nat):Int)).toNat = (i 0).val
      omega
  · rename_i h
    constructor
    · intro e; cases e
    · intro e
      exfalso; apply h
      intro a
      obtain rfl : a = 0 := Subsingleton.elim _ _
      show 0 ≤ (idx (ix2 (j 0) (0 : Fin 1))).toInt + ((0:Nat):Int) ∧ (idx (ix2 (j 0) (0 : Fin 1))).toInt + ((0:Nat):Int) < ((1000:Nat):Int)
      omega

/-- The same by coordinates. -/
theorem dC_result' {w : Nat} (idx : IVec S262144x1 w) (b : Fin 262144) (k : Fin 1000) :
    dC.resultIdx? (ix1 b) idx = some (ix1 k) ↔ (idx (ix2 b (0 : Fin 1))).toInt = (k.val : Int) :=
  dC_result idx (ix1 b) (ix1 k)

/-! ## The sum scatter: updates `[262144, 128]`, result `[1000, 128]`, the column a window axis -/

/-- The sum scatter's dimension numbers. -/
abbrev dS := scatter_S1000x128_S262144x1_S262144x128_1_0_0_1

/-- Update `j` reads its start index at row `j 0` of the index column. -/
theorem dS_siIdx (j : S262144x128.Idx) (c : Fin dS.scatterDimsToOperandDims.length) :
    dS.siIdx j c = ix2 (j 0) (0 : Fin 1) := by
  funext b; refine Fin.ext ?_
  match b with
  | ⟨0, _⟩ => rfl
  | ⟨1, _⟩ =>
    show c.val = 0
    have := c.isLt
    have h1 : dS.scatterDimsToOperandDims.length = 1 := rfl
    omega

/-- On the row axis the window starts at the label, read signed … -/
theorem dS_start0 {w : Nat} (j : S262144x128.Idx) (idx : IVec S262144x1 w) :
    dS.start j idx 0 = (idx (ix2 (j 0) (0 : Fin 1))).toInt := by
  unfold ScatterDims.start
  rw [dif_pos (show (0 : Fin 2) ∈ dS.scatterDimsToOperandDims from List.mem_singleton.mpr rfl)]
  rw [dS_siIdx]
  rfl

/-- … and on the column axis at zero. -/
theorem dS_start1 {w : Nat} (j : S262144x128.Idx) (idx : IVec S262144x1 w) :
    dS.start j idx 1 = 0 := by
  unfold ScatterDims.start
  rw [dif_neg (by decide)]

/-- The row axis is inserted: no window coordinate … -/
theorem dS_window0 (j : S262144x128.Idx) : dS.window j 0 = 0 := by
  unfold ScatterDims.window
  rw [dif_neg (by decide)]

/-- … and the column axis carries the update's column. -/
theorem dS_window1 (j : S262144x128.Idx) : dS.window j 1 = (j 1).val := by
  unfold ScatterDims.window
  rw [dif_pos (by decide)]
  rfl

/-- Update `j` lands on `i` exactly when its row's label, read signed, is `i`'s row and the columns agree. -/
theorem dS_result {w : Nat} (idx : IVec S262144x1 w) (j : S262144x128.Idx) (i : S1000x128.Idx) :
    dS.resultIdx? j idx = some i ↔
      (idx (ix2 (j 0) (0 : Fin 1))).toInt = ((i 0).val : Int) ∧ (j 1).val = (i 1).val := by
  unfold ScatterDims.resultIdx?
  have hi0 : (i 0).val < 1000 := (i 0).isLt
  have hi1 : (i 1).val < 128 := (i 1).isLt
  have hj1 : (j 1).val < 128 := (j 1).isLt
  split
  · rename_i h
    rw [Option.some.injEq]
    constructor
    · intro e
      have e0 := congrArg (fun f => ((f 0 : Fin 1000).val)) e
      have e1 := congrArg (fun f => ((f 1 : Fin 128).val)) e
      have h0 := (h 0).1
      have e0' : (dS.start j idx 0 + (dS.window j 0 : Int)).toNat = (i 0).val := e0
      have e1' : (dS.start j idx 1 + (dS.window j 1 : Int)).toNat = (i 1).val := e1
      rw [dS_start0, dS_window0] at e0' h0
      rw [dS_start1, dS_window1] at e1'
      constructor <;> omega
    · rintro ⟨e0, e1⟩
      funext a
      refine Fin.ext ?_
      match a with
      | ⟨0, _⟩ =>
        show (dS.start j idx 0 + (dS.window j 0 : Int)).toNat = (i 0).val
        rw [dS_start0, dS_window0]; omega
      | ⟨1, _⟩ =>
        show (dS.start j idx 1 + (dS.window j 1 : Int)).toNat = (i 1).val
        rw [dS_start1, dS_window1]; omega
  · rename_i h
    constructor
    · intro e; cases e
    · rintro ⟨e0, e1⟩
      exfalso; apply h
      intro a
      match a with
      | ⟨0, _⟩ =>
        show 0 ≤ dS.start j idx 0 + (dS.window j 0 : Int) ∧ dS.start j idx 0 + (dS.window j 0 : Int) < ((1000:Nat):Int)
        rw [dS_start0, dS_window0]; omega
      | ⟨1, _⟩ =>
        show 0 ≤ dS.start j idx 1 + (dS.window j 1 : Int) ∧ dS.start j idx 1 + (dS.window j 1 : Int) < ((128:Nat):Int)
        rw [dS_start1, dS_window1]; omega

/-- The same by coordinates. -/
theorem dS_result' {w : Nat} (idx : IVec S262144x1 w) (b : Fin 262144) (e : Fin 128) (k : Fin 1000) (d : Fin 128) :
    dS.resultIdx? (ix2 b e) idx = some (ix2 k d) ↔ (idx (ix2 b (0 : Fin 1))).toInt = (k.val : Int) ∧ e.val = d.val :=
  dS_result idx (ix2 b e) (ix2 k d)

/-! ## Sums over a rank-1 index set -/

/-- A rank-1 index set is its coordinate range … -/
def rank1Equiv {n : Nat} : (⟨1, ![n]⟩ : Shape).Idx ≃ Fin n where
  toFun i := i 0
  invFun := ix1
  left_inv i := (eq_ix1 i).symm
  right_inv _ := rfl

/-- … so a sum over it is the sum over the coordinate. -/
theorem sum_rank1 {M : Type*} [AddCommMonoid M] {n : Nat} (f : (⟨1, ![n]⟩ : Shape).Idx → M) :
    ∑ i, f i = ∑ a : Fin n, f (ix1 a) :=
  (Equiv.sum_comp (rank1Equiv (n := n)).symm f).symm

/-! ## The labels -/

/-- The label column of the count scatter at row `b` is the label of `b`. -/
theorem v2_at (b : Fin 262144) : val_main_v2 (F := Ideal) x1 (ix2 b (0 : Fin 1)) = x1 (ix1 b) := by
  rw [val_main_v2_apply]
  exact congrArg x1 (funext fun a => match a with | ⟨0, _⟩ => rfl)

/-- The label column of the sum scatter at row `b` is the label of `b`. -/
theorem v5_at (b : Fin 262144) : val_main_v5 (F := Ideal) x1 (ix2 b (0 : Fin 1)) = x1 (ix1 b) := by
  rw [val_main_v5_apply]
  exact congrArg x1 (funext fun a => match a with | ⟨0, _⟩ => rfl)

/-- A label below 1000 read signed is itself. -/
theorem toInt_label (hy : ∀ b : Fin 262144, (x1 (ix1 b)).toNat < 1000) (b : Fin 262144) :
    (x1 (ix1 b)).toInt = ((x1 (ix1 b)).toNat : Int) :=
  Idealize.ShloMosaic.StableHlo.Predicate.toInt_eq_toNat_of_lt (lt_trans (hy b) (by norm_num))

/-! ## The gather: a table `[1000, 128]`, one start index per result row, the row kept whole -/

/-- The gather's dimension numbers. -/
abbrev dG := gather_S1000x128_S262144x1_S262144x128_1_0_n_n_0_1_1128

/-- Result index `j` reads its start index at row `j 0` of the index column. -/
theorem dG_siIdx (j : S262144x128.Idx) (c : Fin dG.startIndexMap.length) :
    dG.siIdx j c = ix2 (j 0) (0 : Fin 1) := by
  funext b; refine Fin.ext ?_
  match b with
  | ⟨0, _⟩ => rfl
  | ⟨1, _⟩ =>
    show c.val = 0
    have := c.isLt
    have h1 : dG.startIndexMap.length = 1 := rfl
    omega

/-- On the row axis the slice starts at the start index, read signed and clamped into the table … -/
theorem dG_start0 {w : Nat} (j : S262144x128.Idx) (idx : IVec S262144x1 w) :
    dG.start j idx 0 = min (idx (ix2 (j 0) (0 : Fin 1))).toInt.toNat 999 := by
  unfold GatherDims.start
  rw [dif_pos (show (0 : Fin 2) ∈ dG.startIndexMap from List.mem_singleton.mpr rfl), dG_siIdx]
  rfl

/-- … and on the column axis at zero. -/
theorem dG_start1 {w : Nat} (j : S262144x128.Idx) (idx : IVec S262144x1 w) : dG.start j idx 1 = 0 := by
  unfold GatherDims.start
  rw [dif_neg (by decide)]

/-- The row axis is collapsed: no offset coordinate … -/
theorem dG_off0 (j : S262144x128.Idx) : dG.offCoord j 0 = 0 := by
  unfold GatherDims.offCoord
  rw [dif_neg (by decide)]

/-- … and the column axis carries the result's column. -/
theorem dG_off1 (j : S262144x128.Idx) : dG.offCoord j 1 = (j 1).val := by
  unfold GatherDims.offCoord
  rw [dif_pos (by decide)]
  rfl

/-- The gather read by coordinates: row `b`, column `e` of the result is the table at the row the start index of `b`
    names, read signed and clamped into the table, and at column `e`. -/
theorem dG_read {α : Type} {w : Nat} (x : S1000x128.Idx → α) (idx : IVec S262144x1 w) (b : Fin 262144) (e : Fin 128) :
    Host.gather dG x idx (ix2 b e)
      = x (ix2 (⟨min (idx (ix2 b (0 : Fin 1))).toInt.toNat 999, by omega⟩ : Fin 1000) e) := by
  unfold Host.gather
  congr 1
  funext a
  refine Fin.ext ?_
  match a with
  | ⟨0, _⟩ =>
    show dG.start (ix2 b e) idx 0 + dG.batchCoord (ix2 b e) 0 + dG.offCoord (ix2 b e) 0 = _
    rw [dG_start0, dG.batchCoord_eq_zero _ _ List.not_mem_nil, dG_off0]
    rfl
  | ⟨1, _⟩ =>
    show dG.start (ix2 b e) idx 1 + dG.batchCoord (ix2 b e) 1 + dG.offCoord (ix2 b e) 1 = _
    rw [dG_start1, dG.batchCoord_eq_zero _ _ List.not_mem_nil, dG_off1]
    show 0 + 0 + e.val = e.val
    omega

/-- The wrapped label of a label below 1000 is the label: it is not negative, so the select keeps it. -/
theorem v19_at (hy : ∀ b : Fin 262144, (x1 (ix1 b)).toNat < 1000) (b : Fin 262144) :
    val_main_v19 (F := Ideal) x1 (ix2 b (0 : Fin 1)) = x1 (ix1 b) := by
  have hi : idx_main_v19 (ix2 b (0 : Fin 1)) = ix1 b := funext fun a => match a with | ⟨0, _⟩ => rfl
  rw [val_main_v19_apply, hi, val_main_v18_apply, val_main_v15_apply, val_main_v14_apply, val_main_c_apply]
  have hn : ¬ IntOp.cmpi .slt (x1 (ix1 b)) 0#32 = 1#1 := by
    rw [Idealize.ShloMosaic.StableHlo.Predicate.slt_iff_toNat (lt_trans (hy b) (by norm_num)) (by decide)]
    simp
  exact if_neg hn

/-- The gathered centroid of sample `b` is the centroid of its class: the label is inside the table, so the clamp
    keeps it. -/
theorem v20_at (hy : ∀ b : Fin 262144, (x1 (ix1 b)).toNat < 1000) (b : Fin 262144) (e : Fin 128) :
    val_main_v20 (F := Ideal) x0 x1 (ix2 b e)
      = val_main_v13 (F := Ideal) x0 x1 (ix2 (⟨(x1 (ix1 b)).toNat, hy b⟩ : Fin 1000) e) := by
  unfold val_main_v20
  generalize val_main_v13 (F := Ideal) x0 x1 = T
  rw [dG_read]
  refine congrArg T (congrArg (fun r : Fin 1000 => ix2 r e) (Fin.ext ?_))
  show min (val_main_v19 (F := Ideal) x1 (ix2 b (0 : Fin 1))).toInt.toNat 999 = (x1 (ix1 b)).toNat
  rw [v19_at x1 hy, toInt_label x1 hy, Int.toNat_natCast]
  have := hy b
  omega

end Seg

open Seg

/-- The class counts. -/
theorem counts_apply (hy : ∀ b : Fin 262144, (x1 (ix1 b)).toNat < 1000) (k : Fin 1000) :
    (val_main_v3 (F := Ideal) x1 : S1000.Idx → EReal) (ix1 k) = Cert.Spec.cnt (yv x1) k.val := by
  -- the scatter at row `k`: the operand there plus the updates that land there
  have hv3 : val_main_v3 (F := Ideal) x1 (ix1 k) = val_main_v1 (F := Ideal) (ix1 k)
      + ∑ j ∈ Finset.univ.filter (fun j => dC.resultIdx? j (val_main_v2 (F := Ideal) x1) = some (ix1 k)),
          val_main_v0 (F := Ideal) j := rfl
  have h1 : val_main_v1 (F := Ideal) (ix1 k) = 0 := by
    rw [val_main_v1_apply, val_main_cst_0_apply]; exact Cert.Consts.ofBits_zero
  have h0 : ∀ j, val_main_v0 (F := Ideal) j = 1 := fun j => by
    rw [val_main_v0_apply, val_main_cst_apply]; exact Cert.Consts.ofBits_one
  rw [hv3, h1, zero_add, Finset.sum_filter, sum_rank1]
  unfold Cert.Spec.cnt
  refine Finset.sum_congr rfl fun b _ => ?_
  rw [h0]
  exact if_congr (by rw [dC_result', v2_at, toInt_label x1 hy]; exact Int.ofNat_inj) rfl rfl

/-- The class sums. -/
theorem sums_apply (hy : ∀ b : Fin 262144, (x1 (ix1 b)).toNat < 1000) (k : Fin 1000) (d : Fin 128) :
    (val_main_v6 (F := Ideal) x0 x1 : S1000x128.Idx → EReal) (ix2 k d) = Cert.Spec.sm (yv x1) (zv x0) k.val d := by
  -- the scatter at `(k, d)`: the operand there plus the updates that land there
  have hv6 : val_main_v6 (F := Ideal) x0 x1 (ix2 k d) = val_main_v4 (F := Ideal) (ix2 k d)
      + ∑ j ∈ Finset.univ.filter (fun j => dS.resultIdx? j (val_main_v5 (F := Ideal) x1) = some (ix2 k d)), x0 j := rfl
  have h4 : val_main_v4 (F := Ideal) (ix2 k d) = 0 := by
    rw [val_main_v4_apply, val_main_cst_1_apply]; exact Cert.Consts.ofBits_zero
  rw [hv6, h4, zero_add, Finset.sum_filter, sum_idx2]
  unfold Cert.Spec.sm
  refine Finset.sum_congr rfl fun b _ => ?_
  have hP : ∀ e : Fin 128, dS.resultIdx? (ix2 b e) (val_main_v5 (F := Ideal) x1) = some (ix2 k d)
      ↔ ((x1 (ix1 b)).toNat = k.val ∧ e = d) := fun e => by
    rw [dS_result', v5_at, toInt_label x1 hy]
    exact and_congr Int.ofNat_inj Fin.val_inj
  rw [Finset.sum_congr rfl fun e _ => if_congr (hP e) rfl rfl]
  -- of row `b` only column `d` lands on `(k, d)`, and only when `b` is labelled `k`
  by_cases hb : (x1 (ix1 b)).toNat = k.val
  · rw [if_pos hb]
    simp only [hb, true_and]
    exact (Finset.sum_ite_eq' Finset.univ d (fun e => x0 (ix2 b e))).trans (if_pos (Finset.mem_univ d))
  · rw [if_neg hb]
    simp only [hb, false_and, if_false]
    exact Finset.sum_const_zero

/-- The presence bits. -/
theorem pres_apply (hy : ∀ b : Fin 262144, (x1 (ix1 b)).toNat < 1000) (k : Fin 1000) :
    (val_main_v8 (F := Ideal) x1 : S1000.Idx → BitVec 1) (ix1 k) = if 0 < Cert.Spec.cnt (yv x1) k.val then 1#1 else 0#1 := by
  rw [val_main_v8_apply, counts_apply x1 hy, val_main_v7_apply, val_main_cst_2_apply]
  show Ideal.cmp .ogt _ (Ideal.ofBits .f32 0x00000000#32) = _
  rw [Cert.Consts.ofBits_zero]
  unfold Ideal.cmp
  by_cases h : 0 < Cert.Spec.cnt (yv x1) k.val
  · simp [h]
  · simp [h]

/-- The centroid table. -/
theorem cent_apply (hy : ∀ b : Fin 262144, (x1 (ix1 b)).toNat < 1000) (k : Fin 1000) (d : Fin 128) :
    (val_main_v13 (F := Ideal) x0 x1 : S1000x128.Idx → EReal) (ix2 k d) = Cert.Spec.cent (yv x1) (zv x0) k.val d := by
  have hi : idx_main_v11 (idx_main_v12 (ix2 k d)) = ix1 k := funext fun a => match a with | ⟨0, _⟩ => rfl
  rw [val_main_v13_apply, Ideal.hostDivf_def, sums_apply x0 x1 hy, val_main_v12_apply, val_main_v11_apply, hi,
    val_main_v10_apply, Ideal.maximumf_def, counts_apply x1 hy, val_main_v9_apply, val_main_cst_3_apply, Ideal.ofBits_def,
    Cert.Consts.ofBits_one]
  rfl

/-- The summed squared distance. -/
theorem total_eq (hy : ∀ b : Fin 262144, (x1 (ix1 b)).toNat < 1000) :
    (val_main_v24 (F := Ideal) x0 x1 : S_.Idx → EReal) = fun _ => Cert.Spec.total (yv x1) (zv x0) := by
  funext i
  rw [val_main_v24_apply, val_main_cst_6_apply, Ideal.ofBits_def, Cert.Consts.ofBits_zero, zero_add, sum_rank1]
  unfold Cert.Spec.total
  refine Finset.sum_congr rfl fun b _ => ?_
  rw [val_main_v23_apply, val_main_cst_5_apply, Ideal.ofBits_def, Cert.Consts.ofBits_zero, zero_add]
  refine Finset.sum_congr rfl fun d _ => ?_
  have hi : idx_main_v23 (ix1 b) d = ix2 b d := funext fun a => match a with | ⟨0, _⟩ => rfl | ⟨1, _⟩ => rfl
  rw [hi, val_main_v22_apply, val_main_v21_apply, v20_at x0 x1 hy, cent_apply x0 x1 hy]
  rfl

end Cert.ReferenceIdeal.RefVal

end
-- ==== Proof.RefB.lean ====
/-
  The reference program's pair-similarity sum and class count, read at the ideal instance against the mathematics
  of Spec.lean, for labels in `[0, 1000)`.

  The reference forms `(2 · cent) · centᵀ`, which over the extended reals is `2 · (cent · centᵀ)` (a finite
  non-negative factor distributes over a sum), negates the floored squared distance and divides by two, which is the
  product with `-1/2`, selects the similarity where the strict-upper-triangle mask and both presence bits hold and
  zero elsewhere, and sums over all pairs. The class count is the integer sum of the presence bits, at most 1000, so
  it does not wrap, converted to a float exactly.
-/
import proofs.«408921_j38946763440455_1_alg».proof.Proof.RefA
import Idealize.ShloMosaic.PureOps.Reduce
import Idealize.ShloMosaic.Lib.StableHlo.Predicate
import Idealize.ShloMosaic.Lib.ValueIdx
import Mathlib.Data.EReal.Operations

noncomputable section

namespace Cert.ReferenceIdeal.RefVal

open Cert.ReferenceIdeal Cert.ReferenceIdeal.Gen Cert.ReferenceIdeal.Read Idealize.ShloMosaic Idealize.ShloMosaic.TcCoe Idealize.SL.Sem
open Idealize.ShloMosaic.ValueIdx

variable (x0 : S262144x128.Idx → EReal) (x1 : S262144.Idx → BitVec 32)

namespace PairSim

/-- A finite non-negative factor distributes over a finite sum of extended reals. -/
theorem coe_mul_sum {ι : Type} (s : Finset ι) (c : ℝ) (hc : 0 ≤ c) (f : ι → EReal) :
    (c : EReal) * ∑ k ∈ s, f k = ∑ k ∈ s, (c : EReal) * f k := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- The centroid table as the specification reads it. -/
abbrev ce : Fin 1000 → Fin 128 → EReal := fun k d => Cert.Spec.cent (yv x1) (zv x0) k.val d

/-- The row sums of the squared centroid table are the squared norms. -/
theorem sq_apply (hy : ∀ b : Fin 262144, (x1 (ix1 b)).toNat < 1000) (k : Fin 1000) :
    (val_main_v27 (F := Ideal) x0 x1 : S1000.Idx → EReal) (ix1 k) = Cert.Spec.sqnOf (ce x0 x1) k := by
  rw [val_main_v27_apply, val_main_cst_8_apply, Ideal.ofBits_def, Cert.Consts.ofBits_zero, zero_add]
  unfold Cert.Spec.sqnOf
  refine Finset.sum_congr rfl fun d _ => ?_
  rw [val_main_v26_apply, Ideal.mulf_def]
  have e : idx_main_v27 (ix1 k) d = ix2 k d := by
    funext a; match a with | ⟨0, _⟩ => rfl | ⟨1, _⟩ => rfl
  rw [e, cent_apply x0 x1 hy k d]

/-- The product of the doubled table with the transposed table is twice the Gram matrix. -/
theorem gram2_apply (hy : ∀ b : Fin 262144, (x1 (ix1 b)).toNat < 1000) (i j : Fin 1000) :
    (val_main_v36 (F := Ideal) x0 x1 : S1000x1000.Idx → EReal) (ix2 i j)
      = ((2 : ℝ) : EReal) * Cert.Spec.gramOf (ce x0 x1) i j := by
  rw [val_main_v36_apply]
  unfold Cert.Spec.gramOf
  rw [coe_mul_sum _ 2 (by norm_num)]
  refine Finset.sum_congr rfl fun d _ => ?_
  have el : lidx_main_v36 (ix2 i j) d = ix2 i d := by
    funext a; match a with | ⟨0, _⟩ => rfl | ⟨1, _⟩ => rfl
  have er : idx_main_v35 (ridx_main_v36 (ix2 i j) d) = ix2 j d := by
    funext a; match a with | ⟨0, _⟩ => rfl | ⟨1, _⟩ => rfl
  rw [val_main_v34_apply, val_main_v35_apply, val_main_v33_apply, val_main_cst_9_apply, Ideal.ofBits_def,
    Cert.Consts.ofBits_two, Ideal.mulf_def, el, er, cent_apply x0 x1 hy i d, cent_apply x0 x1 hy j d, mul_assoc]

/-- The exponentiated, halved, negated, floored squared distance is the Gaussian similarity. -/
theorem sim_apply (hy : ∀ b : Fin 262144, (x1 (ix1 b)).toNat < 1000) (i j : Fin 1000) :
    (val_main_v43 (F := Ideal) x0 x1 : S1000x1000.Idx → EReal) (ix2 i j) = Cert.Spec.simOf (ce x0 x1) i j := by
  have e30 : idx_main_v28 (idx_main_v30 (ix2 i j)) = ix1 i := by
    funext a; match a with | ⟨0, _⟩ => rfl
  have e31 : idx_main_v29 (idx_main_v31 (ix2 i j)) = ix1 j := by
    funext a; match a with | ⟨0, _⟩ => rfl
  rw [val_main_v43_apply, Ideal.hostUnary_exp_def, val_main_v42_apply, Ideal.hostDivf_def, val_main_v41_apply,
    val_main_cst_11_apply, Ideal.ofBits_def, Cert.Consts.ofBits_two, Ideal.div_coe (by norm_num : (2 : ℝ) ≠ 0),
    val_main_v40_apply, Ideal.hostNegf_def, Ideal.negf_def, val_main_v39_apply, Ideal.maximumf_def,
    val_main_v38_apply, val_main_cst_10_apply, Ideal.ofBits_def, Cert.Consts.ofBits_zero,
    val_main_v37_apply, Ideal.subf_def, val_main_v32_apply, Ideal.addf_def, val_main_v30_apply, val_main_v28_apply,
    val_main_v31_apply, val_main_v29_apply, e30, e31, sq_apply x0 x1 hy i, sq_apply x0 x1 hy j, gram2_apply x0 x1 hy i j]
  unfold Cert.Spec.simOf
  rw [EReal.neg_mul, ← mul_neg, ← EReal.coe_neg]

/-- The strict-upper-triangle mask: set exactly above the diagonal. -/
theorem triu_apply (i j : Fin 1000) :
    (val_main_v45 (F := Ideal) : S1000x1000.Idx → BitVec 1) (ix2 i j) = if i.val < j.val then 1#1 else 0#1 := by
  have hi : (BitVec.ofNat 32 i.val).toNat = i.val := by
    rw [BitVec.toNat_ofNat]; exact Nat.mod_eq_of_lt (by have := i.isLt; omega)
  have hj : (BitVec.ofNat 32 j.val).toNat = j.val := by
    rw [BitVec.toNat_ofNat]; exact Nat.mod_eq_of_lt (by have := j.isLt; omega)
  rw [val_main_v45_apply, val_main_call0_v4_apply, val_main_call0_v2_apply, val_main_call0_v0_apply,
    val_main_call0_v1_apply, val_main_call0_c_apply, val_main_call0_v3_apply, val_main_call0_v5_apply,
    val_main_call0_c_0_apply, val_main_v44_apply, val_main_c_12_apply]
  show Scalar.select (IntOp.cmpi .sge (BitVec.ofNat 32 i.val + 0#32) (BitVec.ofNat 32 j.val)) 0#1 1#1 = _
  rw [BitVec.add_zero]
  have hiff := StableHlo.Predicate.sge_iff_toNat (a := BitVec.ofNat 32 i.val) (b := BitVec.ofNat 32 j.val)
    (by rw [hi]; have := i.isLt; omega) (by rw [hj]; have := j.isLt; omega)
  rw [hi, hj] at hiff
  by_cases h : i.val < j.val
  · rw [if_pos h, eq_zero_of_ne_one (fun e => absurd (hiff.mp e) (by omega)), select_zero]
  · rw [if_neg h, hiff.mpr (by omega), select_one]

/-- The pair mask: above the diagonal with both classes present. -/
theorem mask_apply (hy : ∀ b : Fin 262144, (x1 (ix1 b)).toNat < 1000) (i j : Fin 1000) :
    (val_main_v51 (F := Ideal) x1 : S1000x1000.Idx → BitVec 1) (ix2 i j)
      = if i.val < j.val ∧ 0 < Cert.Spec.cnt (yv x1) i.val ∧ 0 < Cert.Spec.cnt (yv x1) j.val then 1#1 else 0#1 := by
  have e47 : idx_main_v46 (idx_main_v47 (ix2 i j)) = ix1 i := by
    funext a; match a with | ⟨0, _⟩ => rfl
  have e50 : idx_main_v49 (idx_main_v50 (ix2 i j)) = ix1 j := by
    funext a; match a with | ⟨0, _⟩ => rfl
  rw [val_main_v51_apply, val_main_v48_apply, val_main_v47_apply, val_main_v46_apply, val_main_v50_apply,
    val_main_v49_apply, e47, e50, triu_apply, pres_apply x1 hy i, pres_apply x1 hy j]
  by_cases h1 : i.val < j.val <;> by_cases h2 : 0 < Cert.Spec.cnt (yv x1) i.val <;>
    by_cases h3 : 0 < Cert.Spec.cnt (yv x1) j.val <;> simp only [h1, h2, h3, if_true, if_false, and_self, and_true, and_false, true_and, false_and] <;> decide

/-- The masked similarity: the similarity weighted by the two presence flags above the diagonal, zero elsewhere. -/
theorem masked_apply (hy : ∀ b : Fin 262144, (x1 (ix1 b)).toNat < 1000) (i j : Fin 1000) :
    (val_main_v58 (F := Ideal) x0 x1 : S1000x1000.Idx → EReal) (ix2 i j)
      = if i.val < j.val then Cert.Spec.simOf (ce x0 x1) i j * (Cert.Spec.pres (yv x1) i.val * Cert.Spec.pres (yv x1) j.val) else 0 := by
  rw [val_main_v58_apply, mask_apply x1 hy i j, sim_apply x0 x1 hy i j, val_main_call1_v1_apply, val_main_call1_v0_apply,
    val_main_cst_16_apply, Ideal.ofBits_def, Cert.Consts.ofBits_zero]
  unfold Cert.Spec.pres
  by_cases h1 : i.val < j.val
  · by_cases h2 : 0 < Cert.Spec.cnt (yv x1) i.val
    · by_cases h3 : 0 < Cert.Spec.cnt (yv x1) j.val
      · rw [if_pos ⟨h1, h2, h3⟩, select_one, if_pos h1, if_pos h2, if_pos h3, mul_one, mul_one]
      · rw [if_neg (fun h => h3 h.2.2), select_zero, if_pos h1, if_neg h3, mul_zero, mul_zero]
    · rw [if_neg (fun h => h2 h.2.1), select_zero, if_pos h1, if_neg h2, zero_mul, mul_zero]
  · rw [if_neg (fun h => h1 h.1), select_zero, if_neg h1]

/-- A rank-1 index set is its coordinate range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The coercion of reals into the extended reals commutes with finite sums. -/
theorem coe_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- There are at most 1000 present classes. -/
theorem count_le : (∑ k : Fin 1000, if 0 < Cert.Spec.cnt (yv x1) k.val then 1 else 0) ≤ 1000 := by
  refine (Finset.sum_le_sum (g := fun _ => 1) fun k _ => ?_).trans (by simp)
  split_ifs <;> omega

/-- The integer sum of the widened presence bits is the number of present classes: it does not wrap. -/
theorem count_toNat (hy : ∀ b : Fin 262144, (x1 (ix1 b)).toNat < 1000) (i : S_.Idx) :
    (val_main_v53 (F := Ideal) x1 i).toNat
      = ∑ k : Fin 1000, if 0 < Cert.Spec.cnt (yv x1) k.val then 1 else 0 := by
  classical
  have hsum : ∑ i' : S1000.Idx, (val_main_v52 (F := Ideal) x1 i').toNat
      = ∑ k : Fin 1000, if 0 < Cert.Spec.cnt (yv x1) k.val then 1 else 0 := by
    rw [sum_idx1]
    refine Finset.sum_congr rfl fun k _ => ?_
    rw [val_main_v52_apply, StableHlo.Predicate.toNat_setWidth_bit, pres_apply x1 hy k]
    by_cases h : 0 < Cert.Spec.cnt (yv x1) k.val
    · rw [if_pos h, if_pos rfl, if_pos h]
    · rw [if_neg h, if_neg (by decide), if_neg h]
  have hle := count_le x1
  unfold val_main_v53
  rw [Host.reduce_eq_fold]
  have hf : (Finset.univ.filter fun i' : S1000.Idx => reducesTo_S1000_S_d0.drop i' = i) = Finset.univ :=
    Finset.filter_true_of_mem fun a _ => funext fun b => b.elim0
  rw [hf, val_main_c_13_apply, StableHlo.Predicate.toNat_fold_addi _ _ (by rw [hsum]; omega), hsum]

end PairSim

/-- The summed pair similarity. -/
theorem sumsim_eq (hy : ∀ b : Fin 262144, (x1 (ix1 b)).toNat < 1000) :
    (val_main_v59 (F := Ideal) x0 x1 : S_.Idx → EReal) = fun _ => Cert.Spec.sumsim (yv x1) (zv x0) 1000 := by
  funext i
  rw [val_main_v59_apply, val_main_cst_17_apply, Ideal.ofBits_def, Cert.Consts.ofBits_zero, zero_add, sum_idx2]
  unfold Cert.Spec.sumsim Cert.Spec.sumsimOf
  refine Finset.sum_congr rfl fun a _ => Finset.sum_congr rfl fun b _ => ?_
  exact PairSim.masked_apply x0 x1 hy a b

/-- The class count. -/
theorem kf_eq (hy : ∀ b : Fin 262144, (x1 (ix1 b)).toNat < 1000) :
    (val_main_v54 (F := Ideal) x1 : S_.Idx → EReal) = fun _ => Cert.Spec.kf (yv x1) 1000 := by
  funext i
  have hn := PairSim.count_toNat x1 hy i
  have hle := PairSim.count_le x1
  rw [val_main_v54_apply]
  show (((val_main_v53 (F := Ideal) x1 i).toInt : ℝ) : EReal) = _
  rw [StableHlo.Predicate.toInt_eq_toNat_of_lt (by rw [hn]; omega), hn, Int.cast_natCast, Nat.cast_sum,
    PairSim.coe_sum]
  unfold Cert.Spec.kf Cert.Spec.kfOf Cert.Spec.pres
  refine Finset.sum_congr rfl fun k _ => ?_
  show (((if 0 < Cert.Spec.cnt (yv x1) k.val then 1 else 0 : ℕ) : ℝ) : EReal)
    = if 0 < Cert.Spec.cnt (yv x1) k.val then 1 else 0
  by_cases h : 0 < Cert.Spec.cnt (yv x1) k.val
  · rw [if_pos h, if_pos h, Nat.cast_one, EReal.coe_one]
  · rw [if_neg h, if_neg h, Nat.cast_zero, EReal.coe_zero]

end Cert.ReferenceIdeal.RefVal

end
-- ==== Proof.RefC.lean ====
/-
  The reference program's result at the ideal instance: the shared post-processing of the three scalars of the
  labelled batch, for labels in `[0, 1000)`.
-/
import proofs.«408921_j38946763440455_1_alg».proof.Proof.RefA
import proofs.«408921_j38946763440455_1_alg».proof.Proof.RefB
import proofs.«408921_j38946763440455_1_alg».proof.Proof.Tail

noncomputable section

namespace Cert.ReferenceIdeal.RefVal

open Cert.ReferenceIdeal Cert.ReferenceIdeal.Gen Cert.ReferenceIdeal.Read Idealize.ShloMosaic Idealize.ShloMosaic.TcCoe Idealize.SL.Sem
open Idealize.ShloMosaic.ValueIdx

variable (x0 : S262144x128.Idx → EReal) (x1 : S262144.Idx → BitVec 32)

/-- The reference's last stage is the shared post-processing of its three scalar stages (the same operations on the same literals). -/
theorem val_v82_eq_tail {F : FTy → Type} [FloatOps F] (x0 : (⟨S262144x128, .f32⟩ : BufTy).Contents (Elt F)) (x1 : (⟨S262144, .i32⟩ : BufTy).Contents (Elt F)) :
    val_main_v82 (F := F) x0 x1
      = Cert.Tail.tail (Cert.Tail.lintra (val_main_v24 (F := F) x0 x1)) (val_main_v59 (F := F) x0 x1) (val_main_v54 (F := F) x1) := by
  unfold Cert.Tail.tail Cert.Tail.lintra Cert.Tail.clip
  simp only [val_main_v82, val_main_v81, val_main_v80, val_main_v79, val_main_v78, val_main_v77, val_main_cst_29, val_main_v76, val_main_v75, val_main_cst_28, val_main_v74, val_main_cst_27, val_main_v73, val_main_cst_26, val_main_v72, val_main_cst_25, val_main_v71, val_main_v70, val_main_v69, val_main_cst_24, val_main_v68, val_main_v67, val_main_call3_v2, val_main_call3_v1, val_main_call3_v0, val_main_cst_23, val_main_cst_22, val_main_v66, val_main_v65, val_main_call2_v2, val_main_call2_v1, val_main_call2_v0, val_main_cst_21, val_main_cst_20, val_main_v64, val_main_v63, val_main_cst_19, val_main_v62, val_main_v61, val_main_v60, val_main_cst_18, val_main_v57, val_main_cst_15, val_main_v56, val_main_v55, val_main_cst_14, val_main_v25, val_main_cst_7]

theorem result_r (hy : ∀ b : Fin 262144, (x1 (ix1 b)).toNat < 1000) :
    val_main_v82 (F := Ideal) x0 x1
      = Cert.Tail.tail (F := Ideal) (Cert.Tail.lintra (F := Ideal) (fun _ => Cert.Spec.total (yv x1) (zv x0)))
          (fun _ => Cert.Spec.sumsim (yv x1) (zv x0) 1000) (fun _ => Cert.Spec.kf (yv x1) 1000) := by
  rw [val_v82_eq_tail, total_eq x0 x1 hy, sumsim_eq x0 x1 hy, kf_eq x1 hy]

end Cert.ReferenceIdeal.RefVal

end
-- ==== Proof.Pre.lean ====
/-
  What the precondition says of the labels: every label, read as a signed 32-bit word, lies in `[0, 1000)`; so read
  as a natural number it is below 1000.
-/
import proofs.«408921_j38946763440455_1_alg».proof.Pre_finite_inputs
import proofs.«408921_j38946763440455_1_alg».proof.Proof.Gen.Pre_finite_inputs
import Idealize.ShloMosaic.Lib.StableHlo.Predicate
import Idealize.ShloMosaic.Lib.ReduceAll
import Idealize.ShloMosaic.Lib.ValueIdx

noncomputable section

namespace Cert.PreFacts

open Idealize.ShloMosaic Idealize.ShloMosaic.ValueIdx Cert.Pre_finite_inputs

/-- A 32-bit word whose signed reading lies in [0, 1000) reads below 1000 as a natural number. -/
theorem toNat_lt_of_toInt_range (a : BitVec 32) (h0 : (0#32 : BitVec 32).toInt ≤ a.toInt)
    (h1 : a.toInt < (1000#32 : BitVec 32).toInt) : a.toNat < 1000 := by
  have e0 : (0#32 : BitVec 32).toInt = 0 := by decide
  have e1 : (1000#32 : BitVec 32).toInt = 1000 := by decide
  rw [e0] at h0
  rw [e1] at h1
  have hlt : a.toNat < 2 ^ 32 := a.isLt
  rw [BitVec.toInt_eq_toNat_cond] at h0 h1
  split at h0 <;> omega

/-- Under the precondition every label is below 1000. -/
theorem label_range (z : FVec Ideal S262144x128 .f32) (y : IVec S262144 32)
    (h : Cert.Pre_finite_inputs.fn (F := Ideal) z y = fun _ => 1#1) :
    ∀ b : Fin 262144, (y (ix1 b)).toNat < 1000 := by
  intro b
  haveI : Subsingleton S_.Idx := ⟨fun a b => funext fun d => d.elim0⟩
  have h0 := congrFun h ValueIdx.ix0
  dsimp only [fn] at h0
  have h1 := (IntOp.andi_eq_one.1 h0).2
  have h2 := Host.reduce_andi_all _ _ _ _ _ h1 (ix1 b)
  have h3 := IntOp.andi_eq_one.1 h2
  obtain ⟨hge, hlt⟩ := h3
  have hge' : (0#32 : BitVec 32).toInt ≤ (y (ix1 b)).toInt := IntOp.cmpi_sge.1 hge
  have hlt' : (y (ix1 b)).toInt < (1000#32 : BitVec 32).toInt := IntOp.cmpi_slt.1 hlt
  exact toNat_lt_of_toInt_range _ hge' hlt'

end Cert.PreFacts

end
-- ==== Proof.lean ====
/-
  The certificate of a clustering loss kernel against its reference, over the extended reals.

  Both programs take 262144 samples in dimension 128 and an integer label per sample and return one scalar:
  the mean squared distance of the samples to their class centroids and the mean Gaussian similarity of the
  centroids of the classes present, mixed by weights computed from the two. The kernel computes the class sums and
  counts by one-hot matrix products over 1024 padded classes in three tiled regions; the reference by scatter sums
  over 1000 classes, a gather and dense array operations. Under the precondition — every sample finite and every
  label in `[0, 1000)` — both results are the same function (Spec.lean, Tail.lean) of the labelled batch:
  the padded classes 1000 … 1023 are empty, hence absent from every sum.

  The three frames are the generated ones (the reference's from its run); the ideal pass rewrote nothing, so the
  kernel's idealization is its own text; the equivalence joins the kernel's run (its result array read through the
  three regions) and the reference's run at that common function.
-/
import proofs.«408921_j38946763440455_1_alg».proof.Defs
import proofs.«408921_j38946763440455_1_alg».proof.Proof.Gen.Kernel
import proofs.«408921_j38946763440455_1_alg».proof.Proof.Gen.Kernel.Skeleton
import proofs.«408921_j38946763440455_1_alg».proof.Proof.Gen.Kernel.Launch
import proofs.«408921_j38946763440455_1_alg».proof.Proof.Gen.Kernel.Points
import proofs.«408921_j38946763440455_1_alg».proof.Proof.Gen.Kernel.Frame
import proofs.«408921_j38946763440455_1_alg».proof.Proof.Gen.KernelIdeal
import proofs.«408921_j38946763440455_1_alg».proof.Proof.Gen.KernelIdeal.Skeleton
import proofs.«408921_j38946763440455_1_alg».proof.Proof.Gen.KernelIdeal.Launch
import proofs.«408921_j38946763440455_1_alg».proof.Proof.Gen.KernelIdeal.Points
import proofs.«408921_j38946763440455_1_alg».proof.Proof.Gen.KernelIdeal.Frame
import proofs.«408921_j38946763440455_1_alg».proof.Proof.Gen.ReferenceIdeal
import proofs.«408921_j38946763440455_1_alg».proof.Proof.Gen.Pre_finite_inputs
import proofs.«408921_j38946763440455_1_alg».proof.Proof.KRun
import proofs.«408921_j38946763440455_1_alg».proof.Proof.KVal
import proofs.«408921_j38946763440455_1_alg».proof.Proof.RefC
import proofs.«408921_j38946763440455_1_alg».proof.Proof.Pre
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the samples and the labels, with every label in `[0, 1000)`, the kernel's result
    array and the reference's both end at the shared post-processing of the batch's summed squared distance,
    summed pair similarity and class count. -/
theorem algebraic : Cert.algebraic_KernelIdeal_ReferenceIdeal := by
  intro m ρ m' ρ' hpre hagree
  have hy : ∀ c : Dev Cert.KernelIdeal.nD, ∀ b : Fin 262144, Cert.KernelIdeal.Val.yv m c b < 1000 :=
    fun c => Cert.PreFacts.label_range _ _ (hpre c)
  refine ⟨fun c => Cert.Tail.tail (F := Ideal) (Cert.Tail.lintra (F := Ideal) (fun _ => Cert.Spec.total (Cert.KernelIdeal.Val.yv m c) (Cert.KernelIdeal.Val.zv m c)))
      (fun _ => Cert.Spec.sumsim (Cert.KernelIdeal.Val.yv m c) (Cert.KernelIdeal.Val.zv m c) 1000)
      (fun _ => Cert.Spec.kf (Cert.KernelIdeal.Val.yv m c) 1000), ?_, ?_⟩
  · exact (θ_run Cert.KernelIdeal.defs _ _).mono
      (fun _ h c => ⟨(h c).1.trans (Cert.KernelIdeal.Val.result_k m ρ c (hy c)), (h c).2.1, (h c).2.2⟩)
      (Cert.KernelIdeal.Gen.run (F := Ideal) m ρ)
  · refine (θ_run Cert.ReferenceIdeal.defs _ _).mono (fun _ h c => ⟨?_, (h c).2.1, (h c).2.2⟩)
      (Cert.ReferenceIdeal.Value.run (F := Ideal) m' ρ')
    rw [(h c).1, Cert.ReferenceIdeal.Read.val_main_v82_eq, (hagree c).1, (hagree c).2]
    exact Cert.ReferenceIdeal.RefVal.result_r _ _ (hy c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
